-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v333) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : IVec S2048x1024 32) (main_arg2 : IVec S2048x1024 32) (main_arg3 : IVec S2048 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 32 := constantI S_ 32 0#32
  let main_v4 : IVec S2048x1024 32 := broadcastInDim S2048x1024 ![] bcast_S_S2048x1024 main_c_0
  let main_v5 : IVec S2048x1024 1 := cmpi .sge main_arg1 main_v4
  let main_c_1 : IVec S_ 1 := constantI S_ 1 1#1
  let main_v6 : IVec S_ 1 := (fun x v => Host.reduce IntOp.andi x v reducesTo_S2048x1024_S_d0_1 h_S_) main_v5 main_c_1
  let main_v7 : IVec S_ 1 := andi main_v3 main_v6
  let main_c_2 : IVec S_ 32 := constantI S_ 32 0#32
  let main_v8 : IVec S2048x1024 32 := broadcastInDim S2048x1024 ![] bcast_S_S2048x1024 main_c_2
  let main_v9 : IVec S2048x1024 1 := cmpi .sge main_arg2 main_v8
  let main_c_3 : IVec S_ 1 := constantI S_ 1 1#1
  let main_v10 : IVec S_ 1 := (fun x v => Host.reduce IntOp.andi x v reducesTo_S2048x1024_S_d0_1 h_S_) main_v9 main_c_3
  let main_v11 : IVec S_ 1 := andi main_v7 main_v10
  main_v11
-- ==== Kernel.lean ====
abbrev S2048x1024 : Shape := ⟨2, ![2048, 1024]⟩
abbrev S2048 : Shape := ⟨1, ![2048]⟩
abbrev S2048x1 : Shape := ⟨2, ![2048, 1]⟩
abbrev S2048x2 : Shape := ⟨2, ![2048, 2]⟩
abbrev S256x1024 : Shape := ⟨2, ![256, 1024]⟩
abbrev S256x2 : Shape := ⟨2, ![256, 2]⟩
abbrev S256 : Shape := ⟨1, ![256]⟩
abbrev S256x1 : Shape := ⟨2, ![256, 1]⟩
abbrev S_ : Shape := ⟨0, ![]⟩
abbrev S2048x3x256 : Shape := ⟨3, ![2048, 3, 256]⟩
abbrev S16x128 : Shape := ⟨2, ![16, 128]⟩
abbrev S16x3x256 : Shape := ⟨3, ![16, 3, 256]⟩
abbrev S16x128x256 : Shape := ⟨3, ![16, 128, 256]⟩
abbrev S16x128x1 : Shape := ⟨3, ![16, 128, 1]⟩
abbrev S16x256 : Shape := ⟨2, ![16, 256]⟩
abbrev S16x1x256 : Shape := ⟨3, ![16, 1, 256]⟩
abbrev S2048x3x128 : Shape := ⟨3, ![2048, 3, 128]⟩
abbrev S32x128 : Shape := ⟨2, ![32, 128]⟩
abbrev S32x3x128 : Shape := ⟨3, ![32, 3, 128]⟩
abbrev S32x128x128 : Shape := ⟨3, ![32, 128, 128]⟩
abbrev S32x128x1 : Shape := ⟨3, ![32, 128, 1]⟩
abbrev S32x1x128 : Shape := ⟨3, ![32, 1, 128]⟩
abbrev S2048x1x200 : Shape := ⟨3, ![2048, 1, 200]⟩
abbrev S2048x200 : Shape := ⟨2, ![2048, 200]⟩
abbrev S2048x1x100 : Shape := ⟨3, ![2048, 1, 100]⟩
abbrev S2048x100 : Shape := ⟨2, ![2048, 100]⟩
abbrev S200 : Shape := ⟨1, ![200]⟩
abbrev S1 : Shape := ⟨1, ![1]⟩
abbrev S1x200 : Shape := ⟨2, ![1, 200]⟩
abbrev S100 : Shape := ⟨1, ![100]⟩
abbrev S1x100 : Shape := ⟨2, ![1, 100]⟩
abbrev S2048x906 : Shape := ⟨2, ![2048, 906]⟩

abbrev nBuf : Space → Nat
  | .hbm => 165
  | .vmem => 12
  | .smem => 0
  | _ => 0

abbrev hbmTy0_0 (i : Nat) : BufTy := match i % 128 with
  | 0 => ⟨S2048x1024, .f32⟩
  | 1 => ⟨S2048x1024, .i32⟩
  | 2 => ⟨S2048x1024, .i32⟩
  | 3 => ⟨S2048, .i32⟩
  | 4 => ⟨S2048, .f32⟩
  | 5 => ⟨S2048x1, .f32⟩
  | 6 => ⟨S2048x2, .f32⟩
  | 7 => ⟨S2048x1, .f32⟩
  | 8 => ⟨S2048, .f32⟩
  | 9 => ⟨S2048x1, .f32⟩
  | 10 => ⟨S2048, .f32⟩
  | 11 => ⟨S2048x1, .f32⟩
  | 12 => ⟨S2048, .f32⟩
  | 13 => ⟨S2048x1, .f32⟩
  | 14 => ⟨S2048, .f32⟩
  | 15 => ⟨S2048, .f32⟩
  | 16 => ⟨S2048, .f32⟩
  | 17 => ⟨S_, .f32⟩
  | 18 => ⟨S2048, .f32⟩
  | 19 => ⟨S2048, .f32⟩
  | 20 => ⟨S_, .f32⟩
  | 21 => ⟨S2048, .f32⟩
  | 22 => ⟨S2048, .f32⟩
  | 23 => ⟨S2048, .f32⟩
  | 24 => ⟨S_, .f32⟩
  | 25 => ⟨S2048, .f32⟩
  | 26 => ⟨S2048, .f32⟩
  | 27 => ⟨S2048x1, .f32⟩
  | 28 => ⟨S2048x3x256, .f32⟩
  | 29 => ⟨S2048x3x128, .f32⟩
  | 30 => ⟨S2048x1x200, .f32⟩
  | 31 => ⟨S2048x200, .f32⟩
  | 32 => ⟨S2048x1x200, .f32⟩
  | 33 => ⟨S2048x200, .f32⟩
  | 34 => ⟨S2048x1x200, .f32⟩
  | 35 => ⟨S2048x200, .f32⟩
  | 36 => ⟨S2048x1x100, .f32⟩
  | 37 => ⟨S2048x100, .f32⟩
  | 38 => ⟨S2048x1x100, .f32⟩
  | 39 => ⟨S2048x100, .f32⟩
  | 40 => ⟨S2048x1x100, .f32⟩
  | 41 => ⟨S2048x100, .f32⟩
  | 42 => ⟨S_, .f32⟩
  | 43 => ⟨S200, .f32⟩
  | 44 => ⟨S_, .i32⟩
  | 45 => ⟨S1, .i32⟩
  | 46 => ⟨S_, .f32⟩
  | 47 => ⟨S200, .f32⟩
  | 48 => ⟨S1x200, .f32⟩
  | 49 => ⟨S2048x200, .f32⟩
  | 50 => ⟨S2048x200, .f32⟩
  | 51 => ⟨S_, .f32⟩
  | 52 => ⟨S2048, .f32⟩
  | 53 => ⟨S2048x1, .f32⟩
  | 54 => ⟨S_, .f32⟩
  | 55 => ⟨S2048x1, .f32⟩
  | 56 => ⟨S2048x1, .f32⟩
  | 57 => ⟨S2048x200, .f32⟩
  | 58 => ⟨S2048x200, .f32⟩
  | 59 => ⟨S2048x200, .f32⟩
  | 60 => ⟨S2048x200, .f32⟩
  | 61 => ⟨S_, .f32⟩
  | 62 => ⟨S2048, .f32⟩
  | 63 => ⟨S2048x1, .f32⟩
  | 64 => ⟨S_, .f32⟩
  | 65 => ⟨S2048x1, .f32⟩
  | 66 => ⟨S2048x1, .f32⟩
  | 67 => ⟨S2048x200, .f32⟩
  | 68 => ⟨S2048x200, .f32⟩
  | 69 => ⟨S2048x200, .f32⟩
  | 70 => ⟨S_, .f32⟩
  | 71 => ⟨S2048x200, .f32⟩
  | 72 => ⟨S2048x200, .f32⟩
  | 73 => ⟨S2048x200, .f32⟩
  | 74 => ⟨S2048x200, .f32⟩
  | 75 => ⟨S_, .f32⟩
  | 76 => ⟨S2048x200, .f32⟩
  | 77 => ⟨S2048x200, .f32⟩
  | 78 => ⟨S_, .f32⟩
  | 79 => ⟨S2048x200, .f32⟩
  | 80 => ⟨S2048x200, .f32⟩
  | 81 => ⟨S_, .f32⟩
  | 82 => ⟨S2048x200, .f32⟩
  | 83 => ⟨S2048x200, .f32⟩
  | 84 => ⟨S2048x200, .f32⟩
  | 85 => ⟨S_, .f32⟩
  | 86 => ⟨S2048x200, .f32⟩
  | 87 => ⟨S2048x200, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S2048x200, .f32⟩
  | 95 => ⟨S2048x200, .f32⟩
  | 96 => ⟨S_, .f32⟩
  | 97 => ⟨S2048x200, .f32⟩
  | 98 => ⟨S2048x200, .i1⟩
  | 99 => ⟨S2048x200, .f32⟩
  | 100 => ⟨S_, .f32⟩
  | 101 => ⟨S2048, .f32⟩
  | 102 => ⟨S2048x1, .f32⟩
  | 103 => ⟨S_, .f32⟩
  | 104 => ⟨S100, .f32⟩
  | 105 => ⟨S_, .i32⟩
  | 106 => ⟨S1, .i32⟩
  | 107 => ⟨S_, .f32⟩
  | 108 => ⟨S100, .f32⟩
  | 109 => ⟨S1x100, .f32⟩
  | 110 => ⟨S2048x100, .f32⟩
  | 111 => ⟨S2048x100, .f32⟩
  | 112 => ⟨S_, .f32⟩
  | 113 => ⟨S2048, .f32⟩
  | 114 => ⟨S2048x1, .f32⟩
  | 115 => ⟨S_, .f32⟩
  | 116 => ⟨S2048x1, .f32⟩
  | 117 => ⟨S2048x1, .f32⟩
  | 118 => ⟨S2048x100, .f32⟩
  | 119 => ⟨S2048x100, .f32⟩
  | 120 => ⟨S2048x100, .f32⟩
  | 121 => ⟨S2048x100, .f32⟩
  | 122 => ⟨S_, .f32⟩
  | 123 => ⟨S2048, .f32⟩
  | 124 => ⟨S2048x1, .f32⟩
  | 125 => ⟨S_, .f32⟩
  | 126 => ⟨S2048x1, .f32⟩
  | 127 => ⟨S2048x1, .f32⟩
  | _ => ⟨S2048x1024, .f32⟩

abbrev hbmTy0_1 (i : Nat) : BufTy := match i % 128 with
  | 0 => ⟨S2048x100, .f32⟩
  | 1 => ⟨S2048x100, .f32⟩
  | 2 => ⟨S2048x100, .f32⟩
  | 3 => ⟨S_, .f32⟩
  | 4 => ⟨S2048x100, .f32⟩
  | 5 => ⟨S2048x100, .f32⟩
  | 6 => ⟨S2048x100, .f32⟩
  | 7 => ⟨S2048x100, .f32⟩
  | 8 => ⟨S_, .f32⟩
  | 9 => ⟨S2048x100, .f32⟩
  | 10 => ⟨S2048x100, .f32⟩
  | 11 => ⟨S_, .f32⟩
  | 12 => ⟨S2048x100, .f32⟩
  | 13 => ⟨S2048x100, .f32⟩
  | 14 => ⟨S_, .f32⟩
  | 15 => ⟨S2048x100, .f32⟩
  | 16 => ⟨S2048x100, .f32⟩
  | 17 => ⟨S2048x100, .f32⟩
  | 18 => ⟨S_, .f32⟩
  | 19 => ⟨S2048x100, .f32⟩
  | 20 => ⟨S2048x100, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S2048x100, .f32⟩
  | 28 => ⟨S2048x100, .f32⟩
  | 29 => ⟨S_, .f32⟩
  | 30 => ⟨S2048x100, .f32⟩
  | 31 => ⟨S2048x100, .i1⟩
  | 32 => ⟨S2048x100, .f32⟩
  | 33 => ⟨S_, .f32⟩
  | 34 => ⟨S2048, .f32⟩
  | 35 => ⟨S2048x1, .f32⟩
  | 36 => ⟨S2048x906, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x2, .f32⟩
  | .local _ .vmem, ⟨3, _⟩ => ⟨S256x2, .f32⟩
  | .local _ .vmem, ⟨4, _⟩ => ⟨S16x128, .i32⟩
  | .local _ .vmem, ⟨5, _⟩ => ⟨S16x128, .i32⟩
  | .local _ .vmem, ⟨6, _⟩ => ⟨S16x3x256, .f32⟩
  | .local _ .vmem, ⟨7, _⟩ => ⟨S16x3x256, .f32⟩
  | .local _ .vmem, ⟨8, _⟩ => ⟨S32x128, .i32⟩
  | .local _ .vmem, ⟨9, _⟩ => ⟨S32x128, .i32⟩
  | .local _ .vmem, ⟨10, _⟩ => ⟨S32x3x128, .f32⟩
  | .local _ .vmem, ⟨11, _⟩ => ⟨S32x3x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_12 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_c_18 : Ref sig .tc := ⟨.hbm, 105, rfl⟩
abbrev main_v81 : Ref sig .tc := ⟨.hbm, 106, rfl⟩
abbrev main_cst_19 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_20 : Ref sig .tc := ⟨.hbm, 112, rfl⟩
abbrev main_v86 : Ref sig .tc := ⟨.hbm, 113, rfl⟩
abbrev main_v87 : Ref sig .tc := ⟨.hbm, 114, rfl⟩
abbrev main_cst_21 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_22 : Ref sig .tc := ⟨.hbm, 122, rfl⟩
abbrev main_v94 : Ref sig .tc := ⟨.hbm, 123, rfl⟩
abbrev main_v95 : Ref sig .tc := ⟨.hbm, 124, rfl⟩
abbrev main_cst_23 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_24 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_25 : Ref sig .tc := ⟨.hbm, 136, rfl⟩
abbrev main_v105 : Ref sig .tc := ⟨.hbm, 137, rfl⟩
abbrev main_v106 : Ref sig .tc := ⟨.hbm, 138, rfl⟩
abbrev main_cst_26 : Ref sig .tc := ⟨.hbm, 139, rfl⟩
abbrev main_v107 : Ref sig .tc := ⟨.hbm, 140, rfl⟩
abbrev main_v108 : Ref sig .tc := ⟨.hbm, 141, rfl⟩
abbrev main_cst_27 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_28 : Ref sig .tc := ⟨.hbm, 146, rfl⟩
abbrev main_v112 : Ref sig .tc := ⟨.hbm, 147, rfl⟩
abbrev main_v113 : Ref sig .tc := ⟨.hbm, 148, rfl⟩
abbrev main_cst_29 : Ref sig .tc := ⟨.hbm, 149, rfl⟩
abbrev main_v114 : Ref sig .tc := ⟨.hbm, 150, rfl⟩
abbrev main_v115 : Ref sig .tc := ⟨.hbm, 151, rfl⟩
abbrev main_cst_30 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_31 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_32 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![128, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![64, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x3x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

class Facts₀ : Prop where
  bcast_S2048_S2048x1_0 : S2048.BroadcastsInDim S2048x1 (![0] : Fin 1 → Fin S2048x1.rank)
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  concatenates_S256x1_S256x1_S256x2_d1 : Shape.Concatenates [S256x1, S256x1] S256x2 1
  inb_S256x2_S256x2_0_0 : ∀ a, (![0, 0] : Fin 2 → Nat) a + S256x2.size a ≤ S256x2.size a
  h_S256x2 : 0 < S256x2.numel
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  inb_S16x3x256_S16x3x256_0_0_0 : ∀ a, (![0, 0, 0] : Fin 3 → Nat) a + S16x3x256.size a ≤ S16x3x256.size a
  h_S16x3x256 : 0 < S16x3x256.numel
  inb_S16x128_S16x128_0_0 : ∀ a, (![0, 0] : Fin 2 → Nat) a + S16x128.size a ≤ S16x128.size a
  h_S16x128 : 0 < S16x128.numel
  iota_S16x128x256_d2_w32 : S16x128x256.Iotas .tc 32 [2]
  shapeCasts_S16x128_S16x128x1 : S16x128.ShapeCasts S16x128x1
  broadcasts_S16x128x1_S16x128x256 : S16x128x1.Broadcasts S16x128x256
  natLt_1_32 : 1 < 32
  reduces_S16x128x256_S16x256 : S16x128x256.Reduces [1] S16x256
  shapeCasts_S16x256_S16x1x256 : S16x256.ShapeCasts S16x1x256
  concatenates_S16x1x256_S16x1x256_S16x1x256_S16x3x256_d1 : Shape.Concatenates [S16x1x256, S16x1x256, S16x1x256] S16x3x256 1
  shapeCasts_S16x3x256_S16x3x256 : S16x3x256.ShapeCasts S16x3x256
  inb_S32x3x128_S32x3x128_0_0_0 : ∀ a, (![0, 0, 0] : Fin 3 → Nat) a + S32x3x128.size a ≤ S32x3x128.size a
  h_S32x3x128 : 0 < S32x3x128.numel
  inb_S32x128_S32x128_0_0 : ∀ a, (![0, 0] : Fin 2 → Nat) a + S32x128.size a ≤ S32x128.size a
  h_S32x128 : 0 < S32x128.numel
  iota_S32x128x128_d2_w32 : S32x128x128.Iotas .tc 32 [2]
  shapeCasts_S32x128_S32x128x1 : S32x128.ShapeCasts S32x128x1
  broadcasts_S32x128x1_S32x128x128 : S32x128x1.Broadcasts S32x128x128
  reduces_S32x128x128_S32x128 : S32x128x128.Reduces [1] S32x128
  shapeCasts_S32x128_S32x1x128 : S32x128.ShapeCasts S32x1x128
  concatenates_S32x1x128_S32x1x128_S32x1x128_S32x3x128_d1 : Shape.Concatenates [S32x1x128, S32x1x128, S32x1x128] S32x3x128 1
  shapeCasts_S32x3x128_S32x3x128 : S32x3x128.ShapeCasts S32x3x128
  slices_S2048x3x256_S2048x1x200_0_0_0 : S2048x3x256.Slices ![0, 0, 0] S2048x1x200
  shapeCasts_S2048x1x200_S2048x200 : S2048x1x200.ShapeCasts S2048x200
  slices_S2048x3x256_S2048x1x200_0_1_0 : S2048x3x256.Slices ![0, 1, 0] S2048x1x200
  slices_S2048x3x256_S2048x1x200_0_2_0 : S2048x3x256.Slices ![0, 2, 0] S2048x1x200
  slices_S2048x3x128_S2048x1x100_0_0_0 : S2048x3x128.Slices ![0, 0, 0] S2048x1x100
  shapeCasts_S2048x1x100_S2048x100 : S2048x1x100.ShapeCasts S2048x100
  slices_S2048x3x128_S2048x1x100_0_1_0 : S2048x3x128.Slices ![0, 1, 0] S2048x1x100
  slices_S2048x3x128_S2048x1x100_0_2_0 : S2048x3x128.Slices ![0, 2, 0] S2048x1x100
  bcast_S_S200 : S_.BroadcastsInDim S200 (![] : Fin 0 → Fin S200.rank)
  bcast_S_S1 : S_.BroadcastsInDim S1 (![] : Fin 0 → Fin S1.rank)
  bcast_S200_S1x200_1 : S200.BroadcastsInDim S1x200 (![1] : Fin 1 → Fin S1x200.rank)
  bcast_S1x200_S2048x200_0_1 : S1x200.BroadcastsInDim S2048x200 (![0, 1] : Fin 2 → Fin S2048x200.rank)
  reducesTo_S2048x200_S2048_d1 : S2048x200.ReducesTo [1] S2048
  h_S_ : 0 < S_.numel
  bcast_S_S2048x1 : S_.BroadcastsInDim S2048x1 (![] : Fin 0 → Fin S2048x1.rank)
  bcast_S2048x1_S2048x200_0_1 : S2048x1.BroadcastsInDim S2048x200 (![0, 1] : Fin 2 → Fin S2048x200.rank)
  bcast_S_S2048x200 : S_.BroadcastsInDim S2048x200 (![] : Fin 0 → Fin S2048x200.rank)
  bcast_S_S100 : S_.BroadcastsInDim S100 (![] : Fin 0 → Fin S100.rank)
  bcast_S100_S1x100_1 : S100.BroadcastsInDim S1x100 (![1] : Fin 1 → Fin S1x100.rank)
  bcast_S1x100_S2048x100_0_1 : S1x100.BroadcastsInDim S2048x100 (![0, 1] : Fin 2 → Fin S2048x100.rank)
  reducesTo_S2048x100_S2048_d1 : S2048x100.ReducesTo [1] S2048
  bcast_S2048x1_S2048x100_0_1 : S2048x1.BroadcastsInDim S2048x100 (![0, 1] : Fin 2 → Fin S2048x100.rank)
  bcast_S_S2048x100 : S_.BroadcastsInDim S2048x100 (![] : Fin 0 → Fin S2048x100.rank)
  concatenates_S2048x1_S2048x1_S2048x1_S2048x1_S2048x200_S2048x200_S2048x200_S2048x100_S2048x100_S2048x100_S2048x1_S2048x1_S2048x906_d1 : Shape.Concatenates [S2048x1, S2048x1, S2048x1, S2048x1, S2048x200, S2048x200, S2048x200, S2048x100, S2048x100, S2048x100, S2048x1, S2048x1] S2048x906 1
  scatter_S200_S1_S__n_0_0_0_wf : ScatterDims.WF S200 S1 S_ [] [0] [0] 0
  scatter_S100_S1_S__n_0_0_0_wf : ScatterDims.WF S100 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S2048x2.size a
  hwx0_1 : ∀ i : grid0.Coords, EltTy.bits .f32 = 32 ∨ (Rect.block (s := S2048x2) S256x2.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128.size a ≤ S2048x1024.size a
  hwx1_0 : ∀ i : grid1.Coords, EltTy.bits .i32 = 32 ∨ (Rect.block (s := S2048x1024) S16x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x3x256.size a ≤ S2048x3x256.size a
  hwx1_1 : ∀ i : grid1.Coords, EltTy.bits .f32 = 32 ∨ (Rect.block (s := S2048x3x256) S16x3x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x128.size a ≤ S2048x1024.size a
  hwx2_0 : ∀ i : grid2.Coords, EltTy.bits .i32 = 32 ∨ (Rect.block (s := S2048x1024) S32x128.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x3x128.size a ≤ S2048x3x128.size a
  hwx2_1 : ∀ i : grid2.Coords, EltTy.bits .f32 = 32 ∨ (Rect.block (s := S2048x3x128) S32x3x128.size (cc2_transform_1 i) (hinb2_1 i)).WholeWords (EltTy.packing .f32)

variable [Facts₀]

def scatter_S200_S1_S__n_0_0_0 : ScatterDims S200 S1 S_ where
  updateWindowDims := []
  insertedWindowDims := [0]
  scatterDimsToOperandDims := [0]
  indexVectorDim := 0
  wf := scatter_S200_S1_S__n_0_0_0_wf
def scatter_S100_S1_S__n_0_0_0 : ScatterDims S100 S1 S_ where
  updateWindowDims := []
  insertedWindowDims := [0]
  scatterDimsToOperandDims := [0]
  indexVectorDim := 0
  wf := scatter_S100_S1_S__n_0_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S16x3x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S32x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S32x3x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S2048 : Shape := ⟨1, ![2048]⟩
abbrev S2048x1 : Shape := ⟨2, ![2048, 1]⟩
abbrev S_ : Shape := ⟨0, ![]⟩
abbrev S2048x200 : Shape := ⟨2, ![2048, 200]⟩
abbrev S2048x1024x1 : Shape := ⟨3, ![2048, 1024, 1]⟩
abbrev S2048x1024x2 : Shape := ⟨3, ![2048, 1024, 2]⟩
abbrev S200 : Shape := ⟨1, ![200]⟩
abbrev S1 : Shape := ⟨1, ![1]⟩
abbrev S1x200 : Shape := ⟨2, ![1, 200]⟩
abbrev S2048x100 : Shape := ⟨2, ![2048, 100]⟩
abbrev S100 : Shape := ⟨1, ![100]⟩
abbrev S1x100 : Shape := ⟨2, ![1, 100]⟩
abbrev S2048x906 : Shape := ⟨2, ![2048, 906]⟩

abbrev nBuf : Space → Nat
  | .hbm => 445
  | .vmem => 0
  | .smem => 0
  | _ => 0

abbrev hbmTy0_0 (i : Nat) : BufTy := match i % 128 with
  | 0 => ⟨S2048x1024, .f32⟩
  | 1 => ⟨S2048x1024, .i32⟩
  | 2 => ⟨S2048x1024, .i32⟩
  | 3 => ⟨S2048, .i32⟩
  | 4 => ⟨S2048, .f32⟩
  | 5 => ⟨S2048x1, .f32⟩
  | 6 => ⟨S_, .f32⟩
  | 7 => ⟨S2048, .f32⟩
  | 8 => ⟨S2048x1024, .f32⟩
  | 9 => ⟨S_, .f32⟩
  | 10 => ⟨S2048, .f32⟩
  | 11 => ⟨S2048x1, .f32⟩
  | 12 => ⟨S2048, .f32⟩
  | 13 => ⟨S2048x1, .f32⟩
  | 14 => ⟨S2048, .f32⟩
  | 15 => ⟨S2048, .f32⟩
  | 16 => ⟨S2048, .f32⟩
  | 17 => ⟨S_, .f32⟩
  | 18 => ⟨S2048, .f32⟩
  | 19 => ⟨S2048, .f32⟩
  | 20 => ⟨S_, .f32⟩
  | 21 => ⟨S2048, .f32⟩
  | 22 => ⟨S2048, .f32⟩
  | 23 => ⟨S2048, .f32⟩
  | 24 => ⟨S_, .f32⟩
  | 25 => ⟨S2048, .f32⟩
  | 26 => ⟨S2048, .f32⟩
  | 27 => ⟨S2048x1, .f32⟩
  | 28 => ⟨S2048, .i32⟩
  | 29 => ⟨S2048x1, .i32⟩
  | 30 => ⟨S2048x1024, .f32⟩
  | 31 => ⟨S_, .f32⟩
  | 32 => ⟨S2048x200, .f32⟩
  | 33 => ⟨S_, .i32⟩
  | 34 => ⟨S2048x1, .i32⟩
  | 35 => ⟨S2048x1, .i1⟩
  | 36 => ⟨S_, .i32⟩
  | 37 => ⟨S2048x1, .i32⟩
  | 38 => ⟨S2048x1, .i32⟩
  | 39 => ⟨S2048x1, .i32⟩
  | 40 => ⟨S_, .i32⟩
  | 41 => ⟨S2048x1024, .i32⟩
  | 42 => ⟨S2048x1024, .i1⟩
  | 43 => ⟨S_, .i32⟩
  | 44 => ⟨S2048x1024, .i32⟩
  | 45 => ⟨S2048x1024, .i32⟩
  | 46 => ⟨S2048x1024, .i32⟩
  | 47 => ⟨S2048x1024, .i32⟩
  | 48 => ⟨S2048x1024x1, .i32⟩
  | 49 => ⟨S2048x1024x1, .i32⟩
  | 50 => ⟨S2048x1024x2, .i32⟩
  | 51 => ⟨S_, .f32⟩
  | 52 => ⟨S2048x1024, .f32⟩
  | 53 => ⟨S2048x200, .f32⟩
  | 54 => ⟨S_, .f32⟩
  | 55 => ⟨S2048x200, .f32⟩
  | 56 => ⟨S_, .i32⟩
  | 57 => ⟨S2048x1, .i32⟩
  | 58 => ⟨S2048x1, .i1⟩
  | 59 => ⟨S_, .i32⟩
  | 60 => ⟨S2048x1, .i32⟩
  | 61 => ⟨S2048x1, .i32⟩
  | 62 => ⟨S2048x1, .i32⟩
  | 63 => ⟨S_, .i32⟩
  | 64 => ⟨S2048x1024, .i32⟩
  | 65 => ⟨S2048x1024, .i1⟩
  | 66 => ⟨S_, .i32⟩
  | 67 => ⟨S2048x1024, .i32⟩
  | 68 => ⟨S2048x1024, .i32⟩
  | 69 => ⟨S2048x1024, .i32⟩
  | 70 => ⟨S2048x1024, .i32⟩
  | 71 => ⟨S2048x1024x1, .i32⟩
  | 72 => ⟨S2048x1024x1, .i32⟩
  | 73 => ⟨S2048x1024x2, .i32⟩
  | 74 => ⟨S2048x200, .f32⟩
  | 75 => ⟨S_, .f32⟩
  | 76 => ⟨S2048x200, .f32⟩
  | 77 => ⟨S2048x1024, .f32⟩
  | 78 => ⟨S_, .i32⟩
  | 79 => ⟨S2048x1, .i32⟩
  | 80 => ⟨S2048x1, .i1⟩
  | 81 => ⟨S_, .i32⟩
  | 82 => ⟨S2048x1, .i32⟩
  | 83 => ⟨S2048x1, .i32⟩
  | 84 => ⟨S2048x1, .i32⟩
  | 85 => ⟨S_, .i32⟩
  | 86 => ⟨S2048x1024, .i32⟩
  | 87 => ⟨S2048x1024, .i1⟩
  | 88 => ⟨S_, .i32⟩
  | 89 => ⟨S2048x1024, .i32⟩
  | 90 => ⟨S2048x1024, .i32⟩
  | 91 => ⟨S2048x1024, .i32⟩
  | 92 => ⟨S2048x1024, .i32⟩
  | 93 => ⟨S2048x1024x1, .i32⟩
  | 94 => ⟨S2048x1024x1, .i32⟩
  | 95 => ⟨S2048x1024x2, .i32⟩
  | 96 => ⟨S2048x200, .f32⟩
  | 97 => ⟨S_, .f32⟩
  | 98 => ⟨S200, .f32⟩
  | 99 => ⟨S_, .i32⟩
  | 100 => ⟨S1, .i32⟩
  | 101 => ⟨S_, .f32⟩
  | 102 => ⟨S200, .f32⟩
  | 103 => ⟨S1x200, .f32⟩
  | 104 => ⟨S2048x200, .f32⟩
  | 105 => ⟨S2048x200, .f32⟩
  | 106 => ⟨S_, .f32⟩
  | 107 => ⟨S2048, .f32⟩
  | 108 => ⟨S2048x1, .f32⟩
  | 109 => ⟨S_, .f32⟩
  | 110 => ⟨S2048x1, .f32⟩
  | 111 => ⟨S2048x1, .f32⟩
  | 112 => ⟨S2048x200, .f32⟩
  | 113 => ⟨S2048x200, .f32⟩
  | 114 => ⟨S2048x200, .f32⟩
  | 115 => ⟨S2048x200, .f32⟩
  | 116 => ⟨S_, .f32⟩
  | 117 => ⟨S2048, .f32⟩
  | 118 => ⟨S2048x1, .f32⟩
  | 119 => ⟨S_, .f32⟩
  | 120 => ⟨S2048x1, .f32⟩
  | 121 => ⟨S2048x1, .f32⟩
  | 122 => ⟨S2048x200, .f32⟩
  | 123 => ⟨S2048x200, .f32⟩
  | 124 => ⟨S2048x200, .f32⟩
  | 125 => ⟨S_, .f32⟩
  | 126 => ⟨S2048x200, .f32⟩
  | 127 => ⟨S2048x200, .f32⟩
  | _ => ⟨S2048x1024, .f32⟩

abbrev hbmTy0_1 (i : Nat) : BufTy := match i % 128 with
  | 0 => ⟨S2048x200, .f32⟩
  | 1 => ⟨S2048x200, .f32⟩
  | 2 => ⟨S_, .f32⟩
  | 3 => ⟨S2048x200, .f32⟩
  | 4 => ⟨S2048x200, .f32⟩
  | 5 => ⟨S_, .f32⟩
  | 6 => ⟨S2048x200, .f32⟩
  | 7 => ⟨S2048x200, .f32⟩
  | 8 => ⟨S_, .f32⟩
  | 9 => ⟨S2048x200, .f32⟩
  | 10 => ⟨S2048x200, .f32⟩
  | 11 => ⟨S2048x200, .f32⟩
  | 12 => ⟨S_, .f32⟩
  | 13 => ⟨S2048x200, .f32⟩
  | 14 => ⟨S2048x200, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S2048x200, .f32⟩
  | 22 => ⟨S2048x200, .f32⟩
  | 23 => ⟨S2048, .i32⟩
  | 24 => ⟨S2048x1, .i32⟩
  | 25 => ⟨S2048x1024, .f32⟩
  | 26 => ⟨S_, .f32⟩
  | 27 => ⟨S2048x100, .f32⟩
  | 28 => ⟨S_, .i32⟩
  | 29 => ⟨S2048x1, .i32⟩
  | 30 => ⟨S2048x1, .i1⟩
  | 31 => ⟨S_, .i32⟩
  | 32 => ⟨S2048x1, .i32⟩
  | 33 => ⟨S2048x1, .i32⟩
  | 34 => ⟨S2048x1, .i32⟩
  | 35 => ⟨S_, .i32⟩
  | 36 => ⟨S2048x1024, .i32⟩
  | 37 => ⟨S2048x1024, .i1⟩
  | 38 => ⟨S_, .i32⟩
  | 39 => ⟨S2048x1024, .i32⟩
  | 40 => ⟨S2048x1024, .i32⟩
  | 41 => ⟨S2048x1024, .i32⟩
  | 42 => ⟨S2048x1024, .i32⟩
  | 43 => ⟨S2048x1024x1, .i32⟩
  | 44 => ⟨S2048x1024x1, .i32⟩
  | 45 => ⟨S2048x1024x2, .i32⟩
  | 46 => ⟨S_, .f32⟩
  | 47 => ⟨S2048x1024, .f32⟩
  | 48 => ⟨S2048x100, .f32⟩
  | 49 => ⟨S_, .f32⟩
  | 50 => ⟨S2048x100, .f32⟩
  | 51 => ⟨S_, .i32⟩
  | 52 => ⟨S2048x1, .i32⟩
  | 53 => ⟨S2048x1, .i1⟩
  | 54 => ⟨S_, .i32⟩
  | 55 => ⟨S2048x1, .i32⟩
  | 56 => ⟨S2048x1, .i32⟩
  | 57 => ⟨S2048x1, .i32⟩
  | 58 => ⟨S_, .i32⟩
  | 59 => ⟨S2048x1024, .i32⟩
  | 60 => ⟨S2048x1024, .i1⟩
  | 61 => ⟨S_, .i32⟩
  | 62 => ⟨S2048x1024, .i32⟩
  | 63 => ⟨S2048x1024, .i32⟩
  | 64 => ⟨S2048x1024, .i32⟩
  | 65 => ⟨S2048x1024, .i32⟩
  | 66 => ⟨S2048x1024x1, .i32⟩
  | 67 => ⟨S2048x1024x1, .i32⟩
  | 68 => ⟨S2048x1024x2, .i32⟩
  | 69 => ⟨S2048x100, .f32⟩
  | 70 => ⟨S_, .f32⟩
  | 71 => ⟨S2048x100, .f32⟩
  | 72 => ⟨S2048x1024, .f32⟩
  | 73 => ⟨S_, .i32⟩
  | 74 => ⟨S2048x1, .i32⟩
  | 75 => ⟨S2048x1, .i1⟩
  | 76 => ⟨S_, .i32⟩
  | 77 => ⟨S2048x1, .i32⟩
  | 78 => ⟨S2048x1, .i32⟩
  | 79 => ⟨S2048x1, .i32⟩
  | 80 => ⟨S_, .i32⟩
  | 81 => ⟨S2048x1024, .i32⟩
  | 82 => ⟨S2048x1024, .i1⟩
  | 83 => ⟨S_, .i32⟩
  | 84 => ⟨S2048x1024, .i32⟩
  | 85 => ⟨S2048x1024, .i32⟩
  | 86 => ⟨S2048x1024, .i32⟩
  | 87 => ⟨S2048x1024, .i32⟩
  | 88 => ⟨S2048x1024x1, .i32⟩
  | 89 => ⟨S2048x1024x1, .i32⟩
  | 90 => ⟨S2048x1024x2, .i32⟩
  | 91 => ⟨S2048x100, .f32⟩
  | 92 => ⟨S_, .f32⟩
  | 93 => ⟨S100, .f32⟩
  | 94 => ⟨S_, .i32⟩
  | 95 => ⟨S1, .i32⟩
  | 96 => ⟨S_, .f32⟩
  | 97 => ⟨S100, .f32⟩
  | 98 => ⟨S1x100, .f32⟩
  | 99 => ⟨S2048x100, .f32⟩
  | 100 => ⟨S2048x100, .f32⟩
  | 101 => ⟨S_, .f32⟩
  | 102 => ⟨S2048, .f32⟩
  | 103 => ⟨S2048x1, .f32⟩
  | 104 => ⟨S_, .f32⟩
  | 105 => ⟨S2048x1, .f32⟩
  | 106 => ⟨S2048x1, .f32⟩
  | 107 => ⟨S2048x100, .f32⟩
  | 108 => ⟨S2048x100, .f32⟩
  | 109 => ⟨S2048x100, .f32⟩
  | 110 => ⟨S2048x100, .f32⟩
  | 111 => ⟨S_, .f32⟩
  | 112 => ⟨S2048, .f32⟩
  | 113 => ⟨S2048x1, .f32⟩
  | 114 => ⟨S_, .f32⟩
  | 115 => ⟨S2048x1, .f32⟩
  | 116 => ⟨S2048x1, .f32⟩
  | 117 => ⟨S2048x100, .f32⟩
  | 118 => ⟨S2048x100, .f32⟩
  | 119 => ⟨S2048x100, .f32⟩
  | 120 => ⟨S_, .f32⟩
  | 121 => ⟨S2048x100, .f32⟩
  | 122 => ⟨S2048x100, .f32⟩
  | 123 => ⟨S2048x100, .f32⟩
  | 124 => ⟨S2048x100, .f32⟩
  | 125 => ⟨S_, .f32⟩
  | 126 => ⟨S2048x100, .f32⟩
  | 127 => ⟨S2048x100, .f32⟩
  | _ => ⟨S2048x1024, .f32⟩

abbrev hbmTy0_2 (i : Nat) : BufTy := match i % 128 with
  | 0 => ⟨S_, .f32⟩
  | 1 => ⟨S2048x100, .f32⟩
  | 2 => ⟨S2048x100, .f32⟩
  | 3 => ⟨S_, .f32⟩
  | 4 => ⟨S2048x100, .f32⟩
  | 5 => ⟨S2048x100, .f32⟩
  | 6 => ⟨S2048x100, .f32⟩
  | 7 => ⟨S_, .f32⟩
  | 8 => ⟨S2048x100, .f32⟩
  | 9 => ⟨S2048x100, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S2048x100, .f32⟩
  | 17 => ⟨S2048x100, .f32⟩
  | 18 => ⟨S2048, .i32⟩
  | 19 => ⟨S2048x1, .i32⟩
  | 20 => ⟨S2048x1024, .f32⟩
  | 21 => ⟨S_, .f32⟩
  | 22 => ⟨S2048x200, .f32⟩
  | 23 => ⟨S_, .i32⟩
  | 24 => ⟨S2048x1, .i32⟩
  | 25 => ⟨S2048x1, .i1⟩
  | 26 => ⟨S_, .i32⟩
  | 27 => ⟨S2048x1, .i32⟩
  | 28 => ⟨S2048x1, .i32⟩
  | 29 => ⟨S2048x1, .i32⟩
  | 30 => ⟨S_, .i32⟩
  | 31 => ⟨S2048x1024, .i32⟩
  | 32 => ⟨S2048x1024, .i1⟩
  | 33 => ⟨S_, .i32⟩
  | 34 => ⟨S2048x1024, .i32⟩
  | 35 => ⟨S2048x1024, .i32⟩
  | 36 => ⟨S2048x1024, .i32⟩
  | 37 => ⟨S2048x1024, .i32⟩
  | 38 => ⟨S2048x1024x1, .i32⟩
  | 39 => ⟨S2048x1024x1, .i32⟩
  | 40 => ⟨S2048x1024x2, .i32⟩
  | 41 => ⟨S_, .f32⟩
  | 42 => ⟨S2048x1024, .f32⟩
  | 43 => ⟨S2048x200, .f32⟩
  | 44 => ⟨S_, .f32⟩
  | 45 => ⟨S2048x200, .f32⟩
  | 46 => ⟨S_, .i32⟩
  | 47 => ⟨S2048x1, .i32⟩
  | 48 => ⟨S2048x1, .i1⟩
  | 49 => ⟨S_, .i32⟩
  | 50 => ⟨S2048x1, .i32⟩
  | 51 => ⟨S2048x1, .i32⟩
  | 52 => ⟨S2048x1, .i32⟩
  | 53 => ⟨S_, .i32⟩
  | 54 => ⟨S2048x1024, .i32⟩
  | 55 => ⟨S2048x1024, .i1⟩
  | 56 => ⟨S_, .i32⟩
  | 57 => ⟨S2048x1024, .i32⟩
  | 58 => ⟨S2048x1024, .i32⟩
  | 59 => ⟨S2048x1024, .i32⟩
  | 60 => ⟨S2048x1024, .i32⟩
  | 61 => ⟨S2048x1024x1, .i32⟩
  | 62 => ⟨S2048x1024x1, .i32⟩
  | 63 => ⟨S2048x1024x2, .i32⟩
  | 64 => ⟨S2048x200, .f32⟩
  | 65 => ⟨S_, .f32⟩
  | 66 => ⟨S2048x200, .f32⟩
  | 67 => ⟨S2048x1024, .f32⟩
  | 68 => ⟨S_, .i32⟩
  | 69 => ⟨S2048x1, .i32⟩
  | 70 => ⟨S2048x1, .i1⟩
  | 71 => ⟨S_, .i32⟩
  | 72 => ⟨S2048x1, .i32⟩
  | 73 => ⟨S2048x1, .i32⟩
  | 74 => ⟨S2048x1, .i32⟩
  | 75 => ⟨S_, .i32⟩
  | 76 => ⟨S2048x1024, .i32⟩
  | 77 => ⟨S2048x1024, .i1⟩
  | 78 => ⟨S_, .i32⟩
  | 79 => ⟨S2048x1024, .i32⟩
  | 80 => ⟨S2048x1024, .i32⟩
  | 81 => ⟨S2048x1024, .i32⟩
  | 82 => ⟨S2048x1024, .i32⟩
  | 83 => ⟨S2048x1024x1, .i32⟩
  | 84 => ⟨S2048x1024x1, .i32⟩
  | 85 => ⟨S2048x1024x2, .i32⟩
  | 86 => ⟨S2048x200, .f32⟩
  | 87 => ⟨S_, .f32⟩
  | 88 => ⟨S200, .f32⟩
  | 89 => ⟨S_, .i32⟩
  | 90 => ⟨S1, .i32⟩
  | 91 => ⟨S_, .f32⟩
  | 92 => ⟨S200, .f32⟩
  | 93 => ⟨S1x200, .f32⟩
  | 94 => ⟨S2048x200, .f32⟩
  | 95 => ⟨S2048x200, .f32⟩
  | 96 => ⟨S_, .f32⟩
  | 97 => ⟨S2048x200, .f32⟩
  | 98 => ⟨S2048x200, .i1⟩
  | 99 => ⟨S2048x200, .f32⟩
  | 100 => ⟨S_, .f32⟩
  | 101 => ⟨S2048, .f32⟩
  | 102 => ⟨S2048x1, .f32⟩
  | 103 => ⟨S2048, .i32⟩
  | 104 => ⟨S2048x1, .i32⟩
  | 105 => ⟨S2048x1024, .f32⟩
  | 106 => ⟨S_, .f32⟩
  | 107 => ⟨S2048x100, .f32⟩
  | 108 => ⟨S_, .i32⟩
  | 109 => ⟨S2048x1, .i32⟩
  | 110 => ⟨S2048x1, .i1⟩
  | 111 => ⟨S_, .i32⟩
  | 112 => ⟨S2048x1, .i32⟩
  | 113 => ⟨S2048x1, .i32⟩
  | 114 => ⟨S2048x1, .i32⟩
  | 115 => ⟨S_, .i32⟩
  | 116 => ⟨S2048x1024, .i32⟩
  | 117 => ⟨S2048x1024, .i1⟩
  | 118 => ⟨S_, .i32⟩
  | 119 => ⟨S2048x1024, .i32⟩
  | 120 => ⟨S2048x1024, .i32⟩
  | 121 => ⟨S2048x1024, .i32⟩
  | 122 => ⟨S2048x1024, .i32⟩
  | 123 => ⟨S2048x1024x1, .i32⟩
  | 124 => ⟨S2048x1024x1, .i32⟩
  | 125 => ⟨S2048x1024x2, .i32⟩
  | 126 => ⟨S_, .f32⟩
  | 127 => ⟨S2048x1024, .f32⟩
  | _ => ⟨S2048x1024, .f32⟩

abbrev hbmTy0_3 (i : Nat) : BufTy := match i % 128 with
  | 0 => ⟨S2048x100, .f32⟩
  | 1 => ⟨S_, .f32⟩
  | 2 => ⟨S2048x100, .f32⟩
  | 3 => ⟨S_, .i32⟩
  | 4 => ⟨S2048x1, .i32⟩
  | 5 => ⟨S2048x1, .i1⟩
  | 6 => ⟨S_, .i32⟩
  | 7 => ⟨S2048x1, .i32⟩
  | 8 => ⟨S2048x1, .i32⟩
  | 9 => ⟨S2048x1, .i32⟩
  | 10 => ⟨S_, .i32⟩
  | 11 => ⟨S2048x1024, .i32⟩
  | 12 => ⟨S2048x1024, .i1⟩
  | 13 => ⟨S_, .i32⟩
  | 14 => ⟨S2048x1024, .i32⟩
  | 15 => ⟨S2048x1024, .i32⟩
  | 16 => ⟨S2048x1024, .i32⟩
  | 17 => ⟨S2048x1024, .i32⟩
  | 18 => ⟨S2048x1024x1, .i32⟩
  | 19 => ⟨S2048x1024x1, .i32⟩
  | 20 => ⟨S2048x1024x2, .i32⟩
  | 21 => ⟨S2048x100, .f32⟩
  | 22 => ⟨S_, .f32⟩
  | 23 => ⟨S2048x100, .f32⟩
  | 24 => ⟨S2048x1024, .f32⟩
  | 25 => ⟨S_, .i32⟩
  | 26 => ⟨S2048x1, .i32⟩
  | 27 => ⟨S2048x1, .i1⟩
  | 28 => ⟨S_, .i32⟩
  | 29 => ⟨S2048x1, .i32⟩
  | 30 => ⟨S2048x1, .i32⟩
  | 31 => ⟨S2048x1, .i32⟩
  | 32 => ⟨S_, .i32⟩
  | 33 => ⟨S2048x1024, .i32⟩
  | 34 => ⟨S2048x1024, .i1⟩
  | 35 => ⟨S_, .i32⟩
  | 36 => ⟨S2048x1024, .i32⟩
  | 37 => ⟨S2048x1024, .i32⟩
  | 38 => ⟨S2048x1024, .i32⟩
  | 39 => ⟨S2048x1024, .i32⟩
  | 40 => ⟨S2048x1024x1, .i32⟩
  | 41 => ⟨S2048x1024x1, .i32⟩
  | 42 => ⟨S2048x1024x2, .i32⟩
  | 43 => ⟨S2048x100, .f32⟩
  | 44 => ⟨S_, .f32⟩
  | 45 => ⟨S100, .f32⟩
  | 46 => ⟨S_, .i32⟩
  | 47 => ⟨S1, .i32⟩
  | 48 => ⟨S_, .f32⟩
  | 49 => ⟨S100, .f32⟩
  | 50 => ⟨S1x100, .f32⟩
  | 51 => ⟨S2048x100, .f32⟩
  | 52 => ⟨S2048x100, .f32⟩
  | 53 => ⟨S_, .f32⟩
  | 54 => ⟨S2048x100, .f32⟩
  | 55 => ⟨S2048x100, .i1⟩
  | 56 => ⟨S2048x100, .f32⟩
  | 57 => ⟨S_, .f32⟩
  | 58 => ⟨S2048, .f32⟩
  | 59 => ⟨S2048x1, .f32⟩
  | 60 => ⟨S2048x906, .f32⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_c_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_c_15 : Ref sig .tc := ⟨.hbm, 78, rfl⟩
abbrev main_v57 : Ref sig .tc := ⟨.hbm, 79, rfl⟩
abbrev main_v58 : Ref sig .tc := ⟨.hbm, 80, rfl⟩
abbrev main_c_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_17 : Ref sig .tc := ⟨.hbm, 85, rfl⟩
abbrev main_v62 : Ref sig .tc := ⟨.hbm, 86, rfl⟩
abbrev main_v63 : Ref sig .tc := ⟨.hbm, 87, rfl⟩
abbrev main_c_18 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_c_20 : Ref sig .tc := ⟨.hbm, 99, rfl⟩
abbrev main_v73 : Ref sig .tc := ⟨.hbm, 100, rfl⟩
abbrev main_cst_21 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_22 : Ref sig .tc := ⟨.hbm, 106, rfl⟩
abbrev main_v78 : Ref sig .tc := ⟨.hbm, 107, rfl⟩
abbrev main_v79 : Ref sig .tc := ⟨.hbm, 108, rfl⟩
abbrev main_cst_23 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_24 : Ref sig .tc := ⟨.hbm, 116, rfl⟩
abbrev main_v86 : Ref sig .tc := ⟨.hbm, 117, rfl⟩
abbrev main_v87 : Ref sig .tc := ⟨.hbm, 118, rfl⟩
abbrev main_cst_25 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_26 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_27 : Ref sig .tc := ⟨.hbm, 130, rfl⟩
abbrev main_v97 : Ref sig .tc := ⟨.hbm, 131, rfl⟩
abbrev main_v98 : Ref sig .tc := ⟨.hbm, 132, rfl⟩
abbrev main_cst_28 : Ref sig .tc := ⟨.hbm, 133, rfl⟩
abbrev main_v99 : Ref sig .tc := ⟨.hbm, 134, rfl⟩
abbrev main_v100 : Ref sig .tc := ⟨.hbm, 135, rfl⟩
abbrev main_cst_29 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_30 : Ref sig .tc := ⟨.hbm, 140, rfl⟩
abbrev main_v104 : Ref sig .tc := ⟨.hbm, 141, rfl⟩
abbrev main_v105 : Ref sig .tc := ⟨.hbm, 142, rfl⟩
abbrev main_cst_31 : Ref sig .tc := ⟨.hbm, 143, rfl⟩
abbrev main_v106 : Ref sig .tc := ⟨.hbm, 144, rfl⟩
abbrev main_v107 : Ref sig .tc := ⟨.hbm, 145, rfl⟩
abbrev main_cst_32 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_33 : Ref sig .tc := ⟨.hbm, 154, rfl⟩
abbrev main_v115 : Ref sig .tc := ⟨.hbm, 155, rfl⟩
abbrev main_c_34 : Ref sig .tc := ⟨.hbm, 156, rfl⟩
abbrev main_v116 : Ref sig .tc := ⟨.hbm, 157, rfl⟩
abbrev main_v117 : Ref sig .tc := ⟨.hbm, 158, rfl⟩
abbrev main_c_35 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_36 : Ref sig .tc := ⟨.hbm, 163, rfl⟩
abbrev main_v121 : Ref sig .tc := ⟨.hbm, 164, rfl⟩
abbrev main_v122 : Ref sig .tc := ⟨.hbm, 165, rfl⟩
abbrev main_c_37 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_38 : Ref sig .tc := ⟨.hbm, 174, rfl⟩
abbrev main_v130 : Ref sig .tc := ⟨.hbm, 175, rfl⟩
abbrev main_v131 : Ref sig .tc := ⟨.hbm, 176, rfl⟩
abbrev main_cst_39 : Ref sig .tc := ⟨.hbm, 177, rfl⟩
abbrev main_v132 : Ref sig .tc := ⟨.hbm, 178, rfl⟩
abbrev main_c_40 : Ref sig .tc := ⟨.hbm, 179, rfl⟩
abbrev main_v133 : Ref sig .tc := ⟨.hbm, 180, rfl⟩
abbrev main_v134 : Ref sig .tc := ⟨.hbm, 181, rfl⟩
abbrev main_c_41 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_42 : Ref sig .tc := ⟨.hbm, 186, rfl⟩
abbrev main_v138 : Ref sig .tc := ⟨.hbm, 187, rfl⟩
abbrev main_v139 : Ref sig .tc := ⟨.hbm, 188, rfl⟩
abbrev main_c_43 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_44 : Ref sig .tc := ⟨.hbm, 198, rfl⟩
abbrev main_v148 : Ref sig .tc := ⟨.hbm, 199, rfl⟩
abbrev main_v149 : Ref sig .tc := ⟨.hbm, 200, rfl⟩
abbrev main_c_45 : Ref sig .tc := ⟨.hbm, 201, rfl⟩
abbrev main_v150 : Ref sig .tc := ⟨.hbm, 202, rfl⟩
abbrev main_v151 : Ref sig .tc := ⟨.hbm, 203, rfl⟩
abbrev main_c_46 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_47 : Ref sig .tc := ⟨.hbm, 208, rfl⟩
abbrev main_v155 : Ref sig .tc := ⟨.hbm, 209, rfl⟩
abbrev main_v156 : Ref sig .tc := ⟨.hbm, 210, rfl⟩
abbrev main_c_48 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_49 : Ref sig .tc := ⟨.hbm, 220, rfl⟩
abbrev main_v165 : Ref sig .tc := ⟨.hbm, 221, rfl⟩
abbrev main_c_50 : Ref sig .tc := ⟨.hbm, 222, rfl⟩
abbrev main_v166 : Ref sig .tc := ⟨.hbm, 223, rfl⟩
abbrev main_cst_51 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_52 : Ref sig .tc := ⟨.hbm, 229, rfl⟩
abbrev main_v171 : Ref sig .tc := ⟨.hbm, 230, rfl⟩
abbrev main_v172 : Ref sig .tc := ⟨.hbm, 231, rfl⟩
abbrev main_cst_53 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_54 : Ref sig .tc := ⟨.hbm, 239, rfl⟩
abbrev main_v179 : Ref sig .tc := ⟨.hbm, 240, rfl⟩
abbrev main_v180 : Ref sig .tc := ⟨.hbm, 241, rfl⟩
abbrev main_cst_55 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_cst_56 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_57 : Ref sig .tc := ⟨.hbm, 253, rfl⟩
abbrev main_v190 : Ref sig .tc := ⟨.hbm, 254, rfl⟩
abbrev main_v191 : Ref sig .tc := ⟨.hbm, 255, rfl⟩
abbrev main_cst_58 : Ref sig .tc := ⟨.hbm, 256, rfl⟩
abbrev main_v192 : Ref sig .tc := ⟨.hbm, 257, rfl⟩
abbrev main_v193 : Ref sig .tc := ⟨.hbm, 258, rfl⟩
abbrev main_cst_59 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_60 : Ref sig .tc := ⟨.hbm, 263, rfl⟩
abbrev main_v197 : Ref sig .tc := ⟨.hbm, 264, rfl⟩
abbrev main_v198 : Ref sig .tc := ⟨.hbm, 265, rfl⟩
abbrev main_cst_61 : Ref sig .tc := ⟨.hbm, 266, rfl⟩
abbrev main_v199 : Ref sig .tc := ⟨.hbm, 267, rfl⟩
abbrev main_v200 : Ref sig .tc := ⟨.hbm, 268, rfl⟩
abbrev main_cst_62 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_cst_63 : Ref sig .tc := ⟨.hbm, 277, rfl⟩
abbrev main_v208 : Ref sig .tc := ⟨.hbm, 278, rfl⟩
abbrev main_c_64 : Ref sig .tc := ⟨.hbm, 279, rfl⟩
abbrev main_v209 : Ref sig .tc := ⟨.hbm, 280, rfl⟩
abbrev main_v210 : Ref sig .tc := ⟨.hbm, 281, rfl⟩
abbrev main_c_65 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_c_66 : Ref sig .tc := ⟨.hbm, 286, rfl⟩
abbrev main_v214 : Ref sig .tc := ⟨.hbm, 287, rfl⟩
abbrev main_v215 : Ref sig .tc := ⟨.hbm, 288, rfl⟩
abbrev main_c_67 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_cst_68 : Ref sig .tc := ⟨.hbm, 297, rfl⟩
abbrev main_v223 : Ref sig .tc := ⟨.hbm, 298, rfl⟩
abbrev main_v224 : Ref sig .tc := ⟨.hbm, 299, rfl⟩
abbrev main_cst_69 : Ref sig .tc := ⟨.hbm, 300, rfl⟩
abbrev main_v225 : Ref sig .tc := ⟨.hbm, 301, rfl⟩
abbrev main_c_70 : Ref sig .tc := ⟨.hbm, 302, rfl⟩
abbrev main_v226 : Ref sig .tc := ⟨.hbm, 303, rfl⟩
abbrev main_v227 : Ref sig .tc := ⟨.hbm, 304, rfl⟩
abbrev main_c_71 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_c_72 : Ref sig .tc := ⟨.hbm, 309, rfl⟩
abbrev main_v231 : Ref sig .tc := ⟨.hbm, 310, rfl⟩
abbrev main_v232 : Ref sig .tc := ⟨.hbm, 311, rfl⟩
abbrev main_c_73 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_74 : Ref sig .tc := ⟨.hbm, 321, rfl⟩
abbrev main_v241 : Ref sig .tc := ⟨.hbm, 322, rfl⟩
abbrev main_v242 : Ref sig .tc := ⟨.hbm, 323, rfl⟩
abbrev main_c_75 : Ref sig .tc := ⟨.hbm, 324, rfl⟩
abbrev main_v243 : Ref sig .tc := ⟨.hbm, 325, rfl⟩
abbrev main_v244 : Ref sig .tc := ⟨.hbm, 326, rfl⟩
abbrev main_c_76 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_c_77 : Ref sig .tc := ⟨.hbm, 331, rfl⟩
abbrev main_v248 : Ref sig .tc := ⟨.hbm, 332, rfl⟩
abbrev main_v249 : Ref sig .tc := ⟨.hbm, 333, rfl⟩
abbrev main_c_78 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_cst_79 : Ref sig .tc := ⟨.hbm, 343, rfl⟩
abbrev main_v258 : Ref sig .tc := ⟨.hbm, 344, rfl⟩
abbrev main_c_80 : Ref sig .tc := ⟨.hbm, 345, rfl⟩
abbrev main_v259 : Ref sig .tc := ⟨.hbm, 346, rfl⟩
abbrev main_cst_81 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_cst_82 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_cst_83 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_cst_84 : Ref sig .tc := ⟨.hbm, 362, rfl⟩
abbrev main_v272 : Ref sig .tc := ⟨.hbm, 363, rfl⟩
abbrev main_c_85 : Ref sig .tc := ⟨.hbm, 364, rfl⟩
abbrev main_v273 : Ref sig .tc := ⟨.hbm, 365, rfl⟩
abbrev main_v274 : Ref sig .tc := ⟨.hbm, 366, rfl⟩
abbrev main_c_86 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_c_87 : Ref sig .tc := ⟨.hbm, 371, rfl⟩
abbrev main_v278 : Ref sig .tc := ⟨.hbm, 372, rfl⟩
abbrev main_v279 : Ref sig .tc := ⟨.hbm, 373, rfl⟩
abbrev main_c_88 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_cst_89 : Ref sig .tc := ⟨.hbm, 382, rfl⟩
abbrev main_v287 : Ref sig .tc := ⟨.hbm, 383, rfl⟩
abbrev main_v288 : Ref sig .tc := ⟨.hbm, 384, rfl⟩
abbrev main_cst_90 : Ref sig .tc := ⟨.hbm, 385, rfl⟩
abbrev main_v289 : Ref sig .tc := ⟨.hbm, 386, rfl⟩
abbrev main_c_91 : Ref sig .tc := ⟨.hbm, 387, rfl⟩
abbrev main_v290 : Ref sig .tc := ⟨.hbm, 388, rfl⟩
abbrev main_v291 : Ref sig .tc := ⟨.hbm, 389, rfl⟩
abbrev main_c_92 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_c_93 : Ref sig .tc := ⟨.hbm, 394, rfl⟩
abbrev main_v295 : Ref sig .tc := ⟨.hbm, 395, rfl⟩
abbrev main_v296 : Ref sig .tc := ⟨.hbm, 396, rfl⟩
abbrev main_c_94 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_cst_95 : Ref sig .tc := ⟨.hbm, 406, rfl⟩
abbrev main_v305 : Ref sig .tc := ⟨.hbm, 407, rfl⟩
abbrev main_v306 : Ref sig .tc := ⟨.hbm, 408, rfl⟩
abbrev main_c_96 : Ref sig .tc := ⟨.hbm, 409, rfl⟩
abbrev main_v307 : Ref sig .tc := ⟨.hbm, 410, rfl⟩
abbrev main_v308 : Ref sig .tc := ⟨.hbm, 411, rfl⟩
abbrev main_c_97 : Ref sig .tc := ⟨.hbm, 412, rfl⟩
abbrev main_v309 : Ref sig .tc := ⟨.hbm, 413, rfl⟩
abbrev main_v310 : Ref sig .tc := ⟨.hbm, 414, rfl⟩
abbrev main_v311 : Ref sig .tc := ⟨.hbm, 415, rfl⟩
abbrev main_c_98 : Ref sig .tc := ⟨.hbm, 416, rfl⟩
abbrev main_v312 : Ref sig .tc := ⟨.hbm, 417, rfl⟩
abbrev main_v313 : Ref sig .tc := ⟨.hbm, 418, rfl⟩
abbrev main_c_99 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_cst_100 : Ref sig .tc := ⟨.hbm, 428, rfl⟩
abbrev main_v322 : Ref sig .tc := ⟨.hbm, 429, rfl⟩
abbrev main_c_101 : Ref sig .tc := ⟨.hbm, 430, rfl⟩
abbrev main_v323 : Ref sig .tc := ⟨.hbm, 431, rfl⟩
abbrev main_cst_102 : Ref sig .tc := ⟨.hbm, 432, rfl⟩
abbrev main_v324 : Ref sig .tc := ⟨.hbm, 433, rfl⟩
abbrev main_v325 : Ref sig .tc := ⟨.hbm, 434, rfl⟩
abbrev main_v326 : Ref sig .tc := ⟨.hbm, 435, rfl⟩
abbrev main_v327 : Ref sig .tc := ⟨.hbm, 436, rfl⟩
abbrev main_cst_103 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_cst_104 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  reducesTo_S2048x1024_S2048_d1 : S2048x1024.ReducesTo [1] S2048
  h_S_ : 0 < S_.numel
  bcast_S_S2048 : S_.BroadcastsInDim S2048 (![] : Fin 0 → Fin S2048.rank)
  bcast_S_S2048x200 : S_.BroadcastsInDim S2048x200 (![] : Fin 0 → Fin S2048x200.rank)
  bcast_S_S2048x1 : S_.BroadcastsInDim S2048x1 (![] : Fin 0 → Fin S2048x1.rank)
  bcast_S_S2048x1024 : S_.BroadcastsInDim S2048x1024 (![] : Fin 0 → Fin S2048x1024.rank)
  bcast_S2048x1_S2048x1024_0_1 : S2048x1.BroadcastsInDim S2048x1024 (![0, 1] : Fin 2 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  bcast_S_S200 : S_.BroadcastsInDim S200 (![] : Fin 0 → Fin S200.rank)
  bcast_S_S1 : S_.BroadcastsInDim S1 (![] : Fin 0 → Fin S1.rank)
  bcast_S200_S1x200_1 : S200.BroadcastsInDim S1x200 (![1] : Fin 1 → Fin S1x200.rank)
  bcast_S1x200_S2048x200_0_1 : S1x200.BroadcastsInDim S2048x200 (![0, 1] : Fin 2 → Fin S2048x200.rank)
  reducesTo_S2048x200_S2048_d1 : S2048x200.ReducesTo [1] S2048
  bcast_S2048x1_S2048x200_0_1 : S2048x1.BroadcastsInDim S2048x200 (![0, 1] : Fin 2 → Fin S2048x200.rank)
  bcast_S_S2048x100 : S_.BroadcastsInDim S2048x100 (![] : Fin 0 → Fin S2048x100.rank)
  bcast_S_S100 : S_.BroadcastsInDim S100 (![] : Fin 0 → Fin S100.rank)
  bcast_S100_S1x100_1 : S100.BroadcastsInDim S1x100 (![1] : Fin 1 → Fin S1x100.rank)
  bcast_S1x100_S2048x100_0_1 : S1x100.BroadcastsInDim S2048x100 (![0, 1] : Fin 2 → Fin S2048x100.rank)
  reducesTo_S2048x100_S2048_d1 : S2048x100.ReducesTo [1] S2048
  bcast_S2048x1_S2048x100_0_1 : S2048x1.BroadcastsInDim S2048x100 (![0, 1] : Fin 2 → Fin S2048x100.rank)
  concatenates_S2048x1_S2048x1_S2048x1_S2048x1_S2048x200_S2048x200_S2048x200_S2048x100_S2048x100_S2048x100_S2048x1_S2048x1_S2048x906_d1 : Shape.Concatenates [S2048x1, S2048x1, S2048x1, S2048x1, S2048x200, S2048x200, S2048x200, S2048x100, S2048x100, S2048x100, S2048x1, S2048x1] S2048x906 1
  scatter_S2048x200_S2048x1024x2_S2048x1024_n_01_01_2_wf : ScatterDims.WF S2048x200 S2048x1024x2 S2048x1024 [] [0, 1] [0, 1] 2
  scatter_S200_S1_S__n_0_0_0_wf : ScatterDims.WF S200 S1 S_ [] [0] [0] 0
  scatter_S2048x100_S2048x1024x2_S2048x1024_n_01_01_2_wf : ScatterDims.WF S2048x100 S2048x1024x2 S2048x1024 [] [0, 1] [0, 1] 2
  scatter_S100_S1_S__n_0_0_0_wf : ScatterDims.WF S100 S1 S_ [] [0] [0] 0

variable [Facts₀]

def scatter_S2048x200_S2048x1024x2_S2048x1024_n_01_01_2 : ScatterDims S2048x200 S2048x1024x2 S2048x1024 where
  updateWindowDims := []
  insertedWindowDims := [0, 1]
  scatterDimsToOperandDims := [0, 1]
  indexVectorDim := 2
  wf := scatter_S2048x200_S2048x1024x2_S2048x1024_n_01_01_2_wf
def scatter_S200_S1_S__n_0_0_0 : ScatterDims S200 S1 S_ where
  updateWindowDims := []
  insertedWindowDims := [0]
  scatterDimsToOperandDims := [0]
  indexVectorDim := 0
  wf := scatter_S200_S1_S__n_0_0_0_wf
def scatter_S2048x100_S2048x1024x2_S2048x1024_n_01_01_2 : ScatterDims S2048x100 S2048x1024x2 S2048x1024 where
  updateWindowDims := []
  insertedWindowDims := [0, 1]
  scatterDimsToOperandDims := [0, 1]
  indexVectorDim := 2
  wf := scatter_S2048x100_S2048x1024x2_S2048x1024_n_01_01_2_wf
def scatter_S100_S1_S__n_0_0_0 : ScatterDims S100 S1 S_ where
  updateWindowDims := []
  insertedWindowDims := [0]
  scatterDimsToOperandDims := [0]
  indexVectorDim := 0
  wf := scatter_S100_S1_S__n_0_0_0_wf

class Facts : Prop extends Facts₀ where

variable [Facts]
-- ==== Proof.KBBlocks.lean ====
/-
  The three pallas_calls of the program, each at a PARAMETER `V`: the TensorCore's buffer contents when the call's
  region is entered. Per call: the block of each window's array at a grid point; what the kernel body leaves in
  its output buffer, written directly over the body's arithmetic (the row-statistics call stores one value; a
  category-statistics call stores, at the first token tile of a batch tile, its partial sums over zeros and, at every
  later token tile, its partial sums over what the buffer held); the accumulation of those over the grid points; and
  the pipeline's proof data.
-/
import proofs.«431486_j85761906967230_1_alg».proof.Proof.Gen.Kernel.Launch
import proofs.«431486_j85761906967230_1_alg».proof.Proof.Gen.Kernel.Skeleton
import proofs.«431486_j85761906967230_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0: per-row sum and sum of squares of `amount` (grid of 8 batch tiles of 256 rows) -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output buffer: the two row statistics of the 256 × 1024 input block, side by side. -/
def rowStatsBlk (x : Vec F S256x1024 .f32) : Vec F S256x2 .f32 := k0_pay1 x

/-- The proof data of call 0 on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => rowStatsBlk (blk0 V c 0 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after_in (c : Dev nD) (t : Fin cfg0.N) : (dat0 V c).after 0 t = blk0 V c 0 t := by dsimp only [dat0]
theorem dat0_after_out (c : Dev nD) (t : Fin cfg0.N) : (dat0 V c).after 1 t = rowStatsBlk (blk0 V c 0 t) := by dsimp only [dat0]

/-! ## Call 1: count, sum and sum of squares per category of `mcc_code` (128 batch tiles of 16 rows × 8 token tiles of 128) -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At a later token tile: the tile's partial sums added to what the buffer held. -/
def catNext1 (x : Vec F S16x128 .i32) (prev : Vec F S16x3x256 .f32) : Vec F S16x3x256 .f32 := k1_pay2 x prev
/-- At the first token tile of a batch tile: the buffer is zeroed first. -/
def catFirst1 (x : Vec F S16x128 .i32) : Vec F S16x3x256 .f32 := k1_pay2 x (k1_pay1 (F := F))

/-- THE ACCUMULATION: what the output buffer holds after the body at position `n` of the grid's order (the token tile
    is `n % 8`: the first tile of each batch tile restarts from zero, every other adds to what the point before left). -/
def accAt1 (c : Dev nD) : (n : ℕ) → n < cfg1.N → Vec F S16x3x256 .f32
  | 0, hn => catFirst1 (blk1 V c 0 ⟨0, hn⟩)
  | n + 1, hn =>
    if (n + 1) % 8 = 0 then catFirst1 (blk1 V c 0 ⟨n + 1, hn⟩)
    else catNext1 (blk1 V c 0 ⟨n + 1, hn⟩) (accAt1 c n (Nat.lt_of_succ_lt hn))

theorem accAt1_first (c : Dev nD) (t : Fin cfg1.N) (h0 : t.val % 8 = 0) :
    accAt1 V c t.val t.isLt = catFirst1 (blk1 V c 0 t) := by
  obtain ⟨n, hn⟩ := t
  cases n with
  | zero => exact rfl
  | succ n => exact (if_pos h0).trans rfl

theorem accAt1_next (c : Dev nD) (t : Fin cfg1.N) (h0 : ¬t.val % 8 = 0) :
    accAt1 V c t.val t.isLt
      = catNext1 (blk1 V c 0 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => accAt1 V c t.val t.isLt
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after_in (c : Dev nD) (t : Fin cfg1.N) : (dat1 V c).after 0 t = blk1 V c 0 t := by dsimp only [dat1]
theorem dat1_after_out (c : Dev nD) (t : Fin cfg1.N) : (dat1 V c).after 1 t = accAt1 V c t.val t.isLt := by dsimp only [dat1]

/-! ## Call 2: the same statistics of `tr_type` (64 batch tiles of 32 rows × 8 token tiles of 128) -/

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def catNext2 (x : Vec F S32x128 .i32) (prev : Vec F S32x3x128 .f32) : Vec F S32x3x128 .f32 := k2_pay2 x prev
def catFirst2 (x : Vec F S32x128 .i32) : Vec F S32x3x128 .f32 := k2_pay2 x (k2_pay1 (F := F))

def accAt2 (c : Dev nD) : (n : ℕ) → n < cfg2.N → Vec F S32x3x128 .f32
  | 0, hn => catFirst2 (blk2 V c 0 ⟨0, hn⟩)
  | n + 1, hn =>
    if (n + 1) % 8 = 0 then catFirst2 (blk2 V c 0 ⟨n + 1, hn⟩)
    else catNext2 (blk2 V c 0 ⟨n + 1, hn⟩) (accAt2 c n (Nat.lt_of_succ_lt hn))

theorem accAt2_first (c : Dev nD) (t : Fin cfg2.N) (h0 : t.val % 8 = 0) :
    accAt2 V c t.val t.isLt = catFirst2 (blk2 V c 0 t) := by
  obtain ⟨n, hn⟩ := t
  cases n with
  | zero => exact rfl
  | succ n => exact (if_pos h0).trans rfl

theorem accAt2_next (c : Dev nD) (t : Fin cfg2.N) (h0 : ¬t.val % 8 = 0) :
    accAt2 V c t.val t.isLt
      = catNext2 (blk2 V c 0 t) (accAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => accAt2 V c t.val t.isLt
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after_in (c : Dev nD) (t : Fin cfg2.N) : (dat2 V c).after 0 t = blk2 V c 0 t := by dsimp only [dat2]
theorem dat2_after_out (c : Dev nD) (t : Fin cfg2.N) : (dat2 V c).after 1 t = accAt2 V c t.val t.isLt := by dsimp only [dat2]

end Cert.Kernel.Hand

end
-- ==== Proof.KBRegion0.lean ====
/-
  Call 0's body obligation: at every grid point the kernel body, run on the window buffers the pipeline hands it,
  leaves in them what the proof data of `KIBlocks` says.
-/
import proofs.«431486_j85761906967230_1_alg».proof.Proof.KBBlocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two whole-buffer accesses

The body reads all of its input buffer, reads all of its output buffer (and drops what it read), then writes the two
row statistics over all of the output buffer. Each access goes through the rectangle that starts at the origin and has
the buffer's own extents. -/

/-- An access at the origin of a rank-2 buffer has both offsets zero. -/
theorem origin_in : (![0, 0] : Fin S256x1024.rank → Nat) = fun _ => 0 := by
  funext a; fin_cases a <;> rfl
theorem origin_out : (![0, 0] : Fin S256x2.rank → Nat) = fun _ => 0 := by
  funext a; fin_cases a <;> rfl

/-- The rectangle through which the input buffer is read: all of it. -/
abbrev boxIn : Rect S256x1024 := Rect.unit (s := S256x1024) ![0, 0] S256x1024.size inb_S256x1024_S256x1024_0_0
/-- The rectangle through which the output buffer is read and then written: all of it. -/
abbrev boxOut : Rect S256x2 := Rect.unit (s := S256x2) ![0, 0] S256x2.size inb_S256x2_S256x2_0_0

/-- What the output buffer reads as once the body's one store has landed, whatever it held before: the store's
    rectangle is the whole buffer, so every index is under it and reads the stored value; and the stored value is the
    row statistics of what the whole-buffer load of the input read, which is the input buffer's contents. -/
theorem read_stored {κ₁ κ₂ : Kind} {sp₁ sp₂ : Space} (vIn : View sig κ₁ sp₁ S256x1024 .f32) (vOut : View sig κ₂ sp₂ S256x2 .f32)
    (fIn : vIn.ty.Contents (Elt F)) (fOut : vOut.ty.Contents (Elt F)) :
    vOut.read (Elt F) (vOut.writes (Elt F) fOut [⟨boxOut, k0_pay1 (vIn.readAt (Elt F) boxIn.toLoadRect fIn)⟩])
      = rowStatsBlk (vIn.read (Elt F) fIn) := by
  have hcover : ∀ y : S256x2.Idx,
      ∃ p ∈ ([⟨boxOut, k0_pay1 (vIn.readAt (Elt F) boxIn.toLoadRect fIn)⟩] : List (View.Piece (Elt F) S256x2 .f32)), y ∈ p.1.set :=
    fun y => ⟨_, List.mem_singleton_self _, View.mem_set_unit_zero origin_out inb_S256x2_S256x2_0_0 y⟩
  rw [View.read_writes_eq_canon _ _ _ hcover, View.canon_unit_zero origin_out]
  unfold rowStatsBlk
  congr 1
  exact View.ld_unit_zero origin_in _ _

/-! ## The input buffer when the body runs -/

/-- The input window is fetched at every point of the grid, and its blocks tile its array exactly, so when the body runs
    the window's current buffer holds the array's block of that point. -/
theorem staged_in (c : Dev nD) (t : Fin cfg0.N) (d) : (dat0 V c).before 0 t d = blk0 V c 0 t := by
  unfold Dat.before
  rw [if_pos (fetch0_0 t)]
  unfold Dat.fetched Dat.blockOf blk0
  rw [dat0_A]
  rfl

/-! ## The body's triple -/

set_option maxHeartbeats 1000000 in
/-- The body on two whole buffers, the input's reading `x` and the output's holding anything, runs to a state where the
    input's still reads `x` and the output's reads the row statistics of `x`. -/
theorem triple0 (c : Dev nD) (E : Set ℕ) (i : grid0.Coords) (arg1 : Memref sig .tc .vmem S256x1024 .f32) (harg1 : arg1.IsWhole)
    (arg2 : Memref sig .tc .vmem S256x2 .f32) (harg2 : arg2.IsWhole)
    (x : Vec F S256x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (rowStatsBlk x)) -∗ K ⟨⟩))
      ⊢ wp frame (wpE (defs₀ (F := F)) Variants.none c none) E (cc0__row_stats_kernel i arg1 harg1 arg2 harg2) K := by
  simp only [cc0__row_stats_kernel_eq_skeleton]; unfold cc0__row_stats_kernel_skel
  unfold owns
  iintro ⟨⟨%fIn, %hIn, Hin⟩, ⟨%dOut, %fOut, -, Hout⟩, Hk⟩
  subst hIn
  sl_exec
  sl_step
  iapply Hk
  isplitl [Hin]
  · iexists fIn
    isplitr
    · ipureintro; rfl
    · iexact Hin
  · iexists _
    isplitr
    · ipureintro; exact read_stored _ _ fIn fOut
    · iexact Hout

/-! ## The obligation -/

/-- At one point, with the windows written out: the input buffer holds its block, so the triple applies with `x` that
    block; the pipeline's invariant and what the core owes do not depend on the point, and pass through untouched. -/
theorem at_point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  have hΦ : (dat0 V c).Φ t.succ = (dat0 V c).Φ t.castSucc := rfl
  have howe : (dat0 V c).owesAt () t.succ = (dat0 V c).owesAt () t.castSucc := rfl
  rw [hΦ, howe, dat0_after_in, dat0_after_out]
  simp only [staged_in]
  unfold bodyAt0
  iintro ⟨HΦ, Howe, ⟨%d0, Hin⟩, ⟨%d1, Hout⟩⟩
  iapply (triple0 c Set.univ _ _ _ _ _ (blk0 V c 0 t) _)
  isplitl [Hin]
  · iexact Hin
  isplitl [Hout]
  · iexists _; iexact Hout
  iintro ⟨Hin, Hout⟩
  isplitl [HΦ]
  · iexact HΦ
  isplitl [Howe]
  · iexact Howe
  isplitl [Hin]
  · iexact Hin
  · iexact Hout

theorem body_obligation0 (c : Dev nD) : BodyObligation (dat0 (F := F) V c) (defs₀ (F := F)) Variants.none () Set.univ := by
  intro t
  rw [bigSep_W0, bigSep_W0]
  exact at_point0 V c t

end Cert.Kernel.Hand

end
-- ==== Proof.KBRegion1.lean ====
/-
  Call 1's body obligation: at every grid point the kernel body, run on the window buffers the pipeline hands it,
  leaves in them what the proof data of `KIBlocks` says.
-/
import proofs.«431486_j85761906967230_1_alg».proof.Proof.KBBlocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch of the body, in closed form over the grid -/

/-- The body's one conditional tests "the token-tile coordinate is zero": the comparison, widened to a word and
    compared against zero again, as a proposition over the grid coordinates. -/
abbrev firstTile1 (i : grid1.Coords) : Prop :=
  (Scalar.cmpi .ne (Scalar.extui (Scalar.cmpi .eq (BitVec.ofNat 32 (i 1).val) 0#32)) 0#32) = 1#1

/-- Point `t` has token tile `t % 8`, so the test holds exactly at the multiples of eight: checked at each of the
    1024 points. -/
theorem firstTile1_iff : ∀ t : Fin cfg1.N, firstTile1 (grid1.coords t) ↔ t.val % 8 = 0 :=
  (by decide +kernel : ∀ t : Fin grid1.N, firstTile1 (grid1.coords t) ↔ t.val % 8 = 0)

/-! ## Whole-buffer rectangles start at offset zero on every axis -/

/-- The offsets of the input buffer's (rank 2) and the output buffer's (rank 3) whole rectangles are all zero. -/
theorem inOff1_zero : (![0, 0] : Fin 2 → Nat) = fun _ => 0 := funext fun a => by fin_cases a <;> rfl
theorem outOff1_zero : (![0, 0, 0] : Fin 3 → Nat) = fun _ => 0 := funext fun a => by fin_cases a <;> rfl

/-- So the rectangle through which the body stores to the output buffer holds every index of it. -/
theorem outRect1_mem (y : S16x3x256.Idx) :
    y ∈ (Rect.unit ![0, 0, 0] S16x3x256.size inb_S16x3x256_S16x3x256_0_0_0).set :=
  View.mem_set_unit_zero outOff1_zero inb_S16x3x256_S16x3x256_0_0_0 y

/-! ## The body run on any two whole buffers

In both cases the last store writes the whole output buffer, so what the buffer holds afterwards is that store's
payload: the partial sums of the input tile added to what the second load of the output buffer read. At a first
token tile that load reads back the zeros just stored, whatever the buffer held; otherwise it reads what the buffer
held on entry. -/

set_option maxHeartbeats 1000000 in
/-- At a first token tile: from the input buffer at `x` and the output buffer at anything, the body ends with the
    input buffer unchanged and the output buffer at `catFirst1 x`. -/
theorem run1_first (c : Dev nD) (i : grid1.Coords) (arg2 : Memref sig .tc .vmem S16x128 .i32) (harg2 : arg2.IsWhole)
    (arg3 : Memref sig .tc .vmem S16x3x256 .f32) (harg3 : arg3.IsWhole) (hc : firstTile1 i)
    (x : Vec F S16x128 .i32) (E : Set ℕ) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (catFirst1 x)) -∗ K ⟨⟩))
      ⊢ wp frame (wpE (defs₀ (F := F)) Variants.none c none) E (cc1__cat_stats_kernel i arg2 harg2 arg3 harg3) K := by
  simp only [cc1__cat_stats_kernel_eq_skeleton]; unfold cc1__cat_stats_kernel_skel
  unfold owns
  iintro ⟨⟨%f0, %hf0, H0⟩, ⟨%d1, %f1, -, H1⟩, Hk⟩
  obtain rfl := harg2.eq_unread hf0
  sl_exec (disch := first | exact hc)
  sl_step
  iapply Hk
  isplitl [H0]
  · iexists _; isplitr
    · ipureintro; exact harg2.read_unread _
    · iexact H0
  iexists _; isplitr
  swap
  · iexact H1
  ipureintro
  -- two whole-buffer stores, the later one first in the list: it alone decides the contents
  rw [View.read_writes_eq_canon _ _ _ (fun y => ⟨_, List.mem_cons_self, outRect1_mem y⟩),
    View.canon_cons_unit_zero (S := S16x3x256) outOff1_zero]
  -- its second operand is the load that read the zero store back
  sl_unfold_words
  rw [View.readCov_unit_zero (S := S16x3x256) _ outOff1_zero]
  simp only [View.readAt_eq_ld, harg2.read_unread, View.ld_unit_zero (S := S16x128) inOff1_zero]
  rfl

set_option maxHeartbeats 1000000 in
/-- At a later token tile: from the input buffer at `x` and the output buffer at `prev`, the body ends with the input
    buffer unchanged and the output buffer at `catNext1 x prev`. -/
theorem run1_next (c : Dev nD) (i : grid1.Coords) (arg2 : Memref sig .tc .vmem S16x128 .i32) (harg2 : arg2.IsWhole)
    (arg3 : Memref sig .tc .vmem S16x3x256 .f32) (harg3 : arg3.IsWhole) (hc : ¬firstTile1 i)
    (x : Vec F S16x128 .i32) (prev : Vec F S16x3x256 .f32) (E : Set ℕ) (K : PUnit → sProp 𝕄) :
    iprop(owns (c : Thread nD τ) arg2 fullShare x ∗ owns (c : Thread nD τ) arg3 fullShare prev
        ∗ (iprop(owns (c : Thread nD τ) arg2 fullShare x ∗ owns (c : Thread nD τ) arg3 fullShare (catNext1 x prev)) -∗ K ⟨⟩))
      ⊢ wp frame (wpE (defs₀ (F := F)) Variants.none c none) E (cc1__cat_stats_kernel i arg2 harg2 arg3 harg3) K := by
  simp only [cc1__cat_stats_kernel_eq_skeleton]; unfold cc1__cat_stats_kernel_skel
  unfold owns
  iintro ⟨⟨%f0, %hf0, H0⟩, ⟨%f1, %hf1, H1⟩, Hk⟩
  obtain rfl := harg2.eq_unread hf0
  obtain rfl := harg3.eq_unread hf1
  sl_exec (disch := first | exact hc)
  sl_step
  iapply Hk
  isplitl [H0]
  · iexists _; isplitr
    · ipureintro; exact harg2.read_unread _
    · iexact H0
  iexists _; isplitr
  swap
  · iexact H1
  ipureintro
  -- one whole-buffer store: the buffer holds its payload, whose two loads read the buffers' contents on entry
  rw [View.read_writes_eq_canon _ _ _ (fun y => ⟨_, List.mem_singleton_self _, outRect1_mem y⟩),
    View.canon_unit_zero (S := S16x3x256) outOff1_zero]
  simp only [View.readAt_eq_ld, harg2.read_unread, harg3.read_unread, View.ld_unit_zero (S := S16x128) inOff1_zero,
    View.ld_unit_zero (S := S16x3x256) outOff1_zero]
  rfl

/-! ## What the pipeline hands the body at a point -/

/-- The two windows' current staging buffers at point `t`, as the pipeline passes them to the body, each whole. -/
abbrev inBuf1 (t : Fin cfg1.N) : Memref sig .tc .vmem S16x128 .i32 := win1_0.stage (cfg1.slots t 0)
abbrev inBuf1_whole (t : Fin cfg1.N) : (inBuf1 t).IsWhole := hstage1_0 ((cfg1.slots t 0).cast nbuf1_0)
abbrev outBuf1 (t : Fin cfg1.N) : Memref sig .tc .vmem S16x3x256 .f32 := win1_1.stage (cfg1.slots t 1)
abbrev outBuf1_whole (t : Fin cfg1.N) : (outBuf1 t).IsWhole := hstage1_1 ((cfg1.slots t 1).cast nbuf1_1)

/-- The input window is fetched at every point and its block is never cut: its buffer holds the point's block of the
    input array. -/
theorem before1_in (c : Dev nD) (t : Fin cfg1.N) (d) : (dat1 V c).before 0 t d = blk1 V c 0 t := by
  rw [(dat1 V c).before_fetched 0 t (fetch1_0 t) d]
  unfold Dat.fetched Dat.blockOf blk1
  rw [dat1_A]
  rfl

/-- Away from a first token tile the point before is in the same batch tile and is not a last token tile, so the
    output buffer was not written back after it: it still holds what the body left there. -/
theorem before1_out_next (c : Dev nD) (t : Fin cfg1.N) (h0 : ¬t.val % 8 = 0) (d) :
    (dat1 V c).before 1 t d = accAt1 V c (t.val - 1) (Nat.lt_of_le_of_lt (Nat.sub_le _ _) t.isLt) := by
  have hpos : t.val ≠ 0 := fun e => h0 (by rw [e])
  have hkeep : (cfg1.win 1).flush ⟨t.val - 1, Nat.lt_of_le_of_lt (Nat.sub_le _ _) t.isLt⟩ = false := by
    cases hfl : (cfg1.win 1).flush ⟨t.val - 1, Nat.lt_of_le_of_lt (Nat.sub_le _ _) t.isLt⟩ with
    | false => rfl
    | true =>
      have h7 := (flush1_1 _).mp hfl
      simp only at h7
      omega
  rw [(dat1 V c).before_out_kept 1 rfl t hpos hkeep (fun _ => rfl) (fun _ _ => rfl), dat1_after_out]

/-! ## The body at a point -/

set_option maxHeartbeats 800000 in
/-- At point `t` the input buffer holds the point's block `x`. If `t` is a first token tile the run from any output
    contents ends at `catFirst1 x`, which is the accumulation there; otherwise the output buffer holds the
    accumulation at `t - 1` and the run ends at `catNext1 x` of it, which is the accumulation at `t`. The invariant and
    what the core owes do not change with the point and pass through untouched. -/
theorem sound_body1 (c : Dev nD) (t : Fin cfg1.N) :
    iprop((dat1 V c).Φ t.castSucc ∗ (dat1 V c).owesAt () t.castSucc
        ∗ (∃ d, owns (c : Thread nD τ) (inBuf1 t) fullShare ((dat1 V c).before 0 t d))
        ∗ (∃ d, owns (c : Thread nD τ) (outBuf1 t) fullShare ((dat1 V c).before 1 t d)))
      ⊢ wp frame (wpE (defs₀ (F := F)) Variants.none c none) Set.univ (bodyAt1 t) (fun _ =>
          iprop((dat1 V c).Φ t.succ ∗ (dat1 V c).owesAt () t.succ
            ∗ owns (c : Thread nD τ) (inBuf1 t) fullShare ((dat1 V c).after 0 t)
            ∗ owns (c : Thread nD τ) (outBuf1 t) fullShare ((dat1 V c).after 1 t))) := by
  simp only [before1_in]
  rw [show (dat1 V c).Φ t.succ = (dat1 V c).Φ t.castSucc from rfl,
    show (dat1 V c).owesAt () t.succ = (dat1 V c).owesAt () t.castSucc from rfl,
    dat1_after_in, dat1_after_out]
  by_cases h0 : t.val % 8 = 0
  · rw [accAt1_first V c t h0]
    iintro ⟨HΦ, Ho, ⟨%d0, H0⟩, ⟨%d1, H1⟩⟩
    iapply (run1_first c (grid1.coords t) (inBuf1 t) (inBuf1_whole t) (outBuf1 t) (outBuf1_whole t)
      ((firstTile1_iff t).mpr h0) (blk1 V c 0 t) Set.univ _)
    isplitl [H0]
    · iexact H0
    isplitl [H1]
    · iexists _; iexact H1
    iintro ⟨H0, H1⟩
    isplitl [HΦ]
    · iexact HΦ
    isplitl [Ho]
    · iexact Ho
    isplitl [H0]
    · iexact H0
    iexact H1
  · rw [accAt1_next V c t h0]
    simp only [before1_out_next V c t h0]
    iintro ⟨HΦ, Ho, ⟨%d0, H0⟩, ⟨%d1, H1⟩⟩
    iapply (run1_next c (grid1.coords t) (inBuf1 t) (inBuf1_whole t) (outBuf1 t) (outBuf1_whole t)
      (fun h => h0 ((firstTile1_iff t).mp h)) (blk1 V c 0 t) _ Set.univ _)
    isplitl [H0]
    · iexact H0
    isplitl [H1]
    · iexact H1
    iintro ⟨H0, H1⟩
    isplitl [HΦ]
    · iexact HΦ
    isplitl [Ho]
    · iexact Ho
    isplitl [H0]
    · iexact H0
    iexact H1

theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.KBRegion2.lean ====
/-
  Call 2's body obligation: at every grid point the kernel body, run on the window buffers the pipeline hands it,
  leaves in them what the proof data of `KIBlocks` says.
-/
import proofs.«431486_j85761906967230_1_alg».proof.Proof.KBBlocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch of the body, in closed form over the grid -/

/-- The body's one conditional tests "the token-tile coordinate is zero": the comparison, widened to a word and
    compared against zero again, as a proposition over the grid coordinates. -/
abbrev firstTile2 (i : grid2.Coords) : Prop :=
  (Scalar.cmpi .ne (Scalar.extui (Scalar.cmpi .eq (BitVec.ofNat 32 (i 1).val) 0#32)) 0#32) = 1#1

/-- Point `t` has token tile `t % 8`, so the test holds exactly at the multiples of eight: checked at each of the
    512 points. -/
theorem firstTile2_iff : ∀ t : Fin cfg2.N, firstTile2 (grid2.coords t) ↔ t.val % 8 = 0 :=
  (by decide +kernel : ∀ t : Fin grid2.N, firstTile2 (grid2.coords t) ↔ t.val % 8 = 0)

/-! ## Whole-buffer rectangles start at offset zero on every axis -/

/-- The offsets of the input buffer's (rank 2) and the output buffer's (rank 3) whole rectangles are all zero. -/
theorem inOff2_zero : (![0, 0] : Fin 2 → Nat) = fun _ => 0 := funext fun a => by fin_cases a <;> rfl
theorem outOff2_zero : (![0, 0, 0] : Fin 3 → Nat) = fun _ => 0 := funext fun a => by fin_cases a <;> rfl

/-- So the rectangle through which the body stores to the output buffer holds every index of it. -/
theorem outRect2_mem (y : S32x3x128.Idx) :
    y ∈ (Rect.unit ![0, 0, 0] S32x3x128.size inb_S32x3x128_S32x3x128_0_0_0).set :=
  View.mem_set_unit_zero outOff2_zero inb_S32x3x128_S32x3x128_0_0_0 y

/-! ## The body run on any two whole buffers

In both cases the last store writes the whole output buffer, so what the buffer holds afterwards is that store's
payload: the partial sums of the input tile added to what the second load of the output buffer read. At a first
token tile that load reads back the zeros just stored, whatever the buffer held; otherwise it reads what the buffer
held on entry. -/

set_option maxHeartbeats 1000000 in
/-- At a first token tile: from the input buffer at `x` and the output buffer at anything, the body ends with the
    input buffer unchanged and the output buffer at `catFirst2 x`. -/
theorem run2_first (c : Dev nD) (i : grid2.Coords) (arg2 : Memref sig .tc .vmem S32x128 .i32) (harg2 : arg2.IsWhole)
    (arg3 : Memref sig .tc .vmem S32x3x128 .f32) (harg3 : arg3.IsWhole) (hc : firstTile2 i)
    (x : Vec F S32x128 .i32) (E : Set ℕ) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (catFirst2 x)) -∗ K ⟨⟩))
      ⊢ wp frame (wpE (defs₀ (F := F)) Variants.none c none) E (cc2__cat_stats_kernel i arg2 harg2 arg3 harg3) K := by
  simp only [cc2__cat_stats_kernel_eq_skeleton]; unfold cc2__cat_stats_kernel_skel
  unfold owns
  iintro ⟨⟨%f0, %hf0, H0⟩, ⟨%d1, %f1, -, H1⟩, Hk⟩
  obtain rfl := harg2.eq_unread hf0
  sl_exec (disch := first | exact hc)
  sl_step
  iapply Hk
  isplitl [H0]
  · iexists _; isplitr
    · ipureintro; exact harg2.read_unread _
    · iexact H0
  iexists _; isplitr
  swap
  · iexact H1
  ipureintro
  -- two whole-buffer stores, the later one first in the list: it alone decides the contents
  rw [View.read_writes_eq_canon _ _ _ (fun y => ⟨_, List.mem_cons_self, outRect2_mem y⟩),
    View.canon_cons_unit_zero (S := S32x3x128) outOff2_zero]
  -- its second operand is the load that read the zero store back
  sl_unfold_words
  rw [View.readCov_unit_zero (S := S32x3x128) _ outOff2_zero]
  simp only [View.readAt_eq_ld, harg2.read_unread, View.ld_unit_zero (S := S32x128) inOff2_zero]
  rfl

set_option maxHeartbeats 1000000 in
/-- At a later token tile: from the input buffer at `x` and the output buffer at `prev`, the body ends with the input
    buffer unchanged and the output buffer at `catNext2 x prev`. -/
theorem run2_next (c : Dev nD) (i : grid2.Coords) (arg2 : Memref sig .tc .vmem S32x128 .i32) (harg2 : arg2.IsWhole)
    (arg3 : Memref sig .tc .vmem S32x3x128 .f32) (harg3 : arg3.IsWhole) (hc : ¬firstTile2 i)
    (x : Vec F S32x128 .i32) (prev : Vec F S32x3x128 .f32) (E : Set ℕ) (K : PUnit → sProp 𝕄) :
    iprop(owns (c : Thread nD τ) arg2 fullShare x ∗ owns (c : Thread nD τ) arg3 fullShare prev
        ∗ (iprop(owns (c : Thread nD τ) arg2 fullShare x ∗ owns (c : Thread nD τ) arg3 fullShare (catNext2 x prev)) -∗ K ⟨⟩))
      ⊢ wp frame (wpE (defs₀ (F := F)) Variants.none c none) E (cc2__cat_stats_kernel i arg2 harg2 arg3 harg3) K := by
  simp only [cc2__cat_stats_kernel_eq_skeleton]; unfold cc2__cat_stats_kernel_skel
  unfold owns
  iintro ⟨⟨%f0, %hf0, H0⟩, ⟨%f1, %hf1, H1⟩, Hk⟩
  obtain rfl := harg2.eq_unread hf0
  obtain rfl := harg3.eq_unread hf1
  sl_exec (disch := first | exact hc)
  sl_step
  iapply Hk
  isplitl [H0]
  · iexists _; isplitr
    · ipureintro; exact harg2.read_unread _
    · iexact H0
  iexists _; isplitr
  swap
  · iexact H1
  ipureintro
  -- one whole-buffer store: the buffer holds its payload, whose two loads read the buffers' contents on entry
  rw [View.read_writes_eq_canon _ _ _ (fun y => ⟨_, List.mem_singleton_self _, outRect2_mem y⟩),
    View.canon_unit_zero (S := S32x3x128) outOff2_zero]
  simp only [View.readAt_eq_ld, harg2.read_unread, harg3.read_unread, View.ld_unit_zero (S := S32x128) inOff2_zero,
    View.ld_unit_zero (S := S32x3x128) outOff2_zero]
  rfl

/-! ## What the pipeline hands the body at a point -/

/-- The two windows' current staging buffers at point `t`, as the pipeline passes them to the body, each whole. -/
abbrev inBuf2 (t : Fin cfg2.N) : Memref sig .tc .vmem S32x128 .i32 := win2_0.stage (cfg2.slots t 0)
abbrev inBuf2_whole (t : Fin cfg2.N) : (inBuf2 t).IsWhole := hstage2_0 ((cfg2.slots t 0).cast nbuf2_0)
abbrev outBuf2 (t : Fin cfg2.N) : Memref sig .tc .vmem S32x3x128 .f32 := win2_1.stage (cfg2.slots t 1)
abbrev outBuf2_whole (t : Fin cfg2.N) : (outBuf2 t).IsWhole := hstage2_1 ((cfg2.slots t 1).cast nbuf2_1)

/-- The input window is fetched at every point and its block is never cut: its buffer holds the point's block of the
    input array. -/
theorem before2_in (c : Dev nD) (t : Fin cfg2.N) (d) : (dat2 V c).before 0 t d = blk2 V c 0 t := by
  rw [(dat2 V c).before_fetched 0 t (fetch2_0 t) d]
  unfold Dat.fetched Dat.blockOf blk2
  rw [dat2_A]
  rfl

/-- Away from a first token tile the point before is in the same batch tile and is not a last token tile, so the
    output buffer was not written back after it: it still holds what the body left there. -/
theorem before2_out_next (c : Dev nD) (t : Fin cfg2.N) (h0 : ¬t.val % 8 = 0) (d) :
    (dat2 V c).before 1 t d = accAt2 V c (t.val - 1) (Nat.lt_of_le_of_lt (Nat.sub_le _ _) t.isLt) := by
  have hpos : t.val ≠ 0 := fun e => h0 (by rw [e])
  have hkeep : (cfg2.win 1).flush ⟨t.val - 1, Nat.lt_of_le_of_lt (Nat.sub_le _ _) t.isLt⟩ = false := by
    cases hfl : (cfg2.win 1).flush ⟨t.val - 1, Nat.lt_of_le_of_lt (Nat.sub_le _ _) t.isLt⟩ with
    | false => rfl
    | true =>
      have h7 := (flush2_1 _).mp hfl
      simp only at h7
      omega
  rw [(dat2 V c).before_out_kept 1 rfl t hpos hkeep (fun _ => rfl) (fun _ _ => rfl), dat2_after_out]

/-! ## The body at a point -/

set_option maxHeartbeats 800000 in
/-- At point `t` the input buffer holds the point's block `x`. If `t` is a first token tile the run from any output
    contents ends at `catFirst2 x`, which is the accumulation there; otherwise the output buffer holds the
    accumulation at `t - 1` and the run ends at `catNext2 x` of it, which is the accumulation at `t`. The invariant and
    what the core owes do not change with the point and pass through untouched. -/
theorem sound_body2 (c : Dev nD) (t : Fin cfg2.N) :
    iprop((dat2 V c).Φ t.castSucc ∗ (dat2 V c).owesAt () t.castSucc
        ∗ (∃ d, owns (c : Thread nD τ) (inBuf2 t) fullShare ((dat2 V c).before 0 t d))
        ∗ (∃ d, owns (c : Thread nD τ) (outBuf2 t) fullShare ((dat2 V c).before 1 t d)))
      ⊢ wp frame (wpE (defs₀ (F := F)) Variants.none c none) Set.univ (bodyAt2 t) (fun _ =>
          iprop((dat2 V c).Φ t.succ ∗ (dat2 V c).owesAt () t.succ
            ∗ owns (c : Thread nD τ) (inBuf2 t) fullShare ((dat2 V c).after 0 t)
            ∗ owns (c : Thread nD τ) (outBuf2 t) fullShare ((dat2 V c).after 1 t))) := by
  simp only [before2_in]
  rw [show (dat2 V c).Φ t.succ = (dat2 V c).Φ t.castSucc from rfl,
    show (dat2 V c).owesAt () t.succ = (dat2 V c).owesAt () t.castSucc from rfl,
    dat2_after_in, dat2_after_out]
  by_cases h0 : t.val % 8 = 0
  · rw [accAt2_first V c t h0]
    iintro ⟨HΦ, Ho, ⟨%d0, H0⟩, ⟨%d1, H1⟩⟩
    iapply (run2_first c (grid2.coords t) (inBuf2 t) (inBuf2_whole t) (outBuf2 t) (outBuf2_whole t)
      ((firstTile2_iff t).mpr h0) (blk2 V c 0 t) Set.univ _)
    isplitl [H0]
    · iexact H0
    isplitl [H1]
    · iexists _; iexact H1
    iintro ⟨H0, H1⟩
    isplitl [HΦ]
    · iexact HΦ
    isplitl [Ho]
    · iexact Ho
    isplitl [H0]
    · iexact H0
    iexact H1
  · rw [accAt2_next V c t h0]
    simp only [before2_out_next V c t h0]
    iintro ⟨HΦ, Ho, ⟨%d0, H0⟩, ⟨%d1, H1⟩⟩
    iapply (run2_next c (grid2.coords t) (inBuf2 t) (inBuf2_whole t) (outBuf2 t) (outBuf2_whole t)
      (fun h => h0 ((firstTile2_iff t).mp h)) (blk2 V c 0 t) _ Set.univ _)
    isplitl [H0]
    · iexact H0
    isplitl [H1]
    · iexact H1
    iintro ⟨H0, H1⟩
    isplitl [HΦ]
    · iexact HΦ
    isplitl [Ho]
    · iexact Ho
    isplitl [H0]
    · iexact H0
    iexact H1

theorem body_obligation2 (c : Dev nD) : BodyObligation (dat2 (F := F) V c) (defs₀ (F := F)) Variants.none () Set.univ := by
  intro t
  rw [bigSep_W2, bigSep_W2]
  exact sound_body2 V c t

end Cert.Kernel.Hand

end
-- ==== Proof.KBRun.lean ====
/-
  The whole run of the program: two host operations, the row-statistics call, twenty host operations, the two
  category-statistics calls one after the other, and the closing host operations. The buffer contents at each of
  these boundaries are named (`W0` … `W6`): a host stretch applies its operations to what it finds, a call leaves
  its arrays at what its write-backs give and every other buffer alone. Every weakly fair execution ends with every
  unscoped buffer at `W6` (`run_all`); the four argument arrays are written by nothing on the way, so they end as
  launched.
-/
import proofs.«431486_j85761906967230_1_alg».proof.Proof.KBRegion0
import proofs.«431486_j85761906967230_1_alg».proof.Proof.KBRegion1
import proofs.«431486_j85761906967230_1_alg».proof.Proof.KBRegion2
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: call 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: call 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At call 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At call 2's exit: its arrays at what the pipeline's write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the closing host stretch: the end of @main. -/
abbrev W6 : Dev nD → Valuation τ sig (Elt F) := fun c => StableHlo.after hostOps3 (W5 m ρ c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (dat0_A (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := (W4_arr m ρ c 0).trans (((dat1 (V3 m ρ) c).arrAt_in 0 rfl _).trans (dat1_A (V3 m ρ) c 0))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg2) := (W5_arr m ρ c 0).trans (((dat2 (V4 m ρ) c).arrAt_in 0 rfl _).trans (dat2_A (V4 m ρ) c 0))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 3) → (pcfgs (F := F) p).Adm := fun p => (cfgs p).toPCfg_adm
/-- Every call's proof data, each at its own entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment: entered with every unscoped buffer at `W1`, left with them at `W2`. Its arrays are taken
    out of the unscoped buffers at entry and put back at the contents its write-backs leave; the generator register
    goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are taken
    out of the unscoped buffers at entry and put back at the contents its write-backs leave; the generator register
    goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W4`, left with them at `W5`. Its arrays are taken
    out of the unscoped buffers at entry and put back at the contents its write-backs leave; the generator register
    goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.Kernel.Hand

end
-- ==== Proof.KIBlocks.lean ====
/-
  The three pallas_calls of the program, each at a PARAMETER `V`: the TensorCore's buffer contents when the call's
  region is entered. Per call: the block of each window's array at a grid point; what the kernel body leaves in
  its output buffer, written directly over the body's arithmetic (the row-statistics call stores one value; a
  category-statistics call stores, at the first token tile of a batch tile, its partial sums over zeros and, at every
  later token tile, its partial sums over what the buffer held); the accumulation of those over the grid points; and
  the pipeline's proof data.
-/
import proofs.«431486_j85761906967230_1_alg».proof.Proof.Gen.KernelIdeal.Launch
import proofs.«431486_j85761906967230_1_alg».proof.Proof.Gen.KernelIdeal.Skeleton
import proofs.«431486_j85761906967230_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0: per-row sum and sum of squares of `amount` (grid of 8 batch tiles of 256 rows) -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output buffer: the two row statistics of the 256 × 1024 input block, side by side. -/
def rowStatsBlk (x : Vec F S256x1024 .f32) : Vec F S256x2 .f32 := k0_pay1 x

/-- The proof data of call 0 on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => rowStatsBlk (blk0 V c 0 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after_in (c : Dev nD) (t : Fin cfg0.N) : (dat0 V c).after 0 t = blk0 V c 0 t := by dsimp only [dat0]
theorem dat0_after_out (c : Dev nD) (t : Fin cfg0.N) : (dat0 V c).after 1 t = rowStatsBlk (blk0 V c 0 t) := by dsimp only [dat0]

/-! ## Call 1: count, sum and sum of squares per category of `mcc_code` (128 batch tiles of 16 rows × 8 token tiles of 128) -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At a later token tile: the tile's partial sums added to what the buffer held. -/
def catNext1 (x : Vec F S16x128 .i32) (prev : Vec F S16x3x256 .f32) : Vec F S16x3x256 .f32 := k1_pay2 x prev
/-- At the first token tile of a batch tile: the buffer is zeroed first. -/
def catFirst1 (x : Vec F S16x128 .i32) : Vec F S16x3x256 .f32 := k1_pay2 x (k1_pay1 (F := F))

/-- THE ACCUMULATION: what the output buffer holds after the body at position `n` of the grid's order (the token tile
    is `n % 8`: the first tile of each batch tile restarts from zero, every other adds to what the point before left). -/
def accAt1 (c : Dev nD) : (n : ℕ) → n < cfg1.N → Vec F S16x3x256 .f32
  | 0, hn => catFirst1 (blk1 V c 0 ⟨0, hn⟩)
  | n + 1, hn =>
    if (n + 1) % 8 = 0 then catFirst1 (blk1 V c 0 ⟨n + 1, hn⟩)
    else catNext1 (blk1 V c 0 ⟨n + 1, hn⟩) (accAt1 c n (Nat.lt_of_succ_lt hn))

theorem accAt1_first (c : Dev nD) (t : Fin cfg1.N) (h0 : t.val % 8 = 0) :
    accAt1 V c t.val t.isLt = catFirst1 (blk1 V c 0 t) := by
  obtain ⟨n, hn⟩ := t
  cases n with
  | zero => exact rfl
  | succ n => exact (if_pos h0).trans rfl

theorem accAt1_next (c : Dev nD) (t : Fin cfg1.N) (h0 : ¬t.val % 8 = 0) :
    accAt1 V c t.val t.isLt
      = catNext1 (blk1 V c 0 t) (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => accAt1 V c t.val t.isLt
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after_in (c : Dev nD) (t : Fin cfg1.N) : (dat1 V c).after 0 t = blk1 V c 0 t := by dsimp only [dat1]
theorem dat1_after_out (c : Dev nD) (t : Fin cfg1.N) : (dat1 V c).after 1 t = accAt1 V c t.val t.isLt := by dsimp only [dat1]

/-! ## Call 2: the same statistics of `tr_type` (64 batch tiles of 32 rows × 8 token tiles of 128) -/

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def catNext2 (x : Vec F S32x128 .i32) (prev : Vec F S32x3x128 .f32) : Vec F S32x3x128 .f32 := k2_pay2 x prev
def catFirst2 (x : Vec F S32x128 .i32) : Vec F S32x3x128 .f32 := k2_pay2 x (k2_pay1 (F := F))

def accAt2 (c : Dev nD) : (n : ℕ) → n < cfg2.N → Vec F S32x3x128 .f32
  | 0, hn => catFirst2 (blk2 V c 0 ⟨0, hn⟩)
  | n + 1, hn =>
    if (n + 1) % 8 = 0 then catFirst2 (blk2 V c 0 ⟨n + 1, hn⟩)
    else catNext2 (blk2 V c 0 ⟨n + 1, hn⟩) (accAt2 c n (Nat.lt_of_succ_lt hn))

theorem accAt2_first (c : Dev nD) (t : Fin cfg2.N) (h0 : t.val % 8 = 0) :
    accAt2 V c t.val t.isLt = catFirst2 (blk2 V c 0 t) := by
  obtain ⟨n, hn⟩ := t
  cases n with
  | zero => exact rfl
  | succ n => exact (if_pos h0).trans rfl

theorem accAt2_next (c : Dev nD) (t : Fin cfg2.N) (h0 : ¬t.val % 8 = 0) :
    accAt2 V c t.val t.isLt
      = catNext2 (blk2 V c 0 t) (accAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => accAt2 V c t.val t.isLt
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after_in (c : Dev nD) (t : Fin cfg2.N) : (dat2 V c).after 0 t = blk2 V c 0 t := by dsimp only [dat2]
theorem dat2_after_out (c : Dev nD) (t : Fin cfg2.N) : (dat2 V c).after 1 t = accAt2 V c t.val t.isLt := by dsimp only [dat2]

end Cert.KernelIdeal.Hand

end
-- ==== Proof.KIRegion0.lean ====
/-
  Call 0's body obligation: at every grid point the kernel body, run on the window buffers the pipeline hands it,
  leaves in them what the proof data of `KIBlocks` says.
-/
import proofs.«431486_j85761906967230_1_alg».proof.Proof.KIBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two whole-buffer accesses

The body reads all of its input buffer, reads all of its output buffer (and drops what it read), then writes the two
row statistics over all of the output buffer. Each access goes through the rectangle that starts at the origin and has
the buffer's own extents. -/

/-- An access at the origin of a rank-2 buffer has both offsets zero. -/
theorem origin_in : (![0, 0] : Fin S256x1024.rank → Nat) = fun _ => 0 := by
  funext a; fin_cases a <;> rfl
theorem origin_out : (![0, 0] : Fin S256x2.rank → Nat) = fun _ => 0 := by
  funext a; fin_cases a <;> rfl

/-- The rectangle through which the input buffer is read: all of it. -/
abbrev boxIn : Rect S256x1024 := Rect.unit (s := S256x1024) ![0, 0] S256x1024.size inb_S256x1024_S256x1024_0_0
/-- The rectangle through which the output buffer is read and then written: all of it. -/
abbrev boxOut : Rect S256x2 := Rect.unit (s := S256x2) ![0, 0] S256x2.size inb_S256x2_S256x2_0_0

/-- What the output buffer reads as once the body's one store has landed, whatever it held before: the store's
    rectangle is the whole buffer, so every index is under it and reads the stored value; and the stored value is the
    row statistics of what the whole-buffer load of the input read, which is the input buffer's contents. -/
theorem read_stored {κ₁ κ₂ : Kind} {sp₁ sp₂ : Space} (vIn : View sig κ₁ sp₁ S256x1024 .f32) (vOut : View sig κ₂ sp₂ S256x2 .f32)
    (fIn : vIn.ty.Contents (Elt F)) (fOut : vOut.ty.Contents (Elt F)) :
    vOut.read (Elt F) (vOut.writes (Elt F) fOut [⟨boxOut, k0_pay1 (vIn.readAt (Elt F) boxIn.toLoadRect fIn)⟩])
      = rowStatsBlk (vIn.read (Elt F) fIn) := by
  have hcover : ∀ y : S256x2.Idx,
      ∃ p ∈ ([⟨boxOut, k0_pay1 (vIn.readAt (Elt F) boxIn.toLoadRect fIn)⟩] : List (View.Piece (Elt F) S256x2 .f32)), y ∈ p.1.set :=
    fun y => ⟨_, List.mem_singleton_self _, View.mem_set_unit_zero origin_out inb_S256x2_S256x2_0_0 y⟩
  rw [View.read_writes_eq_canon _ _ _ hcover, View.canon_unit_zero origin_out]
  unfold rowStatsBlk
  congr 1
  exact View.ld_unit_zero origin_in _ _

/-! ## The input buffer when the body runs -/

/-- The input window is fetched at every point of the grid, and its blocks tile its array exactly, so when the body runs
    the window's current buffer holds the array's block of that point. -/
theorem staged_in (c : Dev nD) (t : Fin cfg0.N) (d) : (dat0 V c).before 0 t d = blk0 V c 0 t := by
  unfold Dat.before
  rw [if_pos (fetch0_0 t)]
  unfold Dat.fetched Dat.blockOf blk0
  rw [dat0_A]
  rfl

/-! ## The body's triple -/

set_option maxHeartbeats 1000000 in
/-- The body on two whole buffers, the input's reading `x` and the output's holding anything, runs to a state where the
    input's still reads `x` and the output's reads the row statistics of `x`. -/
theorem triple0 (c : Dev nD) (E : Set ℕ) (i : grid0.Coords) (arg1 : Memref sig .tc .vmem S256x1024 .f32) (harg1 : arg1.IsWhole)
    (arg2 : Memref sig .tc .vmem S256x2 .f32) (harg2 : arg2.IsWhole)
    (x : Vec F S256x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (rowStatsBlk x)) -∗ K ⟨⟩))
      ⊢ wp frame (wpE (defs₀ (F := F)) Variants.none c none) E (cc0__row_stats_kernel i arg1 harg1 arg2 harg2) K := by
  simp only [cc0__row_stats_kernel_eq_skeleton]; unfold cc0__row_stats_kernel_skel
  unfold owns
  iintro ⟨⟨%fIn, %hIn, Hin⟩, ⟨%dOut, %fOut, -, Hout⟩, Hk⟩
  subst hIn
  sl_exec
  sl_step
  iapply Hk
  isplitl [Hin]
  · iexists fIn
    isplitr
    · ipureintro; rfl
    · iexact Hin
  · iexists _
    isplitr
    · ipureintro; exact read_stored _ _ fIn fOut
    · iexact Hout

/-! ## The obligation -/

/-- At one point, with the windows written out: the input buffer holds its block, so the triple applies with `x` that
    block; the pipeline's invariant and what the core owes do not depend on the point, and pass through untouched. -/
theorem at_point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  have hΦ : (dat0 V c).Φ t.succ = (dat0 V c).Φ t.castSucc := rfl
  have howe : (dat0 V c).owesAt () t.succ = (dat0 V c).owesAt () t.castSucc := rfl
  rw [hΦ, howe, dat0_after_in, dat0_after_out]
  simp only [staged_in]
  unfold bodyAt0
  iintro ⟨HΦ, Howe, ⟨%d0, Hin⟩, ⟨%d1, Hout⟩⟩
  iapply (triple0 c Set.univ _ _ _ _ _ (blk0 V c 0 t) _)
  isplitl [Hin]
  · iexact Hin
  isplitl [Hout]
  · iexists _; iexact Hout
  iintro ⟨Hin, Hout⟩
  isplitl [HΦ]
  · iexact HΦ
  isplitl [Howe]
  · iexact Howe
  isplitl [Hin]
  · iexact Hin
  · iexact Hout

theorem body_obligation0 (c : Dev nD) : BodyObligation (dat0 (F := F) V c) (defs₀ (F := F)) Variants.none () Set.univ := by
  intro t
  rw [bigSep_W0, bigSep_W0]
  exact at_point0 V c t

end Cert.KernelIdeal.Hand

end
-- ==== Proof.KIRegion1.lean ====
/-
  Call 1's body obligation: at every grid point the kernel body, run on the window buffers the pipeline hands it,
  leaves in them what the proof data of `KIBlocks` says.
-/
import proofs.«431486_j85761906967230_1_alg».proof.Proof.KIBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch of the body, in closed form over the grid -/

/-- The body's one conditional tests "the token-tile coordinate is zero": the comparison, widened to a word and
    compared against zero again, as a proposition over the grid coordinates. -/
abbrev firstTile1 (i : grid1.Coords) : Prop :=
  (Scalar.cmpi .ne (Scalar.extui (Scalar.cmpi .eq (BitVec.ofNat 32 (i 1).val) 0#32)) 0#32) = 1#1

/-- Point `t` has token tile `t % 8`, so the test holds exactly at the multiples of eight: checked at each of the
    1024 points. -/
theorem firstTile1_iff : ∀ t : Fin cfg1.N, firstTile1 (grid1.coords t) ↔ t.val % 8 = 0 :=
  (by decide +kernel : ∀ t : Fin grid1.N, firstTile1 (grid1.coords t) ↔ t.val % 8 = 0)

/-! ## Whole-buffer rectangles start at offset zero on every axis -/

/-- The offsets of the input buffer's (rank 2) and the output buffer's (rank 3) whole rectangles are all zero. -/
theorem inOff1_zero : (![0, 0] : Fin 2 → Nat) = fun _ => 0 := funext fun a => by fin_cases a <;> rfl
theorem outOff1_zero : (![0, 0, 0] : Fin 3 → Nat) = fun _ => 0 := funext fun a => by fin_cases a <;> rfl

/-- So the rectangle through which the body stores to the output buffer holds every index of it. -/
theorem outRect1_mem (y : S16x3x256.Idx) :
    y ∈ (Rect.unit ![0, 0, 0] S16x3x256.size inb_S16x3x256_S16x3x256_0_0_0).set :=
  View.mem_set_unit_zero outOff1_zero inb_S16x3x256_S16x3x256_0_0_0 y

/-! ## The body run on any two whole buffers

In both cases the last store writes the whole output buffer, so what the buffer holds afterwards is that store's
payload: the partial sums of the input tile added to what the second load of the output buffer read. At a first
token tile that load reads back the zeros just stored, whatever the buffer held; otherwise it reads what the buffer
held on entry. -/

set_option maxHeartbeats 1000000 in
/-- At a first token tile: from the input buffer at `x` and the output buffer at anything, the body ends with the
    input buffer unchanged and the output buffer at `catFirst1 x`. -/
theorem run1_first (c : Dev nD) (i : grid1.Coords) (arg2 : Memref sig .tc .vmem S16x128 .i32) (harg2 : arg2.IsWhole)
    (arg3 : Memref sig .tc .vmem S16x3x256 .f32) (harg3 : arg3.IsWhole) (hc : firstTile1 i)
    (x : Vec F S16x128 .i32) (E : Set ℕ) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (catFirst1 x)) -∗ K ⟨⟩))
      ⊢ wp frame (wpE (defs₀ (F := F)) Variants.none c none) E (cc1__cat_stats_kernel i arg2 harg2 arg3 harg3) K := by
  simp only [cc1__cat_stats_kernel_eq_skeleton]; unfold cc1__cat_stats_kernel_skel
  unfold owns
  iintro ⟨⟨%f0, %hf0, H0⟩, ⟨%d1, %f1, -, H1⟩, Hk⟩
  obtain rfl := harg2.eq_unread hf0
  sl_exec (disch := first | exact hc)
  sl_step
  iapply Hk
  isplitl [H0]
  · iexists _; isplitr
    · ipureintro; exact harg2.read_unread _
    · iexact H0
  iexists _; isplitr
  swap
  · iexact H1
  ipureintro
  -- two whole-buffer stores, the later one first in the list: it alone decides the contents
  rw [View.read_writes_eq_canon _ _ _ (fun y => ⟨_, List.mem_cons_self, outRect1_mem y⟩),
    View.canon_cons_unit_zero (S := S16x3x256) outOff1_zero]
  -- its second operand is the load that read the zero store back
  sl_unfold_words
  rw [View.readCov_unit_zero (S := S16x3x256) _ outOff1_zero]
  simp only [View.readAt_eq_ld, harg2.read_unread, View.ld_unit_zero (S := S16x128) inOff1_zero]
  rfl

set_option maxHeartbeats 1000000 in
/-- At a later token tile: from the input buffer at `x` and the output buffer at `prev`, the body ends with the input
    buffer unchanged and the output buffer at `catNext1 x prev`. -/
theorem run1_next (c : Dev nD) (i : grid1.Coords) (arg2 : Memref sig .tc .vmem S16x128 .i32) (harg2 : arg2.IsWhole)
    (arg3 : Memref sig .tc .vmem S16x3x256 .f32) (harg3 : arg3.IsWhole) (hc : ¬firstTile1 i)
    (x : Vec F S16x128 .i32) (prev : Vec F S16x3x256 .f32) (E : Set ℕ) (K : PUnit → sProp 𝕄) :
    iprop(owns (c : Thread nD τ) arg2 fullShare x ∗ owns (c : Thread nD τ) arg3 fullShare prev
        ∗ (iprop(owns (c : Thread nD τ) arg2 fullShare x ∗ owns (c : Thread nD τ) arg3 fullShare (catNext1 x prev)) -∗ K ⟨⟩))
      ⊢ wp frame (wpE (defs₀ (F := F)) Variants.none c none) E (cc1__cat_stats_kernel i arg2 harg2 arg3 harg3) K := by
  simp only [cc1__cat_stats_kernel_eq_skeleton]; unfold cc1__cat_stats_kernel_skel
  unfold owns
  iintro ⟨⟨%f0, %hf0, H0⟩, ⟨%f1, %hf1, H1⟩, Hk⟩
  obtain rfl := harg2.eq_unread hf0
  obtain rfl := harg3.eq_unread hf1
  sl_exec (disch := first | exact hc)
  sl_step
  iapply Hk
  isplitl [H0]
  · iexists _; isplitr
    · ipureintro; exact harg2.read_unread _
    · iexact H0
  iexists _; isplitr
  swap
  · iexact H1
  ipureintro
  -- one whole-buffer store: the buffer holds its payload, whose two loads read the buffers' contents on entry
  rw [View.read_writes_eq_canon _ _ _ (fun y => ⟨_, List.mem_singleton_self _, outRect1_mem y⟩),
    View.canon_unit_zero (S := S16x3x256) outOff1_zero]
  simp only [View.readAt_eq_ld, harg2.read_unread, harg3.read_unread, View.ld_unit_zero (S := S16x128) inOff1_zero,
    View.ld_unit_zero (S := S16x3x256) outOff1_zero]
  rfl

/-! ## What the pipeline hands the body at a point -/

/-- The two windows' current staging buffers at point `t`, as the pipeline passes them to the body, each whole. -/
abbrev inBuf1 (t : Fin cfg1.N) : Memref sig .tc .vmem S16x128 .i32 := win1_0.stage (cfg1.slots t 0)
abbrev inBuf1_whole (t : Fin cfg1.N) : (inBuf1 t).IsWhole := hstage1_0 ((cfg1.slots t 0).cast nbuf1_0)
abbrev outBuf1 (t : Fin cfg1.N) : Memref sig .tc .vmem S16x3x256 .f32 := win1_1.stage (cfg1.slots t 1)
abbrev outBuf1_whole (t : Fin cfg1.N) : (outBuf1 t).IsWhole := hstage1_1 ((cfg1.slots t 1).cast nbuf1_1)

/-- The input window is fetched at every point and its block is never cut: its buffer holds the point's block of the
    input array. -/
theorem before1_in (c : Dev nD) (t : Fin cfg1.N) (d) : (dat1 V c).before 0 t d = blk1 V c 0 t := by
  rw [(dat1 V c).before_fetched 0 t (fetch1_0 t) d]
  unfold Dat.fetched Dat.blockOf blk1
  rw [dat1_A]
  rfl

/-- Away from a first token tile the point before is in the same batch tile and is not a last token tile, so the
    output buffer was not written back after it: it still holds what the body left there. -/
theorem before1_out_next (c : Dev nD) (t : Fin cfg1.N) (h0 : ¬t.val % 8 = 0) (d) :
    (dat1 V c).before 1 t d = accAt1 V c (t.val - 1) (Nat.lt_of_le_of_lt (Nat.sub_le _ _) t.isLt) := by
  have hpos : t.val ≠ 0 := fun e => h0 (by rw [e])
  have hkeep : (cfg1.win 1).flush ⟨t.val - 1, Nat.lt_of_le_of_lt (Nat.sub_le _ _) t.isLt⟩ = false := by
    cases hfl : (cfg1.win 1).flush ⟨t.val - 1, Nat.lt_of_le_of_lt (Nat.sub_le _ _) t.isLt⟩ with
    | false => rfl
    | true =>
      have h7 := (flush1_1 _).mp hfl
      simp only at h7
      omega
  rw [(dat1 V c).before_out_kept 1 rfl t hpos hkeep (fun _ => rfl) (fun _ _ => rfl), dat1_after_out]

/-! ## The body at a point -/

set_option maxHeartbeats 800000 in
/-- At point `t` the input buffer holds the point's block `x`. If `t` is a first token tile the run from any output
    contents ends at `catFirst1 x`, which is the accumulation there; otherwise the output buffer holds the
    accumulation at `t - 1` and the run ends at `catNext1 x` of it, which is the accumulation at `t`. The invariant and
    what the core owes do not change with the point and pass through untouched. -/
theorem sound_body1 (c : Dev nD) (t : Fin cfg1.N) :
    iprop((dat1 V c).Φ t.castSucc ∗ (dat1 V c).owesAt () t.castSucc
        ∗ (∃ d, owns (c : Thread nD τ) (inBuf1 t) fullShare ((dat1 V c).before 0 t d))
        ∗ (∃ d, owns (c : Thread nD τ) (outBuf1 t) fullShare ((dat1 V c).before 1 t d)))
      ⊢ wp frame (wpE (defs₀ (F := F)) Variants.none c none) Set.univ (bodyAt1 t) (fun _ =>
          iprop((dat1 V c).Φ t.succ ∗ (dat1 V c).owesAt () t.succ
            ∗ owns (c : Thread nD τ) (inBuf1 t) fullShare ((dat1 V c).after 0 t)
            ∗ owns (c : Thread nD τ) (outBuf1 t) fullShare ((dat1 V c).after 1 t))) := by
  simp only [before1_in]
  rw [show (dat1 V c).Φ t.succ = (dat1 V c).Φ t.castSucc from rfl,
    show (dat1 V c).owesAt () t.succ = (dat1 V c).owesAt () t.castSucc from rfl,
    dat1_after_in, dat1_after_out]
  by_cases h0 : t.val % 8 = 0
  · rw [accAt1_first V c t h0]
    iintro ⟨HΦ, Ho, ⟨%d0, H0⟩, ⟨%d1, H1⟩⟩
    iapply (run1_first c (grid1.coords t) (inBuf1 t) (inBuf1_whole t) (outBuf1 t) (outBuf1_whole t)
      ((firstTile1_iff t).mpr h0) (blk1 V c 0 t) Set.univ _)
    isplitl [H0]
    · iexact H0
    isplitl [H1]
    · iexists _; iexact H1
    iintro ⟨H0, H1⟩
    isplitl [HΦ]
    · iexact HΦ
    isplitl [Ho]
    · iexact Ho
    isplitl [H0]
    · iexact H0
    iexact H1
  · rw [accAt1_next V c t h0]
    simp only [before1_out_next V c t h0]
    iintro ⟨HΦ, Ho, ⟨%d0, H0⟩, ⟨%d1, H1⟩⟩
    iapply (run1_next c (grid1.coords t) (inBuf1 t) (inBuf1_whole t) (outBuf1 t) (outBuf1_whole t)
      (fun h => h0 ((firstTile1_iff t).mp h)) (blk1 V c 0 t) _ Set.univ _)
    isplitl [H0]
    · iexact H0
    isplitl [H1]
    · iexact H1
    iintro ⟨H0, H1⟩
    isplitl [HΦ]
    · iexact HΦ
    isplitl [Ho]
    · iexact Ho
    isplitl [H0]
    · iexact H0
    iexact H1

theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KIRegion2.lean ====
/-
  Call 2's body obligation: at every grid point the kernel body, run on the window buffers the pipeline hands it,
  leaves in them what the proof data of `KIBlocks` says.
-/
import proofs.«431486_j85761906967230_1_alg».proof.Proof.KIBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch of the body, in closed form over the grid -/

/-- The body's one conditional tests "the token-tile coordinate is zero": the comparison, widened to a word and
    compared against zero again, as a proposition over the grid coordinates. -/
abbrev firstTile2 (i : grid2.Coords) : Prop :=
  (Scalar.cmpi .ne (Scalar.extui (Scalar.cmpi .eq (BitVec.ofNat 32 (i 1).val) 0#32)) 0#32) = 1#1

/-- Point `t` has token tile `t % 8`, so the test holds exactly at the multiples of eight: checked at each of the
    512 points. -/
theorem firstTile2_iff : ∀ t : Fin cfg2.N, firstTile2 (grid2.coords t) ↔ t.val % 8 = 0 :=
  (by decide +kernel : ∀ t : Fin grid2.N, firstTile2 (grid2.coords t) ↔ t.val % 8 = 0)

/-! ## Whole-buffer rectangles start at offset zero on every axis -/

/-- The offsets of the input buffer's (rank 2) and the output buffer's (rank 3) whole rectangles are all zero. -/
theorem inOff2_zero : (![0, 0] : Fin 2 → Nat) = fun _ => 0 := funext fun a => by fin_cases a <;> rfl
theorem outOff2_zero : (![0, 0, 0] : Fin 3 → Nat) = fun _ => 0 := funext fun a => by fin_cases a <;> rfl

/-- So the rectangle through which the body stores to the output buffer holds every index of it. -/
theorem outRect2_mem (y : S32x3x128.Idx) :
    y ∈ (Rect.unit ![0, 0, 0] S32x3x128.size inb_S32x3x128_S32x3x128_0_0_0).set :=
  View.mem_set_unit_zero outOff2_zero inb_S32x3x128_S32x3x128_0_0_0 y

/-! ## The body run on any two whole buffers

In both cases the last store writes the whole output buffer, so what the buffer holds afterwards is that store's
payload: the partial sums of the input tile added to what the second load of the output buffer read. At a first
token tile that load reads back the zeros just stored, whatever the buffer held; otherwise it reads what the buffer
held on entry. -/

set_option maxHeartbeats 1000000 in
/-- At a first token tile: from the input buffer at `x` and the output buffer at anything, the body ends with the
    input buffer unchanged and the output buffer at `catFirst2 x`. -/
theorem run2_first (c : Dev nD) (i : grid2.Coords) (arg2 : Memref sig .tc .vmem S32x128 .i32) (harg2 : arg2.IsWhole)
    (arg3 : Memref sig .tc .vmem S32x3x128 .f32) (harg3 : arg3.IsWhole) (hc : firstTile2 i)
    (x : Vec F S32x128 .i32) (E : Set ℕ) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (catFirst2 x)) -∗ K ⟨⟩))
      ⊢ wp frame (wpE (defs₀ (F := F)) Variants.none c none) E (cc2__cat_stats_kernel i arg2 harg2 arg3 harg3) K := by
  simp only [cc2__cat_stats_kernel_eq_skeleton]; unfold cc2__cat_stats_kernel_skel
  unfold owns
  iintro ⟨⟨%f0, %hf0, H0⟩, ⟨%d1, %f1, -, H1⟩, Hk⟩
  obtain rfl := harg2.eq_unread hf0
  sl_exec (disch := first | exact hc)
  sl_step
  iapply Hk
  isplitl [H0]
  · iexists _; isplitr
    · ipureintro; exact harg2.read_unread _
    · iexact H0
  iexists _; isplitr
  swap
  · iexact H1
  ipureintro
  -- two whole-buffer stores, the later one first in the list: it alone decides the contents
  rw [View.read_writes_eq_canon _ _ _ (fun y => ⟨_, List.mem_cons_self, outRect2_mem y⟩),
    View.canon_cons_unit_zero (S := S32x3x128) outOff2_zero]
  -- its second operand is the load that read the zero store back
  sl_unfold_words
  rw [View.readCov_unit_zero (S := S32x3x128) _ outOff2_zero]
  simp only [View.readAt_eq_ld, harg2.read_unread, View.ld_unit_zero (S := S32x128) inOff2_zero]
  rfl

set_option maxHeartbeats 1000000 in
/-- At a later token tile: from the input buffer at `x` and the output buffer at `prev`, the body ends with the input
    buffer unchanged and the output buffer at `catNext2 x prev`. -/
theorem run2_next (c : Dev nD) (i : grid2.Coords) (arg2 : Memref sig .tc .vmem S32x128 .i32) (harg2 : arg2.IsWhole)
    (arg3 : Memref sig .tc .vmem S32x3x128 .f32) (harg3 : arg3.IsWhole) (hc : ¬firstTile2 i)
    (x : Vec F S32x128 .i32) (prev : Vec F S32x3x128 .f32) (E : Set ℕ) (K : PUnit → sProp 𝕄) :
    iprop(owns (c : Thread nD τ) arg2 fullShare x ∗ owns (c : Thread nD τ) arg3 fullShare prev
        ∗ (iprop(owns (c : Thread nD τ) arg2 fullShare x ∗ owns (c : Thread nD τ) arg3 fullShare (catNext2 x prev)) -∗ K ⟨⟩))
      ⊢ wp frame (wpE (defs₀ (F := F)) Variants.none c none) E (cc2__cat_stats_kernel i arg2 harg2 arg3 harg3) K := by
  simp only [cc2__cat_stats_kernel_eq_skeleton]; unfold cc2__cat_stats_kernel_skel
  unfold owns
  iintro ⟨⟨%f0, %hf0, H0⟩, ⟨%f1, %hf1, H1⟩, Hk⟩
  obtain rfl := harg2.eq_unread hf0
  obtain rfl := harg3.eq_unread hf1
  sl_exec (disch := first | exact hc)
  sl_step
  iapply Hk
  isplitl [H0]
  · iexists _; isplitr
    · ipureintro; exact harg2.read_unread _
    · iexact H0
  iexists _; isplitr
  swap
  · iexact H1
  ipureintro
  -- one whole-buffer store: the buffer holds its payload, whose two loads read the buffers' contents on entry
  rw [View.read_writes_eq_canon _ _ _ (fun y => ⟨_, List.mem_singleton_self _, outRect2_mem y⟩),
    View.canon_unit_zero (S := S32x3x128) outOff2_zero]
  simp only [View.readAt_eq_ld, harg2.read_unread, harg3.read_unread, View.ld_unit_zero (S := S32x128) inOff2_zero,
    View.ld_unit_zero (S := S32x3x128) outOff2_zero]
  rfl

/-! ## What the pipeline hands the body at a point -/

/-- The two windows' current staging buffers at point `t`, as the pipeline passes them to the body, each whole. -/
abbrev inBuf2 (t : Fin cfg2.N) : Memref sig .tc .vmem S32x128 .i32 := win2_0.stage (cfg2.slots t 0)
abbrev inBuf2_whole (t : Fin cfg2.N) : (inBuf2 t).IsWhole := hstage2_0 ((cfg2.slots t 0).cast nbuf2_0)
abbrev outBuf2 (t : Fin cfg2.N) : Memref sig .tc .vmem S32x3x128 .f32 := win2_1.stage (cfg2.slots t 1)
abbrev outBuf2_whole (t : Fin cfg2.N) : (outBuf2 t).IsWhole := hstage2_1 ((cfg2.slots t 1).cast nbuf2_1)

/-- The input window is fetched at every point and its block is never cut: its buffer holds the point's block of the
    input array. -/
theorem before2_in (c : Dev nD) (t : Fin cfg2.N) (d) : (dat2 V c).before 0 t d = blk2 V c 0 t := by
  rw [(dat2 V c).before_fetched 0 t (fetch2_0 t) d]
  unfold Dat.fetched Dat.blockOf blk2
  rw [dat2_A]
  rfl

/-- Away from a first token tile the point before is in the same batch tile and is not a last token tile, so the
    output buffer was not written back after it: it still holds what the body left there. -/
theorem before2_out_next (c : Dev nD) (t : Fin cfg2.N) (h0 : ¬t.val % 8 = 0) (d) :
    (dat2 V c).before 1 t d = accAt2 V c (t.val - 1) (Nat.lt_of_le_of_lt (Nat.sub_le _ _) t.isLt) := by
  have hpos : t.val ≠ 0 := fun e => h0 (by rw [e])
  have hkeep : (cfg2.win 1).flush ⟨t.val - 1, Nat.lt_of_le_of_lt (Nat.sub_le _ _) t.isLt⟩ = false := by
    cases hfl : (cfg2.win 1).flush ⟨t.val - 1, Nat.lt_of_le_of_lt (Nat.sub_le _ _) t.isLt⟩ with
    | false => rfl
    | true =>
      have h7 := (flush2_1 _).mp hfl
      simp only at h7
      omega
  rw [(dat2 V c).before_out_kept 1 rfl t hpos hkeep (fun _ => rfl) (fun _ _ => rfl), dat2_after_out]

/-! ## The body at a point -/

set_option maxHeartbeats 800000 in
/-- At point `t` the input buffer holds the point's block `x`. If `t` is a first token tile the run from any output
    contents ends at `catFirst2 x`, which is the accumulation there; otherwise the output buffer holds the
    accumulation at `t - 1` and the run ends at `catNext2 x` of it, which is the accumulation at `t`. The invariant and
    what the core owes do not change with the point and pass through untouched. -/
theorem sound_body2 (c : Dev nD) (t : Fin cfg2.N) :
    iprop((dat2 V c).Φ t.castSucc ∗ (dat2 V c).owesAt () t.castSucc
        ∗ (∃ d, owns (c : Thread nD τ) (inBuf2 t) fullShare ((dat2 V c).before 0 t d))
        ∗ (∃ d, owns (c : Thread nD τ) (outBuf2 t) fullShare ((dat2 V c).before 1 t d)))
      ⊢ wp frame (wpE (defs₀ (F := F)) Variants.none c none) Set.univ (bodyAt2 t) (fun _ =>
          iprop((dat2 V c).Φ t.succ ∗ (dat2 V c).owesAt () t.succ
            ∗ owns (c : Thread nD τ) (inBuf2 t) fullShare ((dat2 V c).after 0 t)
            ∗ owns (c : Thread nD τ) (outBuf2 t) fullShare ((dat2 V c).after 1 t))) := by
  simp only [before2_in]
  rw [show (dat2 V c).Φ t.succ = (dat2 V c).Φ t.castSucc from rfl,
    show (dat2 V c).owesAt () t.succ = (dat2 V c).owesAt () t.castSucc from rfl,
    dat2_after_in, dat2_after_out]
  by_cases h0 : t.val % 8 = 0
  · rw [accAt2_first V c t h0]
    iintro ⟨HΦ, Ho, ⟨%d0, H0⟩, ⟨%d1, H1⟩⟩
    iapply (run2_first c (grid2.coords t) (inBuf2 t) (inBuf2_whole t) (outBuf2 t) (outBuf2_whole t)
      ((firstTile2_iff t).mpr h0) (blk2 V c 0 t) Set.univ _)
    isplitl [H0]
    · iexact H0
    isplitl [H1]
    · iexists _; iexact H1
    iintro ⟨H0, H1⟩
    isplitl [HΦ]
    · iexact HΦ
    isplitl [Ho]
    · iexact Ho
    isplitl [H0]
    · iexact H0
    iexact H1
  · rw [accAt2_next V c t h0]
    simp only [before2_out_next V c t h0]
    iintro ⟨HΦ, Ho, ⟨%d0, H0⟩, ⟨%d1, H1⟩⟩
    iapply (run2_next c (grid2.coords t) (inBuf2 t) (inBuf2_whole t) (outBuf2 t) (outBuf2_whole t)
      (fun h => h0 ((firstTile2_iff t).mp h)) (blk2 V c 0 t) _ Set.univ _)
    isplitl [H0]
    · iexact H0
    isplitl [H1]
    · iexact H1
    iintro ⟨H0, H1⟩
    isplitl [HΦ]
    · iexact HΦ
    isplitl [Ho]
    · iexact Ho
    isplitl [H0]
    · iexact H0
    iexact H1

theorem body_obligation2 (c : Dev nD) : BodyObligation (dat2 (F := F) V c) (defs₀ (F := F)) Variants.none () Set.univ := by
  intro t
  rw [bigSep_W2, bigSep_W2]
  exact sound_body2 V c t

end Cert.KernelIdeal.Hand

end
-- ==== Proof.KIRun.lean ====
/-
  The whole run of the program: two host operations, the row-statistics call, twenty host operations, the two
  category-statistics calls one after the other, and the closing host operations. The buffer contents at each of
  these boundaries are named (`W0` … `W6`): a host stretch applies its operations to what it finds, a call leaves
  its arrays at what its write-backs give and every other buffer alone. Every weakly fair execution ends with every
  unscoped buffer at `W6` (`run_all`); the four argument arrays are written by nothing on the way, so they end as
  launched.
-/
import proofs.«431486_j85761906967230_1_alg».proof.Proof.KIRegion0
import proofs.«431486_j85761906967230_1_alg».proof.Proof.KIRegion1
import proofs.«431486_j85761906967230_1_alg».proof.Proof.KIRegion2
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: call 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: call 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At call 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At call 2's exit: its arrays at what the pipeline's write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the closing host stretch: the end of @main. -/
abbrev W6 : Dev nD → Valuation τ sig (Elt F) := fun c => StableHlo.after hostOps3 (W5 m ρ c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (dat0_A (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := (W4_arr m ρ c 0).trans (((dat1 (V3 m ρ) c).arrAt_in 0 rfl _).trans (dat1_A (V3 m ρ) c 0))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg2) := (W5_arr m ρ c 0).trans (((dat2 (V4 m ρ) c).arrAt_in 0 rfl _).trans (dat2_A (V4 m ρ) c 0))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 3) → (pcfgs (F := F) p).Adm := fun p => (cfgs p).toPCfg_adm
/-- Every call's proof data, each at its own entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment: entered with every unscoped buffer at `W1`, left with them at `W2`. Its arrays are taken
    out of the unscoped buffers at entry and put back at the contents its write-backs leave; the generator register
    goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are taken
    out of the unscoped buffers at entry and put back at the contents its write-backs leave; the generator register
    goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W4`, left with them at `W5`. Its arrays are taken
    out of the unscoped buffers at entry and put back at the contents its write-backs leave; the generator register
    goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.KernelIdeal.Hand

end
-- ==== Proof.KILeafDefs.lean ====
/-
  The kernel program's leaves: the per-row sum and sum of squares as vectors (columns 0 and 1 of the row-statistics
  array), and plane `k` of a category-statistics array cut to the real categories (the padded columns dropped).
-/
import proofs.«431486_j85761906967230_1_alg».proof.Proof.Gen.KernelIdeal

noncomputable section

namespace Cert.KernelIdeal.Hand

open Cert.KernelIdeal Cert.KernelIdeal.Gen
open Idealize.ShloMosaic

variable {F : FTy → Type} [FloatOps F]

/-- Column 0 of the row statistics: the sums. -/
def kS (rs : FVec F S2048x2 .f32) : FVec F S2048 .f32 :=
  shapeCast S2048 (extractStridedSlice S2048x1 ![0, 0] rs slices_S2048x2_S2048x1_0_0) shapeCasts_S2048x1_S2048

/-- Column 1 of the row statistics: the sums of squares. -/
def kSq (rs : FVec F S2048x2 .f32) : FVec F S2048 .f32 :=
  shapeCast S2048 (extractStridedSlice S2048x1 ![0, 1] rs slices_S2048x2_S2048x1_0_1) shapeCasts_S2048x1_S2048

/-- Plane `k` of the `mcc_code` statistics, the first 200 of its 256 columns. -/
def kPlane200 (k : Fin 3) (a : FVec F S2048x3x256 .f32) : FVec F S2048x200 .f32 :=
  match k with
  | 0 => shapeCast S2048x200 (extractStridedSlice S2048x1x200 ![0, 0, 0] a slices_S2048x3x256_S2048x1x200_0_0_0) shapeCasts_S2048x1x200_S2048x200
  | 1 => shapeCast S2048x200 (extractStridedSlice S2048x1x200 ![0, 1, 0] a slices_S2048x3x256_S2048x1x200_0_1_0) shapeCasts_S2048x1x200_S2048x200
  | 2 => shapeCast S2048x200 (extractStridedSlice S2048x1x200 ![0, 2, 0] a slices_S2048x3x256_S2048x1x200_0_2_0) shapeCasts_S2048x1x200_S2048x200

/-- Plane `k` of the `tr_type` statistics, the first 100 of its 128 columns. -/
def kPlane100 (k : Fin 3) (a : FVec F S2048x3x128 .f32) : FVec F S2048x100 .f32 :=
  match k with
  | 0 => shapeCast S2048x100 (extractStridedSlice S2048x1x100 ![0, 0, 0] a slices_S2048x3x128_S2048x1x100_0_0_0) shapeCasts_S2048x1x100_S2048x100
  | 1 => shapeCast S2048x100 (extractStridedSlice S2048x1x100 ![0, 1, 0] a slices_S2048x3x128_S2048x1x100_0_1_0) shapeCasts_S2048x1x100_S2048x100
  | 2 => shapeCast S2048x100 (extractStridedSlice S2048x1x100 ![0, 2, 0] a slices_S2048x3x128_S2048x1x100_0_2_0) shapeCasts_S2048x1x100_S2048x100

end Cert.KernelIdeal.Hand

end
-- ==== Proof.TailFns.lean ====
/-
  The arithmetic that both programs apply, outside their device calls, to the per-row statistics, as a handful of
  small functions. A row's length, sum and sum of squares give its mean and its spread; a category table of counts,
  sums and sums of squares gives, with the padding category 0 masked out, each table normalised by its row total,
  the per-category spread normalised likewise, and the number of distinct categories present. The twelve pieces are
  laid side by side as one row of 906 features.
-/
import proofs.«431486_j85761906967230_1_alg».proof.Proof.Gen.KernelIdeal
import proofs.«431486_j85761906967230_1_alg».proof.Proof.KILeafDefs

noncomputable section

namespace Cert.KernelIdeal.Hand

open Cert.KernelIdeal Cert.KernelIdeal.Gen
open Idealize.ShloMosaic

variable {F : FTy → Type} [FloatOps F]

/-! ## The constants -/

/-- The number one, as a single word. -/
def oneW : FVec F S_ .f32 := constant S_ .f32 0x3F800000#32
/-- The guard 1e-9 (its nearest single-precision number), added to every divisor. -/
def tinyW : FVec F S_ .f32 := constant S_ .f32 0x3089705F#32
/-- One half: the exponent of the square root. -/
def halfW : FVec F S_ .f32 := constant S_ .f32 0x3F000000#32
/-- Zero: what a sum starts from, and the floor of a clamped difference. -/
def zeroW : FVec F S_ .f32 := constant S_ .f32 0x00000000#32

/-! ## Per-row scalars -/

/-- A vector over the rows as a column of width one. -/
def colOf (v : FVec F S2048 .f32) : FVec F S2048x1 .f32 :=
  broadcastInDim S2048x1 ![0] bcast_S2048_S2048x1_0 v

/-- Each row's length, as a real number. -/
def lenOf (a3 : IVec S2048 32) : FVec F S2048 .f32 := sitofp .f32 a3

/-- Each row's spread from its sum, its sum of squares and its length:
    the square root of (sq - s * s / len) / ((len - 1) + 1e-9). -/
def spreadOf (s sq sl : FVec F S2048 .f32) : FVec F S2048 .f32 :=
  Host.powf
    (Host.divf (subf sq (Host.divf (mulf s s) sl))
      (addf (subf sl (broadcastInDim S2048 ![] bcast_S_S2048 oneW)) (broadcastInDim S2048 ![] bcast_S_S2048 tinyW)))
    (broadcastInDim S2048 ![] bcast_S_S2048 halfW)

/-! ## The 200-category tables -/

/-- One at every category but category 0, where it is zero: the padding category does not count. -/
def mask200 : FVec F S200 .f32 :=
  Host.scatter scatter_S200_S1_S__n_0_0_0 (fun _ b => b) (broadcastInDim S200 ![] bcast_S_S200 oneW)
    (broadcastInDim S1 ![] bcast_S_S1 (constantI S_ 32 0#32)) zeroW

/-- A table with its category-0 column zeroed. -/
def masked200 (x : FVec F S2048x200 .f32) : FVec F S2048x200 .f32 :=
  mulf x (broadcastInDim S2048x200 ![0, 1] bcast_S1x200_S2048x200_0_1 (broadcastInDim S1x200 ![1] bcast_S200_S1x200_1 mask200))

/-- Each row's total over the categories, as a column. -/
def rowTotal200 (e : FVec F S2048x200 .f32) : FVec F S2048x1 .f32 :=
  colOf (Host.reduceAdd e zeroW reducesTo_S2048x200_S2048_d1 h_S_)

/-- A table divided, row by row, by its row total plus 1e-9. -/
def normalised200 (e : FVec F S2048x200 .f32) : FVec F S2048x200 .f32 :=
  Host.divf e (broadcastInDim S2048x200 ![0, 1] bcast_S2048x1_S2048x200_0_1
    (addf (rowTotal200 e) (broadcastInDim S2048x1 ![] bcast_S_S2048x1 tinyW)))

/-- The spread of the codes within each row and category, from the count (category 0 masked), the sum and the sum
    of squares: the square root of (sq - sum * sum / (n + 1e-9)) / (max (n - 1) 0 + 1e-9). -/
def spread200 (cnt msum msq : FVec F S2048x200 .f32) : FVec F S2048x200 .f32 :=
  Host.powf
    (Host.divf
      (subf msq (Host.divf (mulf msum msum) (addf (masked200 cnt) (broadcastInDim S2048x200 ![] bcast_S_S2048x200 tinyW))))
      (addf (maximumf (subf (masked200 cnt) (broadcastInDim S2048x200 ![] bcast_S_S2048x200 oneW))
          (broadcastInDim S2048x200 ![] bcast_S_S2048x200 zeroW))
        (broadcastInDim S2048x200 ![] bcast_S_S2048x200 tinyW)))
    (broadcastInDim S2048x200 ![] bcast_S_S2048x200 halfW)

/-- How many categories other than category 0 occur in each row, as a column. -/
def distinct200 (cnt : FVec F S2048x200 .f32) : FVec F S2048x1 .f32 :=
  rowTotal200 (uitofp .f32 (cmpf .ogt (masked200 cnt) (broadcastInDim S2048x200 ![] bcast_S_S2048x200 zeroW)))

/-! ## The 100-category tables -/

/-- One at every category but category 0, where it is zero. -/
def mask100 : FVec F S100 .f32 :=
  Host.scatter scatter_S100_S1_S__n_0_0_0 (fun _ b => b) (broadcastInDim S100 ![] bcast_S_S100 oneW)
    (broadcastInDim S1 ![] bcast_S_S1 (constantI S_ 32 0#32)) zeroW

/-- A table with its category-0 column zeroed. -/
def masked100 (x : FVec F S2048x100 .f32) : FVec F S2048x100 .f32 :=
  mulf x (broadcastInDim S2048x100 ![0, 1] bcast_S1x100_S2048x100_0_1 (broadcastInDim S1x100 ![1] bcast_S100_S1x100_1 mask100))

/-- Each row's total over the categories, as a column. -/
def rowTotal100 (e : FVec F S2048x100 .f32) : FVec F S2048x1 .f32 :=
  colOf (Host.reduceAdd e zeroW reducesTo_S2048x100_S2048_d1 h_S_)

/-- A table divided, row by row, by its row total plus 1e-9. -/
def normalised100 (e : FVec F S2048x100 .f32) : FVec F S2048x100 .f32 :=
  Host.divf e (broadcastInDim S2048x100 ![0, 1] bcast_S2048x1_S2048x100_0_1
    (addf (rowTotal100 e) (broadcastInDim S2048x1 ![] bcast_S_S2048x1 tinyW)))

/-- The spread of the codes within each row and category (as for the 200-category table). -/
def spread100 (cnt msum msq : FVec F S2048x100 .f32) : FVec F S2048x100 .f32 :=
  Host.powf
    (Host.divf
      (subf msq (Host.divf (mulf msum msum) (addf (masked100 cnt) (broadcastInDim S2048x100 ![] bcast_S_S2048x100 tinyW))))
      (addf (maximumf (subf (masked100 cnt) (broadcastInDim S2048x100 ![] bcast_S_S2048x100 oneW))
          (broadcastInDim S2048x100 ![] bcast_S_S2048x100 zeroW))
        (broadcastInDim S2048x100 ![] bcast_S_S2048x100 tinyW)))
    (broadcastInDim S2048x100 ![] bcast_S_S2048x100 halfW)

/-- How many categories other than category 0 occur in each row, as a column. -/
def distinct100 (cnt : FVec F S2048x100 .f32) : FVec F S2048x1 .f32 :=
  rowTotal100 (uitofp .f32 (cmpf .ogt (masked100 cnt) (broadcastInDim S2048x100 ![] bcast_S_S2048x100 zeroW)))

/-! ## The feature row -/

/-- The 906 features of each row, side by side: its length, sum, mean and spread; for the 200-category code the
    normalised counts, the normalised sums and the normalised spreads; the same three for the 100-category code;
    and the two numbers of distinct categories. The count table enters four times over (masked and normalised, inside
    the spread, and in the distinct count), so each use has its own argument. -/
def features (sl s sq : FVec F S2048 .f32) (c2 m2 q2 d2 : FVec F S2048x200 .f32)
    (c1 m1 q1 d1 : FVec F S2048x100 .f32) : FVec F S2048x906 .f32 :=
  concatenate S2048x906 1
    [⟨S2048x1, colOf sl⟩, ⟨S2048x1, colOf s⟩, ⟨S2048x1, colOf (Host.divf s sl)⟩, ⟨S2048x1, colOf (spreadOf s sq sl)⟩,
     ⟨S2048x200, normalised200 (masked200 c2)⟩, ⟨S2048x200, normalised200 (masked200 m2)⟩,
     ⟨S2048x200, normalised200 (spread200 c2 m2 q2)⟩,
     ⟨S2048x100, normalised100 (masked100 c1)⟩, ⟨S2048x100, normalised100 (masked100 m1)⟩,
     ⟨S2048x100, normalised100 (spread100 c1 m1 q1)⟩,
     ⟨S2048x1, distinct200 d2⟩, ⟨S2048x1, distinct100 d1⟩]
    concatenates_S2048x1_S2048x1_S2048x1_S2048x1_S2048x200_S2048x200_S2048x200_S2048x100_S2048x100_S2048x100_S2048x1_S2048x1_S2048x906_d1

end Cert.KernelIdeal.Hand

end
-- ==== Proof.KITail200.lean ====
/-
  What the closing host operations leave in the 200-category buffers, as functions of the category statistics found at
  their start: the sums table with the padding category masked out and each row divided by its total; the table of
  per-category spreads, each row divided by its total; and the column of the numbers of distinct categories present.
-/
import proofs.«431486_j85761906967230_1_alg».proof.Proof.Gen.KernelIdeal.Launch
import proofs.«431486_j85761906967230_1_alg».proof.Proof.TailFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

set_option maxHeartbeats 4000000 in
/-- The normalised-sums buffer: plane 1 of the category statistics (the per-category sums of the codes) with the
    category-0 column zeroed, each row divided by its total plus 1e-9. -/
theorem ops3_v54 (X : Valuation τ sig (Elt F)) :
    (StableHlo.after hostOps3 X (Proc.devRef .tc main_v54) : FVec F S2048x200 .f32)
      = normalised200 (masked200 (kPlane200 1 (X (Proc.devRef .tc main_v21)))) := by
  after_results_simp
  rfl

set_option maxHeartbeats 4000000 in
/-- The normalised-spreads buffer: the per-category spread of the codes, computed from plane 0 (the counts, category 0
    masked), plane 1 (the sums) and plane 2 (the sums of squares), each row divided by its total plus 1e-9. -/
theorem ops3_v74 (X : Valuation τ sig (Elt F)) :
    (StableHlo.after hostOps3 X (Proc.devRef .tc main_v74) : FVec F S2048x200 .f32)
      = normalised200 (spread200 (kPlane200 0 (X (Proc.devRef .tc main_v21))) (kPlane200 1 (X (Proc.devRef .tc main_v21))) (kPlane200 2 (X (Proc.devRef .tc main_v21)))) := by
  after_results_simp
  rfl

set_option maxHeartbeats 4000000 in
/-- The distinct-categories buffer: for each row, how many categories other than category 0 have a positive count in
    plane 0, as a column. -/
theorem ops3_v79 (X : Valuation τ sig (Elt F)) :
    (StableHlo.after hostOps3 X (Proc.devRef .tc main_v79) : FVec F S2048x1 .f32)
      = distinct200 (kPlane200 0 (X (Proc.devRef .tc main_v21))) := by
  after_results_simp
  rfl

end Cert.KernelIdeal.Hand

end
-- ==== Proof.KITail100.lean ====
/-
  What the closing host operations leave in the 100-category buffers, as functions of the category statistics found at their start.
-/
import proofs.«431486_j85761906967230_1_alg».proof.Proof.Gen.KernelIdeal.Launch
import proofs.«431486_j85761906967230_1_alg».proof.Proof.TailFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! The closing host stretch first cuts the 100-category statistics array into its three planes (counts, sums, sums
of squares), each to the 100 real categories; everything it then computes on this side is a function of those three
tables. Each lemma reads one result buffer after the whole stretch, from any starting valuation `X`: the stretch
assigns every buffer once, so the buffer holds its operation's value over the values its operands were assigned. -/

set_option maxHeartbeats 4000000 in
/-- The count table with category 0 zeroed, each row divided by its total (plus the guard). -/
theorem ops3_v91 (X : Valuation τ sig (Elt F)) :
    (StableHlo.after hostOps3 X (Proc.devRef .tc main_v91) : FVec F S2048x100 .f32)
      = normalised100 (masked100 (kPlane100 0 (X (Proc.devRef .tc main_v22)))) := by
  after_results_simp
  rfl

set_option maxHeartbeats 4000000 in
/-- The table of sums with category 0 zeroed, each row divided by its total (plus the guard). -/
theorem ops3_v99 (X : Valuation τ sig (Elt F)) :
    (StableHlo.after hostOps3 X (Proc.devRef .tc main_v99) : FVec F S2048x100 .f32)
      = normalised100 (masked100 (kPlane100 1 (X (Proc.devRef .tc main_v22)))) := by
  after_results_simp
  rfl

set_option maxHeartbeats 4000000 in
/-- The per-category spread, from the masked counts, the sums and the sums of squares, each row divided by its total
    (plus the guard). -/
theorem ops3_v119 (X : Valuation τ sig (Elt F)) :
    (StableHlo.after hostOps3 X (Proc.devRef .tc main_v119) : FVec F S2048x100 .f32)
      = normalised100 (spread100 (kPlane100 0 (X (Proc.devRef .tc main_v22))) (kPlane100 1 (X (Proc.devRef .tc main_v22))) (kPlane100 2 (X (Proc.devRef .tc main_v22)))) := by
  after_results_simp
  rfl

set_option maxHeartbeats 4000000 in
/-- The number of categories other than category 0 with a positive count in each row, as a column. -/
theorem ops3_v124 (X : Valuation τ sig (Elt F)) :
    (StableHlo.after hostOps3 X (Proc.devRef .tc main_v124) : FVec F S2048x1 .f32)
      = distinct100 (kPlane100 0 (X (Proc.devRef .tc main_v22))) := by
  after_results_simp
  rfl

end Cert.KernelIdeal.Hand

end
-- ==== Proof.KITail.lean ====
/-
  What @main returns, as one function of the three calls' output arrays and the row lengths.
  The host operations outside the calls are read off stretch by stretch, each stretch as a function of whatever
  contents it finds: the first makes the row lengths into numbers; the middle one takes the row sums and sums of
  squares out of call 0's array and forms the mean and the spread; the closing one takes the planes of the two
  category-statistics arrays, masks category 0, normalises, forms the per-category spread and the distinct counts,
  and lays the twelve pieces side by side. Every buffer is written once, so a piece computed early is still there
  when the closing concatenation reads it; walking back through the boundaries of the run gives the whole as
  the feature row of TailFns applied to the arrays the calls leave.
-/
import proofs.«431486_j85761906967230_1_alg».proof.Proof.KIRun
import proofs.«431486_j85761906967230_1_alg».proof.Proof.TailFns
import proofs.«431486_j85761906967230_1_alg».proof.Proof.KITail200
import proofs.«431486_j85761906967230_1_alg».proof.Proof.KITail100
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The closing stretch, from whatever it finds -/

set_option maxHeartbeats 4000000 in
/-- The count table of the 200-category code, category 0 masked, divided row by row by its total. -/
theorem ops3_v46 (X : Valuation τ sig (Elt F)) :
    (StableHlo.after hostOps3 X (Proc.devRef .tc main_v46) : FVec F S2048x200 .f32)
      = normalised200 (masked200 (kPlane200 0 (X (Proc.devRef .tc main_v21)))) := by
  after_results_simp
  rfl

set_option maxHeartbeats 4000000 in
/-- The closing operation lays twelve buffers side by side; none of them is written by it, so each is read at the end
    of the stretch. -/
theorem ops3_v125 (X : Valuation τ sig (Elt F)) :
    (StableHlo.after hostOps3 X (Proc.devRef .tc main_v125) : FVec F S2048x906 .f32)
      = concatenate S2048x906 1
          [⟨S2048x1, StableHlo.after hostOps3 X (Proc.devRef .tc main_v1)⟩, ⟨S2048x1, StableHlo.after hostOps3 X (Proc.devRef .tc main_v7)⟩, ⟨S2048x1, StableHlo.after hostOps3 X (Proc.devRef .tc main_v9)⟩, ⟨S2048x1, StableHlo.after hostOps3 X (Proc.devRef .tc main_v20)⟩,
           ⟨S2048x200, StableHlo.after hostOps3 X (Proc.devRef .tc main_v46)⟩, ⟨S2048x200, StableHlo.after hostOps3 X (Proc.devRef .tc main_v54)⟩, ⟨S2048x200, StableHlo.after hostOps3 X (Proc.devRef .tc main_v74)⟩,
           ⟨S2048x100, StableHlo.after hostOps3 X (Proc.devRef .tc main_v91)⟩, ⟨S2048x100, StableHlo.after hostOps3 X (Proc.devRef .tc main_v99)⟩, ⟨S2048x100, StableHlo.after hostOps3 X (Proc.devRef .tc main_v119)⟩,
           ⟨S2048x1, StableHlo.after hostOps3 X (Proc.devRef .tc main_v79)⟩, ⟨S2048x1, StableHlo.after hostOps3 X (Proc.devRef .tc main_v124)⟩]
          concatenates_S2048x1_S2048x1_S2048x1_S2048x1_S2048x200_S2048x200_S2048x200_S2048x100_S2048x100_S2048x100_S2048x1_S2048x1_S2048x906_d1 := by
  simp only [StableHlo.after_cons, StableHlo.after_nil]
  rw [StableHlo.nary_result]
  iterate 12 (rw [StableHlo.nary_result_ne]; rotate_left; decide)
  rfl

/-- A buffer that no operation of a stretch writes is found after it as it was before: the stretch's operations are
    listed, and the buffer is told apart from each one's result. -/
local macro "not_written_by " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

theorem ops3_v1 (X : Valuation τ sig (Elt F)) : StableHlo.after hostOps3 X (Proc.devRef .tc main_v1) = X (Proc.devRef .tc main_v1) := by not_written_by hostOps3
theorem ops3_v7 (X : Valuation τ sig (Elt F)) : StableHlo.after hostOps3 X (Proc.devRef .tc main_v7) = X (Proc.devRef .tc main_v7) := by not_written_by hostOps3
theorem ops3_v9 (X : Valuation τ sig (Elt F)) : StableHlo.after hostOps3 X (Proc.devRef .tc main_v9) = X (Proc.devRef .tc main_v9) := by not_written_by hostOps3
theorem ops3_v20 (X : Valuation τ sig (Elt F)) : StableHlo.after hostOps3 X (Proc.devRef .tc main_v20) = X (Proc.devRef .tc main_v20) := by not_written_by hostOps3
theorem ops1_v0 (Y : Valuation τ sig (Elt F)) : StableHlo.after hostOps1 Y (Proc.devRef .tc main_v0) = Y (Proc.devRef .tc main_v0) := by not_written_by hostOps1
theorem ops1_v1 (Y : Valuation τ sig (Elt F)) : StableHlo.after hostOps1 Y (Proc.devRef .tc main_v1) = Y (Proc.devRef .tc main_v1) := by not_written_by hostOps1

set_option maxHeartbeats 4000000 in
/-- The closing stretch as one function of what it finds: the four per-row columns as found, and the eight
    category pieces computed from the two category-statistics arrays. -/
theorem ops3_out (X : Valuation τ sig (Elt F)) :
    (StableHlo.after hostOps3 X (Proc.devRef .tc main_v125) : FVec F S2048x906 .f32)
      = concatenate S2048x906 1
          [⟨S2048x1, X (Proc.devRef .tc main_v1)⟩, ⟨S2048x1, X (Proc.devRef .tc main_v7)⟩, ⟨S2048x1, X (Proc.devRef .tc main_v9)⟩, ⟨S2048x1, X (Proc.devRef .tc main_v20)⟩,
           ⟨S2048x200, normalised200 (masked200 (kPlane200 0 (X (Proc.devRef .tc main_v21))))⟩,
           ⟨S2048x200, normalised200 (masked200 (kPlane200 1 (X (Proc.devRef .tc main_v21))))⟩,
           ⟨S2048x200, normalised200 (spread200 (kPlane200 0 (X (Proc.devRef .tc main_v21))) (kPlane200 1 (X (Proc.devRef .tc main_v21))) (kPlane200 2 (X (Proc.devRef .tc main_v21))))⟩,
           ⟨S2048x100, normalised100 (masked100 (kPlane100 0 (X (Proc.devRef .tc main_v22))))⟩,
           ⟨S2048x100, normalised100 (masked100 (kPlane100 1 (X (Proc.devRef .tc main_v22))))⟩,
           ⟨S2048x100, normalised100 (spread100 (kPlane100 0 (X (Proc.devRef .tc main_v22))) (kPlane100 1 (X (Proc.devRef .tc main_v22))) (kPlane100 2 (X (Proc.devRef .tc main_v22))))⟩,
           ⟨S2048x1, distinct200 (kPlane200 0 (X (Proc.devRef .tc main_v21)))⟩, ⟨S2048x1, distinct100 (kPlane100 0 (X (Proc.devRef .tc main_v22)))⟩]
          concatenates_S2048x1_S2048x1_S2048x1_S2048x1_S2048x200_S2048x200_S2048x200_S2048x100_S2048x100_S2048x100_S2048x1_S2048x1_S2048x906_d1 := by
  rw [ops3_v125, ops3_v1, ops3_v7, ops3_v9, ops3_v20, ops3_v46, ops3_v54, ops3_v74, ops3_v91, ops3_v99, ops3_v119, ops3_v79, ops3_v124]

/-! ## The two earlier stretches, from whatever they find -/

/-- The first two host operations: the row lengths as numbers, and as a column. -/
theorem ops0_v0 (Z : Valuation τ sig (Elt F)) :
    (StableHlo.after hostOps0 Z (Proc.devRef .tc main_v0) : FVec F S2048 .f32) = lenOf (Z (Proc.devRef .tc main_arg3)) := by
  after_results
  rfl
theorem ops0_v1 (Z : Valuation τ sig (Elt F)) :
    (StableHlo.after hostOps0 Z (Proc.devRef .tc main_v1) : FVec F S2048x1 .f32) = colOf (lenOf (Z (Proc.devRef .tc main_arg3))) := by
  after_results
  rfl

/-- The middle host stretch: the row sums as a column, the means as a column, the spreads as a column, each from the
    row statistics and the lengths it finds. -/
theorem ops1_v7 (Y : Valuation τ sig (Elt F)) :
    (StableHlo.after hostOps1 Y (Proc.devRef .tc main_v7) : FVec F S2048x1 .f32) = colOf (kS (Y (Proc.devRef .tc main_v2))) := by
  after_results
  rfl
theorem ops1_v9 (Y : Valuation τ sig (Elt F)) :
    (StableHlo.after hostOps1 Y (Proc.devRef .tc main_v9) : FVec F S2048x1 .f32)
      = colOf (Host.divf (kS (Y (Proc.devRef .tc main_v2))) (Y (Proc.devRef .tc main_v0))) := by
  after_results
  rfl
theorem ops1_v20 (Y : Valuation τ sig (Elt F)) :
    (StableHlo.after hostOps1 Y (Proc.devRef .tc main_v20) : FVec F S2048x1 .f32)
      = colOf (spreadOf (kS (Y (Proc.devRef .tc main_v2))) (kSq (Y (Proc.devRef .tc main_v2))) (Y (Proc.devRef .tc main_v0))) := by
  after_results
  rfl

/-! ## Walking back through the boundaries of the run -/

variable (m : (ℓ : Loc nD τ sig) → Buf (Elt F) ℓ) (ρ : Dev nD → PrngReg)

/-- The row lengths, computed before the first call, are found unchanged at every later boundary. -/
theorem W1_v0 (c : Dev nD) : (W1 m ρ c (Proc.devRef .tc main_v0) : FVec F S2048 .f32) = lenOf (m ((c : Thread nD τ).loc main_arg3) : IVec S2048 32) := ops0_v0 _
theorem W1_v1 (c : Dev nD) : (W1 m ρ c (Proc.devRef .tc main_v1) : FVec F S2048x1 .f32) = colOf (lenOf (m ((c : Thread nD τ).loc main_arg3) : IVec S2048 32)) := ops0_v1 _
theorem W2_v0 (c : Dev nD) : (W2 m ρ c (Proc.devRef .tc main_v0) : FVec F S2048 .f32) = lenOf (m ((c : Thread nD τ).loc main_arg3) : IVec S2048 32) :=
  (W2_of_ne m ρ c main_v0 (by decide)).trans (W1_v0 m ρ c)
theorem W2_v1 (c : Dev nD) : (W2 m ρ c (Proc.devRef .tc main_v1) : FVec F S2048x1 .f32) = colOf (lenOf (m ((c : Thread nD τ).loc main_arg3) : IVec S2048 32)) :=
  (W2_of_ne m ρ c main_v1 (by decide)).trans (W1_v1 m ρ c)
theorem W2_v2 (c : Dev nD) : (W2 m ρ c (Proc.devRef .tc main_v2) : FVec F S2048x2 .f32) = ((dat0 (V1 m ρ) c).arrAt 1 cfg0.N : FVec F S2048x2 .f32) := W2_arr m ρ c 1

theorem W5_of_W3 (c : Dev nD) (b : Ref sig .tc) (h1 : ∀ w, Pipeline.arrRef spec1 w ≠ b) (h2 : ∀ w, Pipeline.arrRef spec2 w ≠ b) :
    W5 m ρ c (Proc.devRef .tc b) = W3 m ρ c (Proc.devRef .tc b) :=
  (W5_of_ne m ρ c b h2).trans (W4_of_ne m ρ c b h1)

theorem W5_v1 (c : Dev nD) : (W5 m ρ c (Proc.devRef .tc main_v1) : FVec F S2048x1 .f32) = colOf (lenOf (m ((c : Thread nD τ).loc main_arg3) : IVec S2048 32)) :=
  (W5_of_W3 m ρ c main_v1 (by decide) (by decide)).trans ((ops1_v1 _).trans (W2_v1 m ρ c))
theorem W5_v7 (c : Dev nD) : (W5 m ρ c (Proc.devRef .tc main_v7) : FVec F S2048x1 .f32) = colOf (kS ((dat0 (V1 m ρ) c).arrAt 1 cfg0.N : FVec F S2048x2 .f32)) :=
  (W5_of_W3 m ρ c main_v7 (by decide) (by decide)).trans ((ops1_v7 _).trans (by rw [W2_v2]))
theorem W5_v9 (c : Dev nD) : (W5 m ρ c (Proc.devRef .tc main_v9) : FVec F S2048x1 .f32) = colOf (Host.divf (kS ((dat0 (V1 m ρ) c).arrAt 1 cfg0.N : FVec F S2048x2 .f32)) (lenOf (m ((c : Thread nD τ).loc main_arg3) : IVec S2048 32))) :=
  (W5_of_W3 m ρ c main_v9 (by decide) (by decide)).trans ((ops1_v9 _).trans (by rw [W2_v2, W2_v0]))
theorem W5_v20 (c : Dev nD) : (W5 m ρ c (Proc.devRef .tc main_v20) : FVec F S2048x1 .f32)
    = colOf (spreadOf (kS ((dat0 (V1 m ρ) c).arrAt 1 cfg0.N : FVec F S2048x2 .f32)) (kSq ((dat0 (V1 m ρ) c).arrAt 1 cfg0.N : FVec F S2048x2 .f32)) (lenOf (m ((c : Thread nD τ).loc main_arg3) : IVec S2048 32))) :=
  (W5_of_W3 m ρ c main_v20 (by decide) (by decide)).trans ((ops1_v20 _).trans (by rw [W2_v2, W2_v0]))
theorem W5_v21 (c : Dev nD) : (W5 m ρ c (Proc.devRef .tc main_v21) : FVec F S2048x3x256 .f32) = ((dat1 (V3 m ρ) c).arrAt 1 cfg1.N : FVec F S2048x3x256 .f32) :=
  (W5_of_ne m ρ c main_v21 (by decide)).trans (W4_arr m ρ c 1)
theorem W5_v22 (c : Dev nD) : (W5 m ρ c (Proc.devRef .tc main_v22) : FVec F S2048x3x128 .f32) = ((dat2 (V4 m ρ) c).arrAt 1 cfg2.N : FVec F S2048x3x128 .f32) := W5_arr m ρ c 1

set_option maxHeartbeats 4000000 in
/-- What @main returns: the feature row of the row lengths, the row statistics call 0 leaves, and the category
    statistics calls 1 and 2 leave. -/
theorem out_eq (c : Dev nD) :
    (W6 m ρ c (Proc.devRef .tc main_v125) : FVec F S2048x906 .f32)
      = features (lenOf (m ((c : Thread nD τ).loc main_arg3) : IVec S2048 32)) (kS ((dat0 (V1 m ρ) c).arrAt 1 cfg0.N : FVec F S2048x2 .f32)) (kSq ((dat0 (V1 m ρ) c).arrAt 1 cfg0.N : FVec F S2048x2 .f32))
          (kPlane200 0 ((dat1 (V3 m ρ) c).arrAt 1 cfg1.N : FVec F S2048x3x256 .f32)) (kPlane200 1 ((dat1 (V3 m ρ) c).arrAt 1 cfg1.N : FVec F S2048x3x256 .f32)) (kPlane200 2 ((dat1 (V3 m ρ) c).arrAt 1 cfg1.N : FVec F S2048x3x256 .f32)) (kPlane200 0 ((dat1 (V3 m ρ) c).arrAt 1 cfg1.N : FVec F S2048x3x256 .f32))
          (kPlane100 0 ((dat2 (V4 m ρ) c).arrAt 1 cfg2.N : FVec F S2048x3x128 .f32)) (kPlane100 1 ((dat2 (V4 m ρ) c).arrAt 1 cfg2.N : FVec F S2048x3x128 .f32)) (kPlane100 2 ((dat2 (V4 m ρ) c).arrAt 1 cfg2.N : FVec F S2048x3x128 .f32)) (kPlane100 0 ((dat2 (V4 m ρ) c).arrAt 1 cfg2.N : FVec F S2048x3x128 .f32)) := by
  show StableHlo.after hostOps3 (W5 m ρ c) (Proc.devRef .tc main_v125) = _
  rw [ops3_out, W5_v1, W5_v7, W5_v9, W5_v20, W5_v21, W5_v22]
  rfl

end Cert.KernelIdeal.Hand

end
-- ==== Proof.RefLeafDefs.lean ====
/-
  The reference's per-row, per-category aggregates as it computes them: an accumulating scatter into a zero table
  `[2048, P]` at the index pairs (row, code), the row a counter `0 … 2047` and the code the input's entry, each
  passed through the negative-index wrap (a negative index counts from the end of its axis); the updates are one
  value per token. And its per-row sums of `amount`.
-/
import proofs.«431486_j85761906967230_1_alg».proof.ReferenceIdeal
import proofs.«431486_j85761906967230_1_alg».proof.Proof.Gen.ReferenceIdeal

set_option maxRecDepth 16384

noncomputable section

namespace Cert.ReferenceIdeal.RefSide

open Cert.ReferenceIdeal Cert.ReferenceIdeal.Gen Idealize.ShloMosaic Idealize.ShloMosaic.TcCoe

variable {F : FTy → Type} [FloatOps F]

/-- The row counter as a column: entry `(r, 0)` is the word `r`. -/
def rowCounter : IVec S2048x1 32 := broadcastInDim S2048x1 ![0] bcast_S2048_S2048x1_0 (iotaInDim S2048 32 0)

/-- The row counter after the negative-index wrap against the 2048 rows, laid out per token. -/
def rowPart : IVec S2048x1024x1 32 :=
  broadcastInDim S2048x1024x1 ![0, 1] bcast_S2048x1024_S2048x1024x1_0_1 (broadcastInDim S2048x1024 ![0, 1] bcast_S2048x1_S2048x1024_0_1
    (select (cmpi .slt rowCounter (broadcastInDim S2048x1 ![] bcast_S_S2048x1 (constantI S_ 32 0#32)))
      (addi rowCounter (broadcastInDim S2048x1 ![] bcast_S_S2048x1 (constantI S_ 32 2048#32))) rowCounter))

/-- The codes after the negative-index wrap against an axis of `n` categories. -/
def codePart (n : BitVec 32) (cat : IVec S2048x1024 32) : IVec S2048x1024x1 32 :=
  broadcastInDim S2048x1024x1 ![0, 1] bcast_S2048x1024_S2048x1024x1_0_1
    (select (cmpi .slt cat (broadcastInDim S2048x1024 ![] bcast_S_S2048x1024 (constantI S_ 32 0#32)))
      (addi cat (broadcastInDim S2048x1024 ![] bcast_S_S2048x1024 (constantI S_ 32 n))) cat)

/-- The index pairs (row, code) of every token. -/
def pairs (n : BitVec 32) (cat : IVec S2048x1024 32) : IVec S2048x1024x2 32 :=
  concatenate S2048x1024x2 2 [⟨S2048x1024x1, rowPart⟩, ⟨S2048x1024x1, codePart n cat⟩] concatenates_S2048x1024x1_S2048x1024x1_S2048x1024x2_d2

/-- The aggregate over the 200 categories of `mcc_code`: `upd` added at (row, code) into zeros. -/
def agg200 (cat : IVec S2048x1024 32) (upd : FVec F S2048x1024 .f32) : FVec F S2048x200 .f32 :=
  Host.scatterAdd scatter_S2048x200_S2048x1024x2_S2048x1024_n_01_01_2
    (broadcastInDim S2048x200 ![] bcast_S_S2048x200 (constant S_ .f32 0x00000000#32)) (pairs 200#32 cat) upd

/-- The aggregate over the 100 categories of `tr_type`. -/
def agg100 (cat : IVec S2048x1024 32) (upd : FVec F S2048x1024 .f32) : FVec F S2048x100 .f32 :=
  Host.scatterAdd scatter_S2048x100_S2048x1024x2_S2048x1024_n_01_01_2
    (broadcastInDim S2048x100 ![] bcast_S_S2048x100 (constant S_ .f32 0x00000000#32)) (pairs 100#32 cat) upd

/-- One per token (the count's updates). -/
def onesUpd : FVec F S2048x1024 .f32 := broadcastInDim S2048x1024 ![] bcast_S_S2048x1024 (constant S_ .f32 0x3F800000#32)
/-- The code as a number per token (the sum's updates). -/
def codeUpd (cat : IVec S2048x1024 32) : FVec F S2048x1024 .f32 := sitofp .f32 cat
/-- The squared code per token (the sum of squares' updates). -/
def codeSqUpd (cat : IVec S2048x1024 32) : FVec F S2048x1024 .f32 := mulf (sitofp .f32 cat) (sitofp .f32 cat)

/-- The per-row sum of `amount`. -/
def rowSumR (x : FVec F S2048x1024 .f32) : FVec F S2048 .f32 :=
  Host.reduceAdd x (constant S_ .f32 0x00000000#32) reducesTo_S2048x1024_S2048_d1 h_S_
/-- The per-row sum of squares of `amount`. -/
def rowSqR (x : FVec F S2048x1024 .f32) : FVec F S2048 .f32 :=
  Host.reduceAdd (mulf x x) (constant S_ .f32 0x00000000#32) reducesTo_S2048x1024_S2048_d1 h_S_

end Cert.ReferenceIdeal.RefSide

end
-- ==== Proof.RefTail.lean ====
/-
  The reference's result as the shared arithmetic of its own aggregates: the composed term its run ends at is the
  feature table of the row sums of `amount` and of the scatter-add aggregates of the two code arrays.
-/
import proofs.«431486_j85761906967230_1_alg».proof.Proof.RefRunP
import proofs.«431486_j85761906967230_1_alg».proof.Proof.RefLeafDefs
import proofs.«431486_j85761906967230_1_alg».proof.Proof.TailFns

set_option maxRecDepth 16384

noncomputable section

namespace Cert.ReferenceIdeal.RefSide

open Cert.ReferenceIdeal Cert.ReferenceIdeal.Gen Idealize.ShloMosaic Idealize.ShloMosaic.TcCoe
open Cert.KernelIdeal.Hand (features lenOf)

variable {F : FTy → Type} [FloatOps F]

/-- The reference's result, from any launch contents `V0`: the feature table of its own leaves. (The count table
    enters twice: once for the normalised counts and the spread, once, recomputed, for the distinct-category count.) -/
theorem refOut_eq (V0 : Valuation τ sig (Elt F)) :
    Cert.ReferenceIdeal.ValueP.res_main_v333 V0
      = features (lenOf (V0 (Proc.devRef .tc main_arg3)))
          (rowSumR (V0 (Proc.devRef .tc main_arg0))) (rowSqR (V0 (Proc.devRef .tc main_arg0)))
          (agg200 (V0 (Proc.devRef .tc main_arg1)) onesUpd) (agg200 (V0 (Proc.devRef .tc main_arg1)) (codeUpd (V0 (Proc.devRef .tc main_arg1))))
          (agg200 (V0 (Proc.devRef .tc main_arg1)) (codeSqUpd (V0 (Proc.devRef .tc main_arg1)))) (agg200 (V0 (Proc.devRef .tc main_arg1)) onesUpd)
          (agg100 (V0 (Proc.devRef .tc main_arg2)) onesUpd) (agg100 (V0 (Proc.devRef .tc main_arg2)) (codeUpd (V0 (Proc.devRef .tc main_arg2))))
          (agg100 (V0 (Proc.devRef .tc main_arg2)) (codeSqUpd (V0 (Proc.devRef .tc main_arg2)))) (agg100 (V0 (Proc.devRef .tc main_arg2)) onesUpd) := by
  rfl

end Cert.ReferenceIdeal.RefSide

end
-- ==== Proof.Spec.lean ====
/-
  What the two programs compute before their shared arithmetic, as plain sums over the extended reals.
  Per row of `amount`: the sum and the sum of squares over the 1024 tokens. Per row and category `col` of a code
  array: over the tokens whose code, read as a signed number, is exactly `col`, the count, the sum of the codes and
  the sum of their squares (a code that is no category in range meets no `col` and adds nothing).
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped BigOperators

/-- The sum of row `r`. -/
def rowSum (x : (⟨2, ![2048, 1024]⟩ : Shape).Idx → EReal) (r : Fin 2048) : EReal := ∑ j : Fin 1024, x (ix2 r j)
/-- The sum of squares of row `r`. -/
def rowSq (x : (⟨2, ![2048, 1024]⟩ : Shape).Idx → EReal) (r : Fin 2048) : EReal := ∑ j : Fin 1024, x (ix2 r j) * x (ix2 r j)

/-- A code word as a number. -/
def code (w : BitVec 32) : EReal := ((w.toInt : ℝ) : EReal)

/-- Over the tokens of row `r` whose code is exactly `col`, the sum of `f` of the code. -/
def catAgg (f : BitVec 32 → EReal) (cat : (⟨2, ![2048, 1024]⟩ : Shape).Idx → BitVec 32) (r : Fin 2048) (col : ℕ) : EReal :=
  ∑ t : Fin 1024, if (cat (ix2 r t)).toInt = (col : ℤ) then f (cat (ix2 r t)) else 0

/-- How many tokens of row `r` carry category `col`. -/
def catCnt := catAgg (fun _ => (1 : EReal))
/-- The sum of their codes. -/
def catSum := catAgg code
/-- The sum of the squares of their codes. -/
def catSq := catAgg (fun w => code w * code w)

/-- The three statistics stacked as the kernel lays them out: plane 0 the count, plane 1 the sum, plane 2 the squares. -/
def catPlane (k : ℕ) (cat : (⟨2, ![2048, 1024]⟩ : Shape).Idx → BitVec 32) (r : Fin 2048) (col : ℕ) : EReal :=
  if k = 0 then catCnt cat r col else if k = 1 then catSum cat r col else catSq cat r col

end Cert.Spec

end
-- ==== Proof.KIValue0.lean ====
/-
  What call 0 leaves in its output array, read at an index, at the ideal instance: the plain sums of `Spec`.
-/
import proofs.«431486_j85761906967230_1_alg».proof.Proof.KIBlocks
import proofs.«431486_j85761906967230_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## The body's value at an index -/

/-- The lane sum over the columns, read at a row: the plain sum of the row. -/
theorem rowLaneSum_apply (x : FVec Ideal S256x1024 .f32) (h : S256x1024.Reduces [1] S256) (hφ : FKind.Formats .f32)
    (hacc : (0x00000000#32 : BitVec 32) = 0x00000000#32) (p : Fin 256) :
    (multiReduction .add [1] S256 x 0x00000000#32 h hφ hacc : S256.Idx → EReal) (ix1 p) = ∑ j : Fin 1024, x (ix2 p j) := by
  refine (Ideal.multiReduction_add_single x 0x00000000#32 h hφ hacc (ix1 p)).trans ?_
  refine Finset.sum_congr rfl fun j _ => congrArg x ?_
  funext a
  apply Fin.ext
  match a with
  | ⟨0, _⟩ => rfl
  | ⟨1, _⟩ => rfl

/-- A length-256 vector seen as a 256 × 1 column reads, at row `p`, the vector at `p`. -/
theorem rowColumn_apply (v : S256.Idx → EReal) (h : S256.ShapeCasts S256x1) (p : Fin 256) (z : Fin 1) :
    shapeCast S256x1 v h (ix2 p z) = v (ix1 p) := by
  refine shapeCast_apply v h (ix2 p z) (ix1 p) ?_
  rw [Shape.rowMajor_val_one, Shape.rowMajor_val_two]
  show p.val = p.val * 1 + z.val
  have := z.isLt
  omega

/-- The two row statistics of a 256 × 1024 block, side by side: column 0 the row's sum, column 1 its sum of squares. -/
theorem rowStatsBlk_apply (x : Vec Ideal S256x1024 .f32) (p : Fin 256) (k : Fin 2) :
    (rowStatsBlk x : S256x2.Idx → EReal) (ix2 p k)
      = if k.val = 0 then ∑ j : Fin 1024, x (ix2 p j) else ∑ j : Fin 1024, x (ix2 p j) * x (ix2 p j) := by
  unfold rowStatsBlk k0_pay1
  match k with
  | ⟨0, _⟩ =>
    rw [if_pos rfl]
    refine (concatenate_pair_apply_left (1 : Fin S256x2.rank) _ _ concatenates_S256x1_S256x1_S256x2_d1 _ rfl
      (ix2 p (0 : Fin 1)) ?_).trans ?_
    · intro b
      match b with
      | ⟨0, _⟩ => rfl
      | ⟨1, _⟩ => rfl
    · refine (rowColumn_apply _ _ p 0).trans ?_
      exact rowLaneSum_apply x _ _ _ p
  | ⟨1, h1⟩ =>
    rw [if_neg (show ¬((⟨1, h1⟩ : Fin 2).val = 0) from Nat.one_ne_zero)]
    refine (concatenate_pair_apply_right (1 : Fin S256x2.rank) _ _ concatenates_S256x1_S256x1_S256x2_d1 _ rfl rfl
      (ix2 p (0 : Fin 1)) ?_ ?_).trans ?_
    · intro b hb
      match b with
      | ⟨0, _⟩ => rfl
      | ⟨1, _⟩ => exact absurd rfl hb
    · rfl
    · refine (rowColumn_apply _ _ p 0).trans ?_
      exact rowLaneSum_apply (mulf x x) _ _ _ p

/-! ## From the blocks to the array -/

/-- The row statistics of the whole 2048 × 1024 array as one 2048 × 2 array. -/
def rowStatsArr (a : S2048x1024.Idx → EReal) : S2048x2.Idx → EReal :=
  fun i => if (i 1).val = 0 then Cert.Spec.rowSum a ⟨(i 0).val, idx2_lt0 i⟩ else Cert.Spec.rowSq a ⟨(i 0).val, idx2_lt0 i⟩

/-- Both windows step along the rows with the grid point and stay at column block 0. -/
theorem rowBlock_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point `t` writes back is block `t` of the whole array's row statistics: rows `256 t … 256 t + 255`, both
    columns, each row summed over the same row of the input array. -/
theorem flushed0_eq (c : Dev nD) (t : Fin cfg0.N) :
    (dat0 (F := Ideal) V c).flushed 1 t
      = ((cfg0.win 1).blk t).view.read (Elt Ideal) (rowStatsArr (V c main_arg0 : S2048x1024.Idx → EReal)) := by
  show (cfg0.win 1).cut (grid0.coords t) ((dat0 V c).after 1 t) = _
  rw [dat0_after_out]
  funext j
  obtain ⟨p, k, rfl⟩ : ∃ (p : Fin 256) (k : Fin 2), j = ix2 p k := ⟨j 0, j 1, eq_ix2 j⟩
  show (rowStatsBlk (blk0 V c 0 t) : S256x2.Idx → EReal) (ix2 p k)
    = rowStatsArr (V c main_arg0 : S2048x1024.Idx → EReal) (((cfg0.win 1).blk t).view.emb (ix2 p k))
  rw [rowStatsBlk_apply]
  obtain ⟨e00, e01, e10, e11⟩ := rowBlock_facts t
  have ht : t.val < 8 := lt_of_lt_of_eq t.isLt N_0
  have hp : p.val < 256 := p.isLt
  -- the array index under an index of the output block
  have hout : ((cfg0.win 1).blk t).view.emb (ix2 p k) = ix2 (⟨t.val * 256 + p.val, by omega⟩ : Fin 2048) k := by
    funext a
    apply Fin.ext
    match a with
    | ⟨0, _⟩ => show win0_1.index t (0 : Fin 2) * 256 + 1 * p.val = t.val * 256 + p.val; omega
    | ⟨1, _⟩ => show win0_1.index t (1 : Fin 2) * 2 + 1 * k.val = k.val; omega
  -- the input block reads the array on the same rows
  have hin : ∀ j : Fin 1024, blk0 V c 0 t (ix2 p j)
      = (V c main_arg0 : S2048x1024.Idx → EReal) (ix2 (⟨t.val * 256 + p.val, by omega⟩ : Fin 2048) j) := by
    intro j
    show (V c main_arg0 : S2048x1024.Idx → EReal) (((cfg0.win 0).blk t).view.emb (ix2 p j)) = _
    refine congrArg _ ?_
    funext a
    apply Fin.ext
    match a with
    | ⟨0, _⟩ => show win0_0.index t (0 : Fin 2) * 256 + 1 * p.val = t.val * 256 + p.val; omega
    | ⟨1, _⟩ => show win0_0.index t (1 : Fin 2) * 1024 + 1 * j.val = j.val; omega
  rw [hout]
  simp only [hin]
  rfl

/-- An index of the output array is in point `t`'s block iff each coordinate is in the block's range on its axis. -/
theorem mem_rowBlock (t : Fin cfg0.N) (i : S2048x2.Idx) :
    i ∈ ((cfg0.win 1).blk t).view.set
      ↔ ∀ a : Fin 2, win0_1.index t a * S256x2.size a ≤ (i a).val ∧ (i a).val < win0_1.index t a * S256x2.size a + S256x2.size a := by
  show i ∈ ((View.whole main_v2).slice (win0_1.rect t)).set ↔ _
  rw [View.set_slice_whole, Rect.mem_set_unit]
  exact Iff.rfl

/-- The eight row blocks tile the output: row `r` lies in block `r / 256`, and every point writes back. -/
theorem rowBlocks_cover (i : S2048x2.Idx) :
    ∃ t : Fin cfg0.N, (cfg0.win 1).flush t = true ∧ i ∈ ((cfg0.win 1).blk t).view.set := by
  have h0 : (i 0).val < 2048 := idx2_lt0 i
  have h1 : (i 1).val < 2 := idx2_lt1 i
  have hN : cfg0.N = 8 := N_0
  have hq : (i 0).val / 256 < cfg0.N := by rw [hN]; omega
  obtain ⟨-, -, e10, e11⟩ := rowBlock_facts ⟨(i 0).val / 256, hq⟩
  have e10' : win0_1.index ⟨(i 0).val / 256, hq⟩ (0 : Fin 2) = (i 0).val / 256 := e10
  refine ⟨⟨(i 0).val / 256, hq⟩, flush0_1 _, ?_⟩
  rw [mem_rowBlock]
  intro a
  match a with
  | ⟨0, _⟩ =>
    show win0_1.index ⟨(i 0).val / 256, hq⟩ (0 : Fin 2) * 256 ≤ (i 0).val
      ∧ (i 0).val < win0_1.index ⟨(i 0).val / 256, hq⟩ (0 : Fin 2) * 256 + 256
    omega
  | ⟨1, _⟩ =>
    show win0_1.index ⟨(i 0).val / 256, hq⟩ (1 : Fin 2) * 2 ≤ (i 1).val
      ∧ (i 1).val < win0_1.index ⟨(i 0).val / 256, hq⟩ (1 : Fin 2) * 2 + 2
    omega

/-- After the last grid point the row-statistics array holds, at row `r`, column 0 the row's sum and column 1 the
    row's sum of squares. -/
theorem final0 (c : Dev nD) (r : Fin 2048) (k : Fin 2) :
    ((dat0 (F := Ideal) V c).arrAt 1 cfg0.N : S2048x2.Idx → EReal) (ix2 r k)
      = if k.val = 0 then Cert.Spec.rowSum (V c main_arg0 : S2048x1024.Idx → EReal) r
        else Cert.Spec.rowSq (V c main_arg0 : S2048x1024.Idx → EReal) r := by
  have hG := (dat0 (F := Ideal) V c).arrAt_eq_of_cover 1 (rowStatsArr (V c main_arg0 : S2048x1024.Idx → EReal))
    (fun t _ => flushed0_eq V c t) rowBlocks_cover
  exact (congrFun hG (ix2 r k)).trans rfl

end Cert.KernelIdeal.Hand

end
-- ==== Proof.KIValue1Pay.lean ====
/-
  What the body of call 1 stores, read at an index, at the ideal instance. The body spreads its 16 × 128 tile of codes
  along 256 columns, compares each code with the column number, and turns the comparison bit into the number 1 or 0; the
  three lane sums of that indicator, of the indicator times the code and of the indicator times the squared code are the
  count, the sum and the sum of squares, per row and column, over the tile's tokens whose code is the column; the
  three [16,256] sums are stacked into [16,3,256] and added to what the buffer held. Also here, free of any program: the
  1024 tokens of a row as 8 tiles of 128, and the specification's per-row statistics as the eight tiles' contributions.
-/
import proofs.«431486_j85761906967230_1_alg».proof.Proof.Gen.KernelIdeal.Skeleton
import proofs.«431486_j85761906967230_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## Words: a code equals a column number exactly when its signed value does -/

/-- The weight a token of code `w` adds to plane `k`: one (the count), the code (the sum), its square (the squares). -/
def wt1 (k : ℕ) (w : BitVec 32) : EReal :=
  if k = 0 then 1 else if k = 1 then Cert.Spec.code w else Cert.Spec.code w * Cert.Spec.code w

/-- A column number below 256, written as a 32-bit word, reads back as itself when the word is read signed. -/
theorem toInt_ofNat_col1 (col : ℕ) (hcol : col < 256) : (BitVec.ofNat 32 col).toInt = (col : ℤ) := by
  rw [BitVec.toInt_eq_toNat_cond]
  simp only [BitVec.toNat_ofNat]
  have : col % 2 ^ 32 = col := Nat.mod_eq_of_lt (by omega)
  rw [this]
  split
  · rfl
  · omega

/-- So a word is that column's word exactly when its signed value is the column number. -/
theorem eq_ofNat_col1_iff (w : BitVec 32) (col : ℕ) (hcol : col < 256) :
    w = BitVec.ofNat 32 col ↔ w.toInt = (col : ℤ) := by
  constructor
  · rintro rfl; exact toInt_ofNat_col1 col hcol
  · intro h
    apply BitVec.eq_of_toInt_eq
    rw [h, toInt_ofNat_col1 col hcol]

/-- The comparison bit widened and converted: one where the code is the column, zero elsewhere. -/
theorem oneHot1_eq (w : BitVec 32) (col : ℕ) (hcol : col < 256) :
    (FloatOps.sitofp (F := Ideal) .f32 ((IntOp.cmpi .eq w (BitVec.ofNat 32 col)).setWidth 32) : EReal)
      = if w.toInt = (col : ℤ) then 1 else 0 := by
  by_cases h : w = BitVec.ofNat 32 col
  · rw [if_pos ((eq_ofNat_col1_iff w col hcol).mp h)]
    subst h
    have e : IntOp.cmpi .eq (BitVec.ofNat 32 col) (BitVec.ofNat 32 col) = 1#1 := by
      simp [IntOp.cmpi]
    rw [e]
    show (((BitVec.setWidth 32 1#1).toInt : ℝ) : EReal) = 1
    have e2 : (BitVec.setWidth 32 1#1).toInt = 1 := by decide
    rw [e2]; simp
  · rw [if_neg (fun h' => h ((eq_ofNat_col1_iff w col hcol).mpr h'))]
    have hb : (w == BitVec.ofNat 32 col) = false := beq_eq_false_iff_ne.mpr h
    have e : IntOp.cmpi .eq w (BitVec.ofNat 32 col) = 0#1 := by
      simp [IntOp.cmpi, hb]
    rw [e]
    show (((BitVec.setWidth 32 0#1).toInt : ℝ) : EReal) = 0
    have e2 : (BitVec.setWidth 32 0#1).toInt = 0 := by decide
    rw [e2]; simp

/-! ## The layout operations of the body at an index -/

variable {α : Type}

/-- A [16,128] vector given a trailing unit axis and spread along 256 columns reads, at (p, q, col), its entry (p, q). -/
theorem spreadCols1_apply (y : S16x128.Idx → α) (h1 : S16x128.ShapeCasts S16x128x1) (h2 : S16x128x1.Broadcasts S16x128x256)
    (p : Fin 16) (q : Fin 128) (col : Fin 256) :
    broadcastTo S16x128x256 (shapeCast S16x128x1 y h1) h2 (ix3 p q col) = y (ix2 p q) := by
  refine (broadcastTo_apply _ h2 (ix3 p q col) (ix3 p q (0 : Fin 1)) (fun a => ?_)).trans ?_
  · match a with
    | ⟨0, _⟩ => rfl
    | ⟨1, _⟩ => rfl
    | ⟨2, _⟩ => rfl
  · refine shapeCast_apply y h1 (ix3 p q (0 : Fin 1)) (ix2 p q) ?_
    rw [Shape.rowMajor_val_three, Shape.rowMajor_val_two]
    show p.val * 128 + q.val = (p.val * 128 + q.val) * 1 + 0
    omega

/-- The sum over the 128 tokens of a [16,128,256] vector, read at (p, col). -/
theorem laneSum1_apply (v : FVec Ideal S16x128x256 .f32) (h : S16x128x256.Reduces [1] S16x256) (hφ : FKind.Formats .f32)
    (hacc : (0x00000000#32 : BitVec 32) = FKind.add.neutral .f32 hφ) (p : Fin 16) (col : Fin 256) :
    multiReduction .add [1] S16x256 v 0x00000000#32 h hφ hacc (ix2 p col) = ∑ q : Fin 128, v (ix3 p q col) := by
  refine (Ideal.multiReduction_add_single v 0x00000000#32 h hφ hacc (ix2 p col)).trans ?_
  refine Finset.sum_congr rfl fun q _ => congrArg v ?_
  funext a
  match a with
  | ⟨0, _⟩ => rfl
  | ⟨1, _⟩ => rfl
  | ⟨2, _⟩ => rfl

/-- A [16,256] vector given a middle unit axis reads, at (p, 0, col), its entry (p, col). -/
theorem midUnit1_apply (y : S16x256.Idx → α) (h : S16x256.ShapeCasts S16x1x256) (p : Fin 16) (u : Fin 1) (col : Fin 256) :
    shapeCast S16x1x256 y h (ix3 p u col) = y (ix2 p col) := by
  refine shapeCast_apply y h (ix3 p u col) (ix2 p col) ?_
  rw [Shape.rowMajor_val_three, Shape.rowMajor_val_two]
  show p.val * 256 + col.val = (p.val * 1 + u.val) * 256 + col.val
  have := u.isLt
  omega

/-- Three [16,1,256] planes stacked along the middle axis read, at (p, k, col), plane `k` at (p, 0, col). -/
theorem stack1_apply (a b c : S16x1x256.Idx → α) (h : Shape.Concatenates [S16x1x256, S16x1x256, S16x1x256] S16x3x256 1)
    (p : Fin 16) (k : Fin 3) (col : Fin 256) :
    concatenate S16x3x256 1 [⟨S16x1x256, a⟩, ⟨S16x1x256, b⟩, ⟨S16x1x256, c⟩] h (ix3 p k col)
      = if k.val = 0 then a (ix3 p (0 : Fin 1) col) else if k.val = 1 then b (ix3 p (0 : Fin 1) col) else c (ix3 p (0 : Fin 1) col) := by
  have hi : ∀ (kk : Fin 3) (bb : Fin S16x1x256.rank), bb.cast (rfl : S16x1x256.rank = S16x3x256.rank) ≠ (1 : Fin S16x3x256.rank) →
      ((ix3 p (0 : Fin 1) col : S16x1x256.Idx) bb).val = ((ix3 p kk col : S16x3x256.Idx) (bb.cast rfl)).val := by
    intro kk bb hb
    match bb with
    | ⟨0, _⟩ => rfl
    | ⟨1, _⟩ => exact absurd rfl hb
    | ⟨2, _⟩ => rfl
  match k with
  | ⟨0, _⟩ =>
    exact concatenate_apply_piece 1 [⟨S16x1x256, a⟩, ⟨S16x1x256, b⟩, ⟨S16x1x256, c⟩] h _ 0 (show 0 < 3 by omega) S16x1x256 a rfl rfl 0 rfl
      (ix3 p (0 : Fin 1) col) (hi _) rfl
  | ⟨1, _⟩ =>
    exact concatenate_apply_piece 1 [⟨S16x1x256, a⟩, ⟨S16x1x256, b⟩, ⟨S16x1x256, c⟩] h _ 1 (show 1 < 3 by omega) S16x1x256 b rfl rfl 1 rfl
      (ix3 p (0 : Fin 1) col) (hi _) rfl
  | ⟨2, _⟩ =>
    exact concatenate_apply_piece 1 [⟨S16x1x256, a⟩, ⟨S16x1x256, b⟩, ⟨S16x1x256, c⟩] h _ 2 (show 2 < 3 by omega) S16x1x256 c rfl rfl 2 rfl
      (ix3 p (0 : Fin 1) col) (hi _) rfl

/-! ## The stored value at an index -/

/-- The indicator "token (p, q) carries category `col`" as the body computes it: the tile spread along the columns
    and compared with the column number, the bit widened and converted. -/
theorem oneHotVec1_apply (x : Vec Ideal S16x128 .i32) (h1 : S16x128.ShapeCasts S16x128x1)
    (h2 : S16x128x1.Broadcasts S16x128x256) (h3 : S16x128x256.Iotas .tc 32 [2]) (h4 : 1 < 32)
    (p : Fin 16) (q : Fin 128) (col : Fin 256) :
    (sitofp .f32 (extui 32 (cmpi .eq (broadcastTo S16x128x256 (shapeCast S16x128x1 x h1) h2) (iota .tc S16x128x256 32 [2] h3)) h4)
        : FVec Ideal S16x128x256 .f32) (ix3 p q col)
      = if (x (ix2 p q)).toInt = (col.val : ℤ) then 1 else 0 := by
  show (FloatOps.sitofp (F := Ideal) .f32
      ((IntOp.cmpi .eq (broadcastTo S16x128x256 (shapeCast S16x128x1 x h1) h2 (ix3 p q col))
        (iota .tc S16x128x256 32 [2] h3 (ix3 p q col))).setWidth 32) : EReal) = _
  rw [spreadCols1_apply, iota_single_apply]
  exact oneHot1_eq _ _ col.isLt

/-- WHAT THE BODY STORES, at (p, k, col): what the buffer held there plus, over the tile's 128 tokens of row `p` whose
    code is `col`, the sum of the plane's weight. -/
theorem catPay1_apply (x : Vec Ideal S16x128 .i32) (prev : Vec Ideal S16x3x256 .f32) (p : Fin 16) (k : Fin 3) (col : Fin 256) :
    (k1_pay2 (F := Ideal) x prev : S16x3x256.Idx → EReal) (ix3 p k col)
      = prev (ix3 p k col) + ∑ q : Fin 128, (if (x (ix2 p q)).toInt = (col.val : ℤ) then wt1 k.val (x (ix2 p q)) else 0) := by
  unfold k1_pay2
  dsimp only
  refine (addf_apply _ _ _).trans ?_
  refine congrArg₂ (· + ·) (congrFun (shapeCast_self prev _) _) ?_
  refine (stack1_apply _ _ _ _ p k col).trans ?_
  match k with
  | ⟨0, _⟩ =>
    refine (if_pos rfl).trans ?_
    refine (midUnit1_apply _ _ p 0 col).trans ?_
    refine (laneSum1_apply _ _ _ _ p col).trans ?_
    refine Finset.sum_congr rfl fun q _ => ?_
    refine (oneHotVec1_apply x _ _ _ _ p q col).trans ?_
    rfl
  | ⟨1, _⟩ =>
    refine (if_neg (show ¬(1 : ℕ) = 0 by omega)).trans ?_
    refine (if_pos rfl).trans ?_
    refine (midUnit1_apply _ _ p 0 col).trans ?_
    refine (laneSum1_apply _ _ _ _ p col).trans ?_
    refine Finset.sum_congr rfl fun q _ => ?_
    refine (mulf_apply _ _ _).trans ?_
    rw [oneHotVec1_apply x _ _ _ _ p q col, spreadCols1_apply]
    show (if (x (ix2 p q)).toInt = (col.val : ℤ) then (1 : EReal) else 0) * Cert.Spec.code (x (ix2 p q)) = _
    split
    · rw [one_mul]; rfl
    · rw [zero_mul]
  | ⟨2, _⟩ =>
    refine (if_neg (show ¬(2 : ℕ) = 0 by omega)).trans ?_
    refine (if_neg (show ¬(2 : ℕ) = 1 by omega)).trans ?_
    refine (midUnit1_apply _ _ p 0 col).trans ?_
    refine (laneSum1_apply _ _ _ _ p col).trans ?_
    refine Finset.sum_congr rfl fun q _ => ?_
    refine (mulf_apply _ _ _).trans ?_
    rw [oneHotVec1_apply x _ _ _ _ p q col, spreadCols1_apply]
    show (if (x (ix2 p q)).toInt = (col.val : ℤ) then (1 : EReal) else 0)
      * (Cert.Spec.code (x (ix2 p q)) * Cert.Spec.code (x (ix2 p q))) = _
    split
    · rw [one_mul]; rfl
    · rw [zero_mul]

/-! ## The row's tokens as tiles -/

/-- The 1024 tokens of a row are 8 tiles of 128: a sum over the row is the sum over the tiles of the sums inside each. -/
theorem sum_tokenTiles1 {M : Type*} [AddCommMonoid M] (g : Fin 1024 → M) :
    ∑ t : Fin 1024, g t = ∑ j : Fin 8, ∑ q : Fin 128, g ⟨128 * j.val + q.val, by omega⟩ := by
  have e : ∑ t : Fin 1024, g t = ∑ x : Fin 8 × Fin 128, g (finProdFinEquiv x) :=
    (Equiv.sum_comp (finProdFinEquiv (m := 8) (n := 128)) g).symm
  rw [e, Fintype.sum_prod_type]
  refine Finset.sum_congr rfl fun j _ => Finset.sum_congr rfl fun q _ => congrArg g (Fin.ext ?_)
  show q.val + 128 * j.val = 128 * j.val + q.val
  omega

/-- What the tokens of tile `j` of row `r` add to plane `k`, column `col`. -/
def tileAgg1 (cat : S2048x1024.Idx → BitVec 32) (k : ℕ) (r : Fin 2048) (col : ℕ) (j : Fin 8) : EReal :=
  ∑ q : Fin 128, if (cat (ix2 r ⟨128 * j.val + q.val, by omega⟩)).toInt = (col : ℤ)
    then wt1 k (cat (ix2 r ⟨128 * j.val + q.val, by omega⟩)) else 0

/-- The statistics of a row are the eight tiles' contributions added up. -/
theorem catPlane_eq_tiles1 (cat : S2048x1024.Idx → BitVec 32) (k : ℕ) (r : Fin 2048) (col : ℕ) :
    Cert.Spec.catPlane k cat r col = ∑ j : Fin 8, tileAgg1 cat k r col j := by
  have e : Cert.Spec.catPlane k cat r col = Cert.Spec.catAgg (wt1 k) cat r col := by
    unfold Cert.Spec.catPlane Cert.Spec.catCnt Cert.Spec.catSum Cert.Spec.catSq wt1
    split_ifs <;> rfl
  rw [e]
  unfold Cert.Spec.catAgg tileAgg1
  exact sum_tokenTiles1 _

end Cert.KernelIdeal.Hand

end
-- ==== Proof.KIValue1.lean ====
/-
  What call 1 leaves in its output array, read at an index, at the ideal instance: the plain sums of `Spec`.
-/
import proofs.«431486_j85761906967230_1_alg».proof.Proof.KIBlocks
import proofs.«431486_j85761906967230_1_alg».proof.Proof.Spec
import proofs.«431486_j85761906967230_1_alg».proof.Proof.KIValue1Pay
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! The grid runs over batch tiles of 16 rows and, inside each, over 8 token tiles of 128. The input block at a point is
    the point's 16 rows and 128 tokens of the code array; the output block is the batch tile's 16 rows, all 3 planes and
    all 256 columns, the same block for the 8 token tiles, written back after the last of them. By induction on the token
    tile, the buffer after tile `j` holds the contributions of tiles 0 … j of its rows; after the last tile that is the
    specification's sum over the row's 1024 tokens; and the blocks written back cover the array, each row lying in the
    block of its batch tile. -/

/-! ## The printed index maps, decided over the grid -/

/-- At point `t` the input block is block (t / 8, t % 8) and the output block is block (t / 8, 0, 0). -/
theorem idx_facts1 : ∀ t : Fin cfg1.N, win1_0.index t (0 : Fin 2) = t.val / 8 ∧ win1_0.index t (1 : Fin 2) = t.val % 8
    ∧ win1_1.index t (0 : Fin 3) = t.val / 8 ∧ win1_1.index t (1 : Fin 3) = 0 ∧ win1_1.index t (2 : Fin 3) = 0 :=
  (by decide +kernel : ∀ t : Fin grid1.N, _)

/-! ## The input block at a point -/

/-- The input block at point `t`, at (p, q), is the code array at row 16·(t / 8) + p, token 128·(t % 8) + q. -/
theorem blk1_in_apply (c : Dev nD) (t : Fin cfg1.N) (p : Fin 16) (q : Fin 128) (r : Fin 2048) (s : Fin 1024)
    (hr : r.val = 16 * (t.val / 8) + p.val) (hs : s.val = 128 * (t.val % 8) + q.val) :
    (blk1 (F := Ideal) V c 0 t : S16x128.Idx → BitVec 32) (ix2 p q)
      = (V c main_arg1 : S2048x1024.Idx → BitVec 32) (ix2 r s) := by
  obtain ⟨e0, e1, -, -, -⟩ := idx_facts1 t
  unfold blk1
  rw [View.read_apply]
  show V c main_arg1 _ = V c main_arg1 _
  congr 1
  funext a
  apply Fin.ext
  match a with
  | ⟨0, _⟩ => show win1_0.index t (0 : Fin 2) * 16 + 1 * p.val = r.val; rw [e0, hr]; omega
  | ⟨1, _⟩ => show win1_0.index t (1 : Fin 2) * 128 + 1 * q.val = s.val; rw [e1, hs]; omega

/-! ## The accumulation over the token tiles of a batch tile -/

/-- The buffer after a point does not depend on how the point's number is written. -/
theorem accAt1_congr (c : Dev nD) (n n' : ℕ) (h : n < cfg1.N) (h' : n' < cfg1.N) (e : n = n') :
    accAt1 V c n h = accAt1 V c n' h' := by subst e; rfl

/-- The zero block the first token tile starts from reads zero everywhere. -/
theorem zeroBlk1_apply (i : S16x3x256.Idx) : (k1_pay1 (F := Ideal) : S16x3x256.Idx → EReal) i = 0 := by
  show Ideal.ofBits .f32 0x00000000#32 = 0
  exact Ideal.ofBits_zero_f32

/-- What the tokens of the input block at point `t` add, at (p, k, col): the contribution of tile t % 8 of row 16·(t / 8) + p. -/
theorem blk1_agg (c : Dev nD) (t : Fin cfg1.N) (p : Fin 16) (k : Fin 3) (col : Fin 256) (r : Fin 2048) (j : Fin 8)
    (hr : r.val = 16 * (t.val / 8) + p.val) (hj : j.val = t.val % 8) :
    (∑ q : Fin 128, if ((blk1 (F := Ideal) V c 0 t : S16x128.Idx → BitVec 32) (ix2 p q)).toInt = (col.val : ℤ)
        then wt1 k.val ((blk1 (F := Ideal) V c 0 t : S16x128.Idx → BitVec 32) (ix2 p q)) else 0)
      = tileAgg1 (V c main_arg1) k.val r col.val j := by
  unfold tileAgg1
  refine Finset.sum_congr rfl fun q _ => ?_
  rw [blk1_in_apply V c t p q r ⟨128 * j.val + q.val, by omega⟩ hr (by show 128 * j.val + q.val = _; rw [hj])]

/-- THE INVARIANT: after token tile `j` of batch tile `b` the buffer holds, at (p, k, col), the contributions of tiles
    0 … j of row 16·b + p. -/
theorem accAt1_apply (c : Dev nD) (b : ℕ) (p : Fin 16) (k : Fin 3) (col : Fin 256) (r : Fin 2048)
    (hr : r.val = 16 * b + p.val) :
    ∀ (j : ℕ) (hj : j < 8) (h : 8 * b + j < cfg1.N),
      (accAt1 (F := Ideal) V c (8 * b + j) h : S16x3x256.Idx → EReal) (ix3 p k col)
        = ∑ jj : Fin (j + 1), tileAgg1 (V c main_arg1) k.val r col.val ⟨jj.val, by omega⟩
  | 0, hj, h => by
    have h0 : (⟨8 * b + 0, h⟩ : Fin cfg1.N).val % 8 = 0 := by show (8 * b + 0) % 8 = 0; omega
    refine (congrFun (accAt1_first V c ⟨8 * b + 0, h⟩ h0) (ix3 p k col)).trans ?_
    unfold catFirst1
    refine (catPay1_apply _ _ p k col).trans ?_
    rw [zeroBlk1_apply, zero_add, Fin.sum_univ_one]
    exact blk1_agg V c ⟨8 * b + 0, h⟩ p k col r ⟨0, by omega⟩ (by show r.val = 16 * ((8 * b + 0) / 8) + p.val; omega)
      (by show 0 = (8 * b + 0) % 8; omega)
  | j + 1, hj, h => by
    have h0 : ¬(⟨8 * b + (j + 1), h⟩ : Fin cfg1.N).val % 8 = 0 := by show ¬(8 * b + (j + 1)) % 8 = 0; omega
    refine (congrFun (accAt1_next V c ⟨8 * b + (j + 1), h⟩ h0) (ix3 p k col)).trans ?_
    unfold catNext1
    refine (catPay1_apply _ _ p k col).trans ?_
    rw [accAt1_congr V c _ (8 * b + j) _ (by omega) (by show 8 * b + (j + 1) - 1 = 8 * b + j; omega),
      accAt1_apply c b p k col r hr j (by omega) (by omega), Fin.sum_univ_castSucc (n := j + 1)]
    refine congrArg₂ (· + ·) rfl ?_
    exact blk1_agg V c ⟨8 * b + (j + 1), h⟩ p k col r ⟨j + 1, by omega⟩
      (by show r.val = 16 * ((8 * b + (j + 1)) / 8) + p.val; omega) (by show j + 1 = (8 * b + (j + 1)) % 8; omega)

/-! ## What the last token tile of a batch tile leaves -/

/-- After the last token tile (t % 8 = 7) the buffer holds, at (p, k, col), the statistic of row 16·(t / 8) + p. -/
theorem lastTile1_apply (c : Dev nD) (t : Fin cfg1.N) (h7 : t.val % 8 = 7) (p : Fin 16) (k : Fin 3) (col : Fin 256)
    (r : Fin 2048) (hr : r.val = 16 * (t.val / 8) + p.val) :
    (accAt1 (F := Ideal) V c t.val t.isLt : S16x3x256.Idx → EReal) (ix3 p k col)
      = Cert.Spec.catPlane k.val (V c main_arg1 : S2048x1024.Idx → BitVec 32) r col.val := by
  have ht := t.isLt
  rw [accAt1_congr V c t.val (8 * (t.val / 8) + 7) t.isLt (by omega) (by omega),
    accAt1_apply V c (t.val / 8) p k col r hr 7 (by omega) (by omega), catPlane_eq_tiles1]

/-! ## From blocks to the array -/

/-- The array the call leaves: at (r, k, col) the specification's statistic of row `r`. -/
def catArr1 (c : Dev nD) : S2048x3x256.Idx → EReal :=
  fun i => Cert.Spec.catPlane (i 1).val (V c main_arg1 : S2048x1024.Idx → BitVec 32) (i 0) (i 2).val

/-- The same, at an index of the block and the index of the array under it. -/
theorem lastTile1_point (c : Dev nD) (t : Fin cfg1.N) (h7 : t.val % 8 = 7) (y : S16x3x256.Idx) (i : S2048x3x256.Idx)
    (h0 : (i 0).val = 16 * (t.val / 8) + (y 0).val) (h1 : (i 1).val = (y 1).val) (h2 : (i 2).val = (y 2).val) :
    (accAt1 (F := Ideal) V c t.val t.isLt : S16x3x256.Idx → EReal) y = catArr1 V c i := by
  obtain ⟨p, k, col, rfl⟩ : ∃ (p : Fin 16) (k : Fin 3) (col : Fin 256), y = ix3 p k col := ⟨y 0, y 1, y 2, eq_ix3 y⟩
  obtain ⟨r, k', col', rfl⟩ : ∃ (r : Fin 2048) (k' : Fin 3) (col' : Fin 256), i = ix3 r k' col' := ⟨i 0, i 1, i 2, eq_ix3 i⟩
  obtain rfl : k' = k := Fin.ext h1
  obtain rfl : col' = col := Fin.ext h2
  exact lastTile1_apply V c t h7 p k' col' r h0

/-- WHAT A WRITE-BACK WRITES is its block of that array. -/
theorem flushed1_eq (c : Dev nD) (t : Fin cfg1.N) (hf : (cfg1.win 1).flush t = true) :
    (dat1 (F := Ideal) V c).flushed 1 t = ((cfg1.win 1).blk t).view.read (Elt Ideal) (catArr1 V c) := by
  have h7 : t.val % 8 = 7 := (flush1_1 t).mp hf
  obtain ⟨-, -, e0, e1, e2⟩ := idx_facts1 t
  show (cfg1.win 1).cut (grid1.coords t) ((dat1 (F := Ideal) V c).after 1 t) = _
  rw [dat1_after_out]
  funext y
  show (accAt1 (F := Ideal) V c t.val t.isLt : S16x3x256.Idx → EReal) y = catArr1 V c (((cfg1.win 1).blk t).view.emb y)
  refine lastTile1_point V c t h7 y (((cfg1.win 1).blk t).view.emb y) ?_ ?_ ?_
  · show win1_1.index t (0 : Fin 3) * 16 + 1 * (y 0).val = 16 * (t.val / 8) + (y 0).val
    rw [e0]; omega
  · show win1_1.index t (1 : Fin 3) * 3 + 1 * (y 1).val = (y 1).val
    rw [e1]; omega
  · show win1_1.index t (2 : Fin 3) * 256 + 1 * (y 2).val = (y 2).val
    rw [e2]; omega

/-- Every row lies in the block the last token tile of its batch tile writes back. -/
theorem cover1 (i : S2048x3x256.Idx) :
    ∃ t : Fin cfg1.N, (cfg1.win 1).flush t = true ∧ i ∈ ((cfg1.win 1).blk t).view.set := by
  have hN : cfg1.N = 8 * (2048 / 16) := N_1
  have hi0 : (i 0).val < 2048 := (i 0).isLt
  have hi1 : (i 1).val < 3 := (i 1).isLt
  have hi2 : (i 2).val < 256 := (i 2).isLt
  have ht : 8 * ((i 0).val / 16) + 7 < cfg1.N := by omega
  have e0 : win1_1.index ⟨8 * ((i 0).val / 16) + 7, ht⟩ (0 : Fin 3) = (8 * ((i 0).val / 16) + 7) / 8 := (idx_facts1 _).2.2.1
  have e1 : win1_1.index ⟨8 * ((i 0).val / 16) + 7, ht⟩ (1 : Fin 3) = 0 := (idx_facts1 _).2.2.2.1
  have e2 : win1_1.index ⟨8 * ((i 0).val / 16) + 7, ht⟩ (2 : Fin 3) = 0 := (idx_facts1 _).2.2.2.2
  refine ⟨⟨8 * ((i 0).val / 16) + 7, ht⟩, (flush1_1 _).mpr (by show (8 * ((i 0).val / 16) + 7) % 8 = 7; omega), ?_⟩
  show i ∈ ((View.whole main_v21).slice (win1_1.rect ⟨8 * ((i 0).val / 16) + 7, ht⟩)).set
  rw [View.set_slice_whole, Rect.mem_set_unit]
  intro a
  match a with
  | ⟨0, _⟩ =>
    show win1_1.index ⟨8 * ((i 0).val / 16) + 7, ht⟩ (0 : Fin 3) * 16 ≤ (i 0).val
      ∧ (i 0).val < win1_1.index ⟨8 * ((i 0).val / 16) + 7, ht⟩ (0 : Fin 3) * 16 + 16
    rw [e0]; omega
  | ⟨1, _⟩ =>
    show win1_1.index ⟨8 * ((i 0).val / 16) + 7, ht⟩ (1 : Fin 3) * 3 ≤ (i 1).val
      ∧ (i 1).val < win1_1.index ⟨8 * ((i 0).val / 16) + 7, ht⟩ (1 : Fin 3) * 3 + 3
    rw [e1]; omega
  | ⟨2, _⟩ =>
    show win1_1.index ⟨8 * ((i 0).val / 16) + 7, ht⟩ (2 : Fin 3) * 256 ≤ (i 2).val
      ∧ (i 2).val < win1_1.index ⟨8 * ((i 0).val / 16) + 7, ht⟩ (2 : Fin 3) * 256 + 256
    rw [e2]; omega

/-- After the last grid point the category-statistics array of `mcc_code` holds, at row `r`, plane `k`, column `col`,
    the count (plane 0), the sum of codes (plane 1) or the sum of squared codes (plane 2) over the row's tokens whose
    code is `col`. -/
theorem final1 (c : Dev nD) (r : Fin 2048) (k : Fin 3) (col : Fin 256) :
    ((dat1 (F := Ideal) V c).arrAt 1 cfg1.N : S2048x3x256.Idx → EReal) (ix3 r k col)
      = Cert.Spec.catPlane k.val (V c main_arg1 : S2048x1024.Idx → BitVec 32) r col.val :=
  congrFun ((dat1 (F := Ideal) V c).arrAt_eq_of_cover 1 (catArr1 V c) (flushed1_eq V c) cover1) (ix3 r k col)

end Cert.KernelIdeal.Hand

end
-- ==== Proof.KIValue2Pay.lean ====
/-
  What the body of call 2 stores, read at an index, at the ideal instance. The body spreads its 32 × 128 tile of codes
  along 128 columns, compares each code with the column number, and turns the comparison bit into the number 1 or 0; the
  three lane sums of that indicator, of the indicator times the code and of the indicator times the squared code are the
  count, the sum and the sum of squares, per row and column, over the tile's tokens whose code is the column; the
  three [32,128] sums are stacked into [32,3,128] and added to what the buffer held. Also here, free of any program: the
  1024 tokens of a row as 8 tiles of 128, and the specification's per-row statistics as the eight tiles' contributions.
-/
import proofs.«431486_j85761906967230_1_alg».proof.Proof.Gen.KernelIdeal.Skeleton
import proofs.«431486_j85761906967230_1_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## Words: a code equals a column number exactly when its signed value does -/

/-- The weight a token of code `w` adds to plane `k`: one (the count), the code (the sum), its square (the squares). -/
def wt2 (k : ℕ) (w : BitVec 32) : EReal :=
  if k = 0 then 1 else if k = 1 then Cert.Spec.code w else Cert.Spec.code w * Cert.Spec.code w

/-- A column number below 128, written as a 32-bit word, reads back as itself when the word is read signed. -/
theorem toInt_ofNat_col2 (col : ℕ) (hcol : col < 128) : (BitVec.ofNat 32 col).toInt = (col : ℤ) := by
  rw [BitVec.toInt_eq_toNat_cond]
  simp only [BitVec.toNat_ofNat]
  have : col % 2 ^ 32 = col := Nat.mod_eq_of_lt (by omega)
  rw [this]
  split
  · rfl
  · omega

/-- So a word is that column's word exactly when its signed value is the column number. -/
theorem eq_ofNat_col2_iff (w : BitVec 32) (col : ℕ) (hcol : col < 128) :
    w = BitVec.ofNat 32 col ↔ w.toInt = (col : ℤ) := by
  constructor
  · rintro rfl; exact toInt_ofNat_col2 col hcol
  · intro h
    apply BitVec.eq_of_toInt_eq
    rw [h, toInt_ofNat_col2 col hcol]

/-- The comparison bit widened and converted: one where the code is the column, zero elsewhere. -/
theorem oneHot2_eq (w : BitVec 32) (col : ℕ) (hcol : col < 128) :
    (FloatOps.sitofp (F := Ideal) .f32 ((IntOp.cmpi .eq w (BitVec.ofNat 32 col)).setWidth 32) : EReal)
      = if w.toInt = (col : ℤ) then 1 else 0 := by
  by_cases h : w = BitVec.ofNat 32 col
  · rw [if_pos ((eq_ofNat_col2_iff w col hcol).mp h)]
    subst h
    have e : IntOp.cmpi .eq (BitVec.ofNat 32 col) (BitVec.ofNat 32 col) = 1#1 := by
      simp [IntOp.cmpi]
    rw [e]
    show (((BitVec.setWidth 32 1#1).toInt : ℝ) : EReal) = 1
    have e2 : (BitVec.setWidth 32 1#1).toInt = 1 := by decide
    rw [e2]; simp
  · rw [if_neg (fun h' => h ((eq_ofNat_col2_iff w col hcol).mpr h'))]
    have hb : (w == BitVec.ofNat 32 col) = false := beq_eq_false_iff_ne.mpr h
    have e : IntOp.cmpi .eq w (BitVec.ofNat 32 col) = 0#1 := by
      simp [IntOp.cmpi, hb]
    rw [e]
    show (((BitVec.setWidth 32 0#1).toInt : ℝ) : EReal) = 0
    have e2 : (BitVec.setWidth 32 0#1).toInt = 0 := by decide
    rw [e2]; simp

/-! ## The layout operations of the body at an index -/

variable {α : Type}

/-- A [32,128] vector given a trailing unit axis and spread along 128 columns reads, at (p, q, col), its entry (p, q). -/
theorem spreadCols2_apply (y : S32x128.Idx → α) (h1 : S32x128.ShapeCasts S32x128x1) (h2 : S32x128x1.Broadcasts S32x128x128)
    (p : Fin 32) (q : Fin 128) (col : Fin 128) :
    broadcastTo S32x128x128 (shapeCast S32x128x1 y h1) h2 (ix3 p q col) = y (ix2 p q) := by
  refine (broadcastTo_apply _ h2 (ix3 p q col) (ix3 p q (0 : Fin 1)) (fun a => ?_)).trans ?_
  · match a with
    | ⟨0, _⟩ => rfl
    | ⟨1, _⟩ => rfl
    | ⟨2, _⟩ => rfl
  · refine shapeCast_apply y h1 (ix3 p q (0 : Fin 1)) (ix2 p q) ?_
    rw [Shape.rowMajor_val_three, Shape.rowMajor_val_two]
    show p.val * 128 + q.val = (p.val * 128 + q.val) * 1 + 0
    omega

/-- The sum over the 128 tokens of a [32,128,128] vector, read at (p, col). -/
theorem laneSum2_apply (v : FVec Ideal S32x128x128 .f32) (h : S32x128x128.Reduces [1] S32x128) (hφ : FKind.Formats .f32)
    (hacc : (0x00000000#32 : BitVec 32) = FKind.add.neutral .f32 hφ) (p : Fin 32) (col : Fin 128) :
    multiReduction .add [1] S32x128 v 0x00000000#32 h hφ hacc (ix2 p col) = ∑ q : Fin 128, v (ix3 p q col) := by
  refine (Ideal.multiReduction_add_single v 0x00000000#32 h hφ hacc (ix2 p col)).trans ?_
  refine Finset.sum_congr rfl fun q _ => congrArg v ?_
  funext a
  match a with
  | ⟨0, _⟩ => rfl
  | ⟨1, _⟩ => rfl
  | ⟨2, _⟩ => rfl

/-- A [32,128] vector given a middle unit axis reads, at (p, 0, col), its entry (p, col). -/
theorem midUnit2_apply (y : S32x128.Idx → α) (h : S32x128.ShapeCasts S32x1x128) (p : Fin 32) (u : Fin 1) (col : Fin 128) :
    shapeCast S32x1x128 y h (ix3 p u col) = y (ix2 p col) := by
  refine shapeCast_apply y h (ix3 p u col) (ix2 p col) ?_
  rw [Shape.rowMajor_val_three, Shape.rowMajor_val_two]
  show p.val * 128 + col.val = (p.val * 1 + u.val) * 128 + col.val
  have := u.isLt
  omega

/-- Three [32,1,128] planes stacked along the middle axis read, at (p, k, col), plane `k` at (p, 0, col). -/
theorem stack2_apply (a b c : S32x1x128.Idx → α) (h : Shape.Concatenates [S32x1x128, S32x1x128, S32x1x128] S32x3x128 1)
    (p : Fin 32) (k : Fin 3) (col : Fin 128) :
    concatenate S32x3x128 1 [⟨S32x1x128, a⟩, ⟨S32x1x128, b⟩, ⟨S32x1x128, c⟩] h (ix3 p k col)
      = if k.val = 0 then a (ix3 p (0 : Fin 1) col) else if k.val = 1 then b (ix3 p (0 : Fin 1) col) else c (ix3 p (0 : Fin 1) col) := by
  have hi : ∀ (kk : Fin 3) (bb : Fin S32x1x128.rank), bb.cast (rfl : S32x1x128.rank = S32x3x128.rank) ≠ (1 : Fin S32x3x128.rank) →
      ((ix3 p (0 : Fin 1) col : S32x1x128.Idx) bb).val = ((ix3 p kk col : S32x3x128.Idx) (bb.cast rfl)).val := by
    intro kk bb hb
    match bb with
    | ⟨0, _⟩ => rfl
    | ⟨1, _⟩ => exact absurd rfl hb
    | ⟨2, _⟩ => rfl
  match k with
  | ⟨0, _⟩ =>
    exact concatenate_apply_piece 1 [⟨S32x1x128, a⟩, ⟨S32x1x128, b⟩, ⟨S32x1x128, c⟩] h _ 0 (show 0 < 3 by omega) S32x1x128 a rfl rfl 0 rfl
      (ix3 p (0 : Fin 1) col) (hi _) rfl
  | ⟨1, _⟩ =>
    exact concatenate_apply_piece 1 [⟨S32x1x128, a⟩, ⟨S32x1x128, b⟩, ⟨S32x1x128, c⟩] h _ 1 (show 1 < 3 by omega) S32x1x128 b rfl rfl 1 rfl
      (ix3 p (0 : Fin 1) col) (hi _) rfl
  | ⟨2, _⟩ =>
    exact concatenate_apply_piece 1 [⟨S32x1x128, a⟩, ⟨S32x1x128, b⟩, ⟨S32x1x128, c⟩] h _ 2 (show 2 < 3 by omega) S32x1x128 c rfl rfl 2 rfl
      (ix3 p (0 : Fin 1) col) (hi _) rfl

/-! ## The stored value at an index -/

/-- The indicator "token (p, q) carries category `col`" as the body computes it: the tile spread along the columns
    and compared with the column number, the bit widened and converted. -/
theorem oneHotVec2_apply (x : Vec Ideal S32x128 .i32) (h1 : S32x128.ShapeCasts S32x128x1)
    (h2 : S32x128x1.Broadcasts S32x128x128) (h3 : S32x128x128.Iotas .tc 32 [2]) (h4 : 1 < 32)
    (p : Fin 32) (q : Fin 128) (col : Fin 128) :
    (sitofp .f32 (extui 32 (cmpi .eq (broadcastTo S32x128x128 (shapeCast S32x128x1 x h1) h2) (iota .tc S32x128x128 32 [2] h3)) h4)
        : FVec Ideal S32x128x128 .f32) (ix3 p q col)
      = if (x (ix2 p q)).toInt = (col.val : ℤ) then 1 else 0 := by
  show (FloatOps.sitofp (F := Ideal) .f32
      ((IntOp.cmpi .eq (broadcastTo S32x128x128 (shapeCast S32x128x1 x h1) h2 (ix3 p q col))
        (iota .tc S32x128x128 32 [2] h3 (ix3 p q col))).setWidth 32) : EReal) = _
  rw [spreadCols2_apply, iota_single_apply]
  exact oneHot2_eq _ _ col.isLt

/-- WHAT THE BODY STORES, at (p, k, col): what the buffer held there plus, over the tile's 128 tokens of row `p` whose
    code is `col`, the sum of the plane's weight. -/
theorem catPay2_apply (x : Vec Ideal S32x128 .i32) (prev : Vec Ideal S32x3x128 .f32) (p : Fin 32) (k : Fin 3) (col : Fin 128) :
    (k2_pay2 (F := Ideal) x prev : S32x3x128.Idx → EReal) (ix3 p k col)
      = prev (ix3 p k col) + ∑ q : Fin 128, (if (x (ix2 p q)).toInt = (col.val : ℤ) then wt2 k.val (x (ix2 p q)) else 0) := by
  unfold k2_pay2
  dsimp only
  refine (addf_apply _ _ _).trans ?_
  refine congrArg₂ (· + ·) (congrFun (shapeCast_self prev _) _) ?_
  refine (stack2_apply _ _ _ _ p k col).trans ?_
  match k with
  | ⟨0, _⟩ =>
    refine (if_pos rfl).trans ?_
    refine (midUnit2_apply _ _ p 0 col).trans ?_
    refine (laneSum2_apply _ _ _ _ p col).trans ?_
    refine Finset.sum_congr rfl fun q _ => ?_
    refine (oneHotVec2_apply x _ _ _ _ p q col).trans ?_
    rfl
  | ⟨1, _⟩ =>
    refine (if_neg (show ¬(1 : ℕ) = 0 by omega)).trans ?_
    refine (if_pos rfl).trans ?_
    refine (midUnit2_apply _ _ p 0 col).trans ?_
    refine (laneSum2_apply _ _ _ _ p col).trans ?_
    refine Finset.sum_congr rfl fun q _ => ?_
    refine (mulf_apply _ _ _).trans ?_
    rw [oneHotVec2_apply x _ _ _ _ p q col, spreadCols2_apply]
    show (if (x (ix2 p q)).toInt = (col.val : ℤ) then (1 : EReal) else 0) * Cert.Spec.code (x (ix2 p q)) = _
    split
    · rw [one_mul]; rfl
    · rw [zero_mul]
  | ⟨2, _⟩ =>
    refine (if_neg (show ¬(2 : ℕ) = 0 by omega)).trans ?_
    refine (if_neg (show ¬(2 : ℕ) = 1 by omega)).trans ?_
    refine (midUnit2_apply _ _ p 0 col).trans ?_
    refine (laneSum2_apply _ _ _ _ p col).trans ?_
    refine Finset.sum_congr rfl fun q _ => ?_
    refine (mulf_apply _ _ _).trans ?_
    rw [oneHotVec2_apply x _ _ _ _ p q col, spreadCols2_apply]
    show (if (x (ix2 p q)).toInt = (col.val : ℤ) then (1 : EReal) else 0)
      * (Cert.Spec.code (x (ix2 p q)) * Cert.Spec.code (x (ix2 p q))) = _
    split
    · rw [one_mul]; rfl
    · rw [zero_mul]

/-! ## The row's tokens as tiles -/

/-- The 1024 tokens of a row are 8 tiles of 128: a sum over the row is the sum over the tiles of the sums inside each. -/
theorem sum_tokenTiles2 {M : Type*} [AddCommMonoid M] (g : Fin 1024 → M) :
    ∑ t : Fin 1024, g t = ∑ j : Fin 8, ∑ q : Fin 128, g ⟨128 * j.val + q.val, by omega⟩ := by
  have e : ∑ t : Fin 1024, g t = ∑ x : Fin 8 × Fin 128, g (finProdFinEquiv x) :=
    (Equiv.sum_comp (finProdFinEquiv (m := 8) (n := 128)) g).symm
  rw [e, Fintype.sum_prod_type]
  refine Finset.sum_congr rfl fun j _ => Finset.sum_congr rfl fun q _ => congrArg g (Fin.ext ?_)
  show q.val + 128 * j.val = 128 * j.val + q.val
  omega

/-- What the tokens of tile `j` of row `r` add to plane `k`, column `col`. -/
def tileAgg2 (cat : S2048x1024.Idx → BitVec 32) (k : ℕ) (r : Fin 2048) (col : ℕ) (j : Fin 8) : EReal :=
  ∑ q : Fin 128, if (cat (ix2 r ⟨128 * j.val + q.val, by omega⟩)).toInt = (col : ℤ)
    then wt2 k (cat (ix2 r ⟨128 * j.val + q.val, by omega⟩)) else 0

/-- The statistics of a row are the eight tiles' contributions added up. -/
theorem catPlane_eq_tiles2 (cat : S2048x1024.Idx → BitVec 32) (k : ℕ) (r : Fin 2048) (col : ℕ) :
    Cert.Spec.catPlane k cat r col = ∑ j : Fin 8, tileAgg2 cat k r col j := by
  have e : Cert.Spec.catPlane k cat r col = Cert.Spec.catAgg (wt2 k) cat r col := by
    unfold Cert.Spec.catPlane Cert.Spec.catCnt Cert.Spec.catSum Cert.Spec.catSq wt2
    split_ifs <;> rfl
  rw [e]
  unfold Cert.Spec.catAgg tileAgg2
  exact sum_tokenTiles2 _

end Cert.KernelIdeal.Hand

end
-- ==== Proof.KIValue2.lean ====
/-
  What call 2 leaves in its output array, read at an index, at the ideal instance: the plain sums of `Spec`.
-/
import proofs.«431486_j85761906967230_1_alg».proof.Proof.KIBlocks
import proofs.«431486_j85761906967230_1_alg».proof.Proof.Spec
import proofs.«431486_j85761906967230_1_alg».proof.Proof.KIValue2Pay
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! The grid runs over batch tiles of 32 rows and, inside each, over 8 token tiles of 128. The input block at a point is
    the point's 32 rows and 128 tokens of the code array; the output block is the batch tile's 32 rows, all 3 planes and
    all 128 columns, the same block for the 8 token tiles, written back after the last of them. By induction on the token
    tile, the buffer after tile `j` holds the contributions of tiles 0 … j of its rows; after the last tile that is the
    specification's sum over the row's 1024 tokens; and the blocks written back cover the array, each row lying in the
    block of its batch tile. -/

/-! ## The printed index maps, decided over the grid -/

/-- At point `t` the input block is block (t / 8, t % 8) and the output block is block (t / 8, 0, 0). -/
theorem idx_facts2 : ∀ t : Fin cfg2.N, win2_0.index t (0 : Fin 2) = t.val / 8 ∧ win2_0.index t (1 : Fin 2) = t.val % 8
    ∧ win2_1.index t (0 : Fin 3) = t.val / 8 ∧ win2_1.index t (1 : Fin 3) = 0 ∧ win2_1.index t (2 : Fin 3) = 0 :=
  (by decide +kernel : ∀ t : Fin grid2.N, _)

/-! ## The input block at a point -/

/-- The input block at point `t`, at (p, q), is the code array at row 32·(t / 8) + p, token 128·(t % 8) + q. -/
theorem blk2_in_apply (c : Dev nD) (t : Fin cfg2.N) (p : Fin 32) (q : Fin 128) (r : Fin 2048) (s : Fin 1024)
    (hr : r.val = 32 * (t.val / 8) + p.val) (hs : s.val = 128 * (t.val % 8) + q.val) :
    (blk2 (F := Ideal) V c 0 t : S32x128.Idx → BitVec 32) (ix2 p q)
      = (V c main_arg2 : S2048x1024.Idx → BitVec 32) (ix2 r s) := by
  obtain ⟨e0, e1, -, -, -⟩ := idx_facts2 t
  unfold blk2
  rw [View.read_apply]
  show V c main_arg2 _ = V c main_arg2 _
  congr 1
  funext a
  apply Fin.ext
  match a with
  | ⟨0, _⟩ => show win2_0.index t (0 : Fin 2) * 32 + 1 * p.val = r.val; rw [e0, hr]; omega
  | ⟨1, _⟩ => show win2_0.index t (1 : Fin 2) * 128 + 1 * q.val = s.val; rw [e1, hs]; omega

/-! ## The accumulation over the token tiles of a batch tile -/

/-- The buffer after a point does not depend on how the point's number is written. -/
theorem accAt2_congr (c : Dev nD) (n n' : ℕ) (h : n < cfg2.N) (h' : n' < cfg2.N) (e : n = n') :
    accAt2 V c n h = accAt2 V c n' h' := by subst e; rfl

/-- The zero block the first token tile starts from reads zero everywhere. -/
theorem zeroBlk2_apply (i : S32x3x128.Idx) : (k2_pay1 (F := Ideal) : S32x3x128.Idx → EReal) i = 0 := by
  show Ideal.ofBits .f32 0x00000000#32 = 0
  exact Ideal.ofBits_zero_f32

/-- What the tokens of the input block at point `t` add, at (p, k, col): the contribution of tile t % 8 of row 32·(t / 8) + p. -/
theorem blk2_agg (c : Dev nD) (t : Fin cfg2.N) (p : Fin 32) (k : Fin 3) (col : Fin 128) (r : Fin 2048) (j : Fin 8)
    (hr : r.val = 32 * (t.val / 8) + p.val) (hj : j.val = t.val % 8) :
    (∑ q : Fin 128, if ((blk2 (F := Ideal) V c 0 t : S32x128.Idx → BitVec 32) (ix2 p q)).toInt = (col.val : ℤ)
        then wt2 k.val ((blk2 (F := Ideal) V c 0 t : S32x128.Idx → BitVec 32) (ix2 p q)) else 0)
      = tileAgg2 (V c main_arg2) k.val r col.val j := by
  unfold tileAgg2
  refine Finset.sum_congr rfl fun q _ => ?_
  rw [blk2_in_apply V c t p q r ⟨128 * j.val + q.val, by omega⟩ hr (by show 128 * j.val + q.val = _; rw [hj])]

/-- THE INVARIANT: after token tile `j` of batch tile `b` the buffer holds, at (p, k, col), the contributions of tiles
    0 … j of row 32·b + p. -/
theorem accAt2_apply (c : Dev nD) (b : ℕ) (p : Fin 32) (k : Fin 3) (col : Fin 128) (r : Fin 2048)
    (hr : r.val = 32 * b + p.val) :
    ∀ (j : ℕ) (hj : j < 8) (h : 8 * b + j < cfg2.N),
      (accAt2 (F := Ideal) V c (8 * b + j) h : S32x3x128.Idx → EReal) (ix3 p k col)
        = ∑ jj : Fin (j + 1), tileAgg2 (V c main_arg2) k.val r col.val ⟨jj.val, by omega⟩
  | 0, hj, h => by
    have h0 : (⟨8 * b + 0, h⟩ : Fin cfg2.N).val % 8 = 0 := by show (8 * b + 0) % 8 = 0; omega
    refine (congrFun (accAt2_first V c ⟨8 * b + 0, h⟩ h0) (ix3 p k col)).trans ?_
    unfold catFirst2
    refine (catPay2_apply _ _ p k col).trans ?_
    rw [zeroBlk2_apply, zero_add, Fin.sum_univ_one]
    exact blk2_agg V c ⟨8 * b + 0, h⟩ p k col r ⟨0, by omega⟩ (by show r.val = 32 * ((8 * b + 0) / 8) + p.val; omega)
      (by show 0 = (8 * b + 0) % 8; omega)
  | j + 1, hj, h => by
    have h0 : ¬(⟨8 * b + (j + 1), h⟩ : Fin cfg2.N).val % 8 = 0 := by show ¬(8 * b + (j + 1)) % 8 = 0; omega
    refine (congrFun (accAt2_next V c ⟨8 * b + (j + 1), h⟩ h0) (ix3 p k col)).trans ?_
    unfold catNext2
    refine (catPay2_apply _ _ p k col).trans ?_
    rw [accAt2_congr V c _ (8 * b + j) _ (by omega) (by show 8 * b + (j + 1) - 1 = 8 * b + j; omega),
      accAt2_apply c b p k col r hr j (by omega) (by omega), Fin.sum_univ_castSucc (n := j + 1)]
    refine congrArg₂ (· + ·) rfl ?_
    exact blk2_agg V c ⟨8 * b + (j + 1), h⟩ p k col r ⟨j + 1, by omega⟩
      (by show r.val = 32 * ((8 * b + (j + 1)) / 8) + p.val; omega) (by show j + 1 = (8 * b + (j + 1)) % 8; omega)

/-! ## What the last token tile of a batch tile leaves -/

/-- After the last token tile (t % 8 = 7) the buffer holds, at (p, k, col), the statistic of row 32·(t / 8) + p. -/
theorem lastTile2_apply (c : Dev nD) (t : Fin cfg2.N) (h7 : t.val % 8 = 7) (p : Fin 32) (k : Fin 3) (col : Fin 128)
    (r : Fin 2048) (hr : r.val = 32 * (t.val / 8) + p.val) :
    (accAt2 (F := Ideal) V c t.val t.isLt : S32x3x128.Idx → EReal) (ix3 p k col)
      = Cert.Spec.catPlane k.val (V c main_arg2 : S2048x1024.Idx → BitVec 32) r col.val := by
  have ht := t.isLt
  rw [accAt2_congr V c t.val (8 * (t.val / 8) + 7) t.isLt (by omega) (by omega),
    accAt2_apply V c (t.val / 8) p k col r hr 7 (by omega) (by omega), catPlane_eq_tiles2]

/-! ## From blocks to the array -/

/-- The array the call leaves: at (r, k, col) the specification's statistic of row `r`. -/
def catArr2 (c : Dev nD) : S2048x3x128.Idx → EReal :=
  fun i => Cert.Spec.catPlane (i 1).val (V c main_arg2 : S2048x1024.Idx → BitVec 32) (i 0) (i 2).val

/-- The same, at an index of the block and the index of the array under it. -/
theorem lastTile2_point (c : Dev nD) (t : Fin cfg2.N) (h7 : t.val % 8 = 7) (y : S32x3x128.Idx) (i : S2048x3x128.Idx)
    (h0 : (i 0).val = 32 * (t.val / 8) + (y 0).val) (h1 : (i 1).val = (y 1).val) (h2 : (i 2).val = (y 2).val) :
    (accAt2 (F := Ideal) V c t.val t.isLt : S32x3x128.Idx → EReal) y = catArr2 V c i := by
  obtain ⟨p, k, col, rfl⟩ : ∃ (p : Fin 32) (k : Fin 3) (col : Fin 128), y = ix3 p k col := ⟨y 0, y 1, y 2, eq_ix3 y⟩
  obtain ⟨r, k', col', rfl⟩ : ∃ (r : Fin 2048) (k' : Fin 3) (col' : Fin 128), i = ix3 r k' col' := ⟨i 0, i 1, i 2, eq_ix3 i⟩
  obtain rfl : k' = k := Fin.ext h1
  obtain rfl : col' = col := Fin.ext h2
  exact lastTile2_apply V c t h7 p k' col' r h0

/-- WHAT A WRITE-BACK WRITES is its block of that array. -/
theorem flushed2_eq (c : Dev nD) (t : Fin cfg2.N) (hf : (cfg2.win 1).flush t = true) :
    (dat2 (F := Ideal) V c).flushed 1 t = ((cfg2.win 1).blk t).view.read (Elt Ideal) (catArr2 V c) := by
  have h7 : t.val % 8 = 7 := (flush2_1 t).mp hf
  obtain ⟨-, -, e0, e1, e2⟩ := idx_facts2 t
  show (cfg2.win 1).cut (grid2.coords t) ((dat2 (F := Ideal) V c).after 1 t) = _
  rw [dat2_after_out]
  funext y
  show (accAt2 (F := Ideal) V c t.val t.isLt : S32x3x128.Idx → EReal) y = catArr2 V c (((cfg2.win 1).blk t).view.emb y)
  refine lastTile2_point V c t h7 y (((cfg2.win 1).blk t).view.emb y) ?_ ?_ ?_
  · show win2_1.index t (0 : Fin 3) * 32 + 1 * (y 0).val = 32 * (t.val / 8) + (y 0).val
    rw [e0]; omega
  · show win2_1.index t (1 : Fin 3) * 3 + 1 * (y 1).val = (y 1).val
    rw [e1]; omega
  · show win2_1.index t (2 : Fin 3) * 128 + 1 * (y 2).val = (y 2).val
    rw [e2]; omega

/-- Every row lies in the block the last token tile of its batch tile writes back. -/
theorem cover2 (i : S2048x3x128.Idx) :
    ∃ t : Fin cfg2.N, (cfg2.win 1).flush t = true ∧ i ∈ ((cfg2.win 1).blk t).view.set := by
  have hN : cfg2.N = 8 * (2048 / 32) := N_2
  have hi0 : (i 0).val < 2048 := (i 0).isLt
  have hi1 : (i 1).val < 3 := (i 1).isLt
  have hi2 : (i 2).val < 128 := (i 2).isLt
  have ht : 8 * ((i 0).val / 32) + 7 < cfg2.N := by omega
  have e0 : win2_1.index ⟨8 * ((i 0).val / 32) + 7, ht⟩ (0 : Fin 3) = (8 * ((i 0).val / 32) + 7) / 8 := (idx_facts2 _).2.2.1
  have e1 : win2_1.index ⟨8 * ((i 0).val / 32) + 7, ht⟩ (1 : Fin 3) = 0 := (idx_facts2 _).2.2.2.1
  have e2 : win2_1.index ⟨8 * ((i 0).val / 32) + 7, ht⟩ (2 : Fin 3) = 0 := (idx_facts2 _).2.2.2.2
  refine ⟨⟨8 * ((i 0).val / 32) + 7, ht⟩, (flush2_1 _).mpr (by show (8 * ((i 0).val / 32) + 7) % 8 = 7; omega), ?_⟩
  show i ∈ ((View.whole main_v22).slice (win2_1.rect ⟨8 * ((i 0).val / 32) + 7, ht⟩)).set
  rw [View.set_slice_whole, Rect.mem_set_unit]
  intro a
  match a with
  | ⟨0, _⟩ =>
    show win2_1.index ⟨8 * ((i 0).val / 32) + 7, ht⟩ (0 : Fin 3) * 32 ≤ (i 0).val
      ∧ (i 0).val < win2_1.index ⟨8 * ((i 0).val / 32) + 7, ht⟩ (0 : Fin 3) * 32 + 32
    rw [e0]; omega
  | ⟨1, _⟩ =>
    show win2_1.index ⟨8 * ((i 0).val / 32) + 7, ht⟩ (1 : Fin 3) * 3 ≤ (i 1).val
      ∧ (i 1).val < win2_1.index ⟨8 * ((i 0).val / 32) + 7, ht⟩ (1 : Fin 3) * 3 + 3
    rw [e1]; omega
  | ⟨2, _⟩ =>
    show win2_1.index ⟨8 * ((i 0).val / 32) + 7, ht⟩ (2 : Fin 3) * 128 ≤ (i 2).val
      ∧ (i 2).val < win2_1.index ⟨8 * ((i 0).val / 32) + 7, ht⟩ (2 : Fin 3) * 128 + 128
    rw [e2]; omega

/-- After the last grid point the category-statistics array of `tr_type` holds, at row `r`, plane `k`, column `col`,
    the count (plane 0), the sum of codes (plane 1) or the sum of squared codes (plane 2) over the row's tokens whose
    code is `col`. -/
theorem final2 (c : Dev nD) (r : Fin 2048) (k : Fin 3) (col : Fin 128) :
    ((dat2 (F := Ideal) V c).arrAt 1 cfg2.N : S2048x3x128.Idx → EReal) (ix3 r k col)
      = Cert.Spec.catPlane k.val (V c main_arg2 : S2048x1024.Idx → BitVec 32) r col.val :=
  congrFun ((dat2 (F := Ideal) V c).arrAt_eq_of_cover 1 (catArr2 V c) (flushed2_eq V c) cover2) (ix3 r k col)

end Cert.KernelIdeal.Hand

end
-- ==== Proof.KILeaves.lean ====
/-
  The kernel program's leaves read at an index: a column of the row statistics at row `r` is the array's entry
  `(r, column)`; plane `k` cut to the real categories at `(r, col)` is the array's entry `(r, k, col)`.
-/
import proofs.«431486_j85761906967230_1_alg».proof.Proof.KILeafDefs
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-! ## A unit axis dropped by a reshape

A reshape keeps the row-major position. When the dropped axis has extent 1 its coordinate is 0 and contributes nothing to
the position, so the entry at the shorter index is the operand's entry with a 0 put back on that axis. -/

/-- An `[n, 1]` array reshaped to `[n]` reads, at `r`, the operand at `(r, 0)`: both positions are `r`. -/
theorem cast_dropLastUnit {α : Type} {n : ℕ} (x : (⟨2, ![n, 1]⟩ : Shape).Idx → α)
    (h : (⟨2, ![n, 1]⟩ : Shape).ShapeCasts ⟨1, ![n]⟩) (r : Fin n) :
    shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[n, 1, m]` array reshaped to `[n, m]` reads, at `(r, c)`, the operand at `(r, 0, c)`: both positions are
    `r · m + c`. -/
theorem cast_dropMiddleUnit {α : Type} {n m : ℕ} (x : (⟨3, ![n, 1, m]⟩ : Shape).Idx → α)
    (h : (⟨3, ![n, 1, m]⟩ : Shape).ShapeCasts ⟨2, ![n, m]⟩) (r : Fin n) (c : Fin m) :
    shapeCast ⟨2, ![n, m]⟩ x h (ix2 r c) = x (ix3 r (0 : Fin 1) c) :=
  shapeCast_apply x h _ _ (by
    rw [Shape.rowMajor_val_three, Shape.rowMajor_val_two]
    show (r.val * 1 + 0) * m + c.val = r.val * m + c.val
    rw [Nat.mul_one, Nat.add_zero])

/-! ## One plane of a rank-3 array, cut to its leading columns -/

/-- A slice of an `[n0, n1, n2]` array that starts at `(0, o, 0)` and has extents `[n0, 1, m]` keeps every row, the one
    plane `o` of the middle axis, and the first `m` columns: at `(r, 0, c)` it reads the source at `(r, o, c)`. -/
theorem slice_plane_apply {α : Type} {n0 n1 n2 m : ℕ} (o : ℕ) (X : (⟨3, ![n0, n1, n2]⟩ : Shape).Idx → α)
    (h : (⟨3, ![n0, n1, n2]⟩ : Shape).Slices ![0, o, 0] ⟨3, ![n0, 1, m]⟩)
    (r : Fin n0) (c : Fin m) (k : Fin n1) (hk : k.val = o) (c' : Fin n2) (hc : c'.val = c.val) :
    extractStridedSlice ⟨3, ![n0, 1, m]⟩ ![0, o, 0] X h (ix3 r (0 : Fin 1) c) = X (ix3 r k c') :=
  extractStridedSlice_apply _ _ _ _ _ (fun ax => by
    match ax with
    | ⟨0, _⟩ => exact (Nat.zero_add _).symm
    | ⟨1, _⟩ => exact hk.trans (Nat.add_zero _).symm
    | ⟨2, _⟩ => exact hc.trans (Nat.zero_add _).symm)

/-! ## The leaves at an index -/

theorem kS_apply (rs : FVec F S2048x2 .f32) (r : Fin 2048) : kS rs (ix1 r) = rs (ix2 r 0) := by
  unfold kS
  exact (cast_dropLastUnit _ _ r).trans (slice2_axis1_apply 0 rs _ r (0 : Fin 1) (0 : Fin 2) rfl)
theorem kSq_apply (rs : FVec F S2048x2 .f32) (r : Fin 2048) : kSq rs (ix1 r) = rs (ix2 r 1) := by
  unfold kSq
  exact (cast_dropLastUnit _ _ r).trans (slice2_axis1_apply 1 rs _ r (0 : Fin 1) (1 : Fin 2) rfl)
theorem kPlane200_apply (k : Fin 3) (a : FVec F S2048x3x256 .f32) (r : Fin 2048) (col : Fin 200) :
    kPlane200 k a (ix2 r col) = a (ix3 r k ⟨col.val, by omega⟩) := by
  match k with
  | 0 => exact (cast_dropMiddleUnit _ _ r col).trans (slice_plane_apply 0 a _ r col 0 rfl _ rfl)
  | 1 => exact (cast_dropMiddleUnit _ _ r col).trans (slice_plane_apply 1 a _ r col 1 rfl _ rfl)
  | 2 => exact (cast_dropMiddleUnit _ _ r col).trans (slice_plane_apply 2 a _ r col 2 rfl _ rfl)
theorem kPlane100_apply (k : Fin 3) (a : FVec F S2048x3x128 .f32) (r : Fin 2048) (col : Fin 100) :
    kPlane100 k a (ix2 r col) = a (ix3 r k ⟨col.val, by omega⟩) := by
  match k with
  | 0 => exact (cast_dropMiddleUnit _ _ r col).trans (slice_plane_apply 0 a _ r col 0 rfl _ rfl)
  | 1 => exact (cast_dropMiddleUnit _ _ r col).trans (slice_plane_apply 1 a _ r col 1 rfl _ rfl)
  | 2 => exact (cast_dropMiddleUnit _ _ r col).trans (slice_plane_apply 2 a _ r col 2 rfl _ rfl)

end Cert.KernelIdeal.Hand

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.LibPointScatter.lean ====
/-
  The host's accumulating scatter in the shape the point update `z.at[rows, cols].add(u)` of a rank-2 array lowers
  to, READ AT AN INDEX at the ideal instance, for any sizes: the operand is `[N, C]`, the updates are `[E, T]`, and
  the scatter indices are `[E, T, 2]`, a pair (row word, column word) for every update; both operand axes are
  indexed and no window is carried. The result at `(i, f)` is the operand's element plus the sum of the updates
  whose row word, read signed, is exactly `i` and whose column word, read signed, is exactly `f`; an update one of
  whose words is negative or at or past its axis's extent meets no `(i, f)` and is dropped.
  With it: the pair array as it is built, two `[E, T, 1]` arrays laid side by side along the last axis, read at
  either component; the two broadcasts that bring a column `[E, 1]` and a matrix `[E, T]` to that `[E, T, 1]` form,
  read at an index; and the case where every update's row word is its own row number (the rows are an iota), in
  which row `i` of the result only collects from row `i` of the updates: the sum runs over the columns `t` whose
  column word is `f`.
  Each lemma is stated for ANY dimension-number record of the given type whose fields are the listed ones.
-/
import Idealize.ShloMosaic.PureOps.Ideal
import Idealize.ShloMosaic.Lib.ValueIdx
import Idealize.ShloMosaic.Lib.Pipeline.Value
import Mathlib.Algebra.BigOperators.Group.Finset.Basic
import proofs.«431486_j85761906967230_1_alg».proof.Proof.LibGatherScatter

set_option maxRecDepth 16384

noncomputable section

namespace Cert.LibPointScatter

open Idealize.ShloMosaic Idealize.ShloMosaic.ValueIdx
open Cert.LibGatherScatter
open scoped BigOperators

/-! ## The point scatter-add: `[N, C]` at pairs `[E, T, 2]` of scatter indices, updates `[E, T]` -/

section Point
variable {N C E T : Nat} (d : ScatterDims ⟨2, ![N, C]⟩ ⟨3, ![E, T, 2]⟩ ⟨2, ![E, T]⟩)
  (huw : d.updateWindowDims = []) (hiw : d.insertedWindowDims = [0, 1])
  (hsd : d.scatterDimsToOperandDims = [0, 1]) (hivd : d.indexVectorDim = 2)
include huw hiw hsd hivd

/-- Update `j`'s start on the row axis is the signed value of the first word of its pair. -/
theorem startP_row {w : Nat} (idx : IVec ⟨3, ![E, T, 2]⟩ w) (j : (⟨2, ![E, T]⟩ : Shape).Idx) :
    d.start j idx 0 = (idx (ix3 (j 0) (j 1) 0)).toInt := by
  obtain ⟨uw, iw, sd, iv, wf⟩ := d
  simp only at huw hiw hsd hivd
  subst huw hiw hsd hivd
  unfold ScatterDims.start
  rw [dif_pos (List.mem_cons_self)]
  congr 2
  funext b
  apply Fin.ext
  match b with
  | ⟨0, _⟩ => rfl
  | ⟨1, _⟩ => rfl
  | ⟨2, _⟩ => rfl

/-- Update `j`'s start on the column axis is the signed value of the second word of its pair. -/
theorem startP_col {w : Nat} (idx : IVec ⟨3, ![E, T, 2]⟩ w) (j : (⟨2, ![E, T]⟩ : Shape).Idx) :
    d.start j idx 1 = (idx (ix3 (j 0) (j 1) 1)).toInt := by
  obtain ⟨uw, iw, sd, iv, wf⟩ := d
  simp only at huw hiw hsd hivd
  subst huw hiw hsd hivd
  unfold ScatterDims.start
  rw [dif_pos (List.mem_cons_of_mem _ List.mem_cons_self)]
  congr 2
  funext b
  apply Fin.ext
  match b with
  | ⟨0, _⟩ => rfl
  | ⟨1, _⟩ => rfl
  | ⟨2, _⟩ => rfl

/-- Both operand axes are inserted ones: no window coordinate on either. -/
theorem windowP (j : (⟨2, ![E, T]⟩ : Shape).Idx) (a : Fin 2) : d.window j a = 0 := by
  obtain ⟨uw, iw, sd, iv, wf⟩ := d
  simp only at huw hiw hsd hivd
  subst huw hiw hsd hivd
  unfold ScatterDims.window
  rw [dif_neg]
  match a with
  | ⟨0, _⟩ => simp [ScatterDims.sKept, Shape.kept]
  | ⟨1, _⟩ => simp [ScatterDims.sKept, Shape.kept]

/-- Update `j` lands at `i` exactly when its pair of words, read signed, is `i`'s pair of coordinates. -/
theorem resultIdxP_eq_some_iff {w : Nat} (idx : IVec ⟨3, ![E, T, 2]⟩ w) (j : (⟨2, ![E, T]⟩ : Shape).Idx)
    (i : (⟨2, ![N, C]⟩ : Shape).Idx) :
    d.resultIdx? j idx = some i ↔
      (idx (ix3 (j 0) (j 1) 0)).toInt = ((i 0).val : ℤ) ∧ (idx (ix3 (j 0) (j 1) 1)).toInt = ((i 1).val : ℤ) := by
  rw [resultIdx?_eq_some_iff]
  constructor
  · intro h
    have h0 := h 0
    have h1 := h 1
    rw [startP_row d huw hiw hsd hivd, windowP d huw hiw hsd hivd] at h0
    rw [startP_col d huw hiw hsd hivd, windowP d huw hiw hsd hivd] at h1
    exact ⟨by simpa using h0, by simpa using h1⟩
  · rintro ⟨h0, h1⟩ a
    match a with
    | ⟨0, _⟩ =>
      show d.start j idx 0 + (d.window j 0 : ℤ) = ((i 0).val : ℤ)
      rw [startP_row d huw hiw hsd hivd, windowP d huw hiw hsd hivd]
      simpa using h0
    | ⟨1, _⟩ =>
      show d.start j idx 1 + (d.window j 1 : ℤ) = ((i 1).val : ℤ)
      rw [startP_col d huw hiw hsd hivd, windowP d huw hiw hsd hivd]
      simpa using h1

/-- THE POINT SCATTER-ADD READ AT `(i, f)`: the operand's element plus the sum of the updates `(e, t)` whose row
    word, read signed, is exactly `i` and whose column word, read signed, is exactly `f` (a word below `0` or at or
    past its axis's extent meets no coordinate: that update is dropped). -/
theorem scatterAddPoint_apply {φ : FTy}
    (x : FVec Ideal ⟨2, ![N, C]⟩ φ) (idx : IVec ⟨3, ![E, T, 2]⟩ 32) (upd : FVec Ideal ⟨2, ![E, T]⟩ φ)
    (i : Fin N) (f : Fin C) :
    Host.scatterAdd (F := Ideal) d x idx upd (ix2 i f)
      = x (ix2 i f) + ∑ j ∈ Finset.univ.filter (fun j : Fin E × Fin T =>
          (idx (ix3 j.1 j.2 0)).toInt = (i.val : ℤ) ∧ (idx (ix3 j.1 j.2 1)).toInt = (f.val : ℤ)),
          upd (ix2 j.1 j.2) := by
  show x (ix2 i f) + ∑ j ∈ Finset.univ.filter (fun j => d.resultIdx? j idx = some (ix2 i f)), upd j = _
  congr 1
  -- an update index is the pair of its coordinates
  refine Finset.sum_nbij' (fun j => ((j 0, j 1) : Fin E × Fin T)) (fun p => ix2 p.1 p.2) ?_ ?_ ?_ ?_ ?_
  · intro j hj
    exact Finset.mem_filter.mpr ⟨Finset.mem_univ _,
      (resultIdxP_eq_some_iff d huw hiw hsd hivd idx j (ix2 i f)).mp (Finset.mem_filter.mp hj).2⟩
  · intro p hp
    exact Finset.mem_filter.mpr ⟨Finset.mem_univ _,
      (resultIdxP_eq_some_iff d huw hiw hsd hivd idx (ix2 p.1 p.2) (ix2 i f)).mpr (Finset.mem_filter.mp hp).2⟩
  · intro j _
    exact (eq_ix2 j).symm
  · intro p _
    rfl
  · intro j _
    exact congrArg upd (eq_ix2 j)

end Point

/-! ## Rows given by an iota: row `i` collects from row `i` of the updates alone -/

/-- When every update's row word is its own row number, the point scatter-add at `(i, f)` is the operand's element
    plus the sum, over the columns `t` of the updates' row `i` whose column word, read signed, is exactly `f`, of
    the update `(i, t)`. -/
theorem scatterAddPoint_iotaRows_apply {N C T : Nat} (d : ScatterDims ⟨2, ![N, C]⟩ ⟨3, ![N, T, 2]⟩ ⟨2, ![N, T]⟩)
    (huw : d.updateWindowDims = []) (hiw : d.insertedWindowDims = [0, 1])
    (hsd : d.scatterDimsToOperandDims = [0, 1]) (hivd : d.indexVectorDim = 2) {φ : FTy}
    (x : FVec Ideal ⟨2, ![N, C]⟩ φ) (idx : IVec ⟨3, ![N, T, 2]⟩ 32) (upd : FVec Ideal ⟨2, ![N, T]⟩ φ)
    (hrow : ∀ (e : Fin N) (t : Fin T), (idx (ix3 e t 0)).toInt = (e.val : ℤ)) (i : Fin N) (f : Fin C) :
    Host.scatterAdd (F := Ideal) d x idx upd (ix2 i f)
      = x (ix2 i f) + ∑ t ∈ Finset.univ.filter (fun t : Fin T => (idx (ix3 i t 1)).toInt = (f.val : ℤ)),
          upd (ix2 i t) := by
  rw [scatterAddPoint_apply d huw hiw hsd hivd]
  congr 1
  -- a pair (e, t) that passes the filter has e = i: its row word is e
  have hfst : ∀ p : Fin N × Fin T, (idx (ix3 p.1 p.2 0)).toInt = (i.val : ℤ) → p.1 = i := fun p hp => by
    rw [hrow] at hp
    exact Fin.ext (by exact_mod_cast hp)
  refine Finset.sum_nbij' (fun p => p.2) (fun t => (i, t)) ?_ ?_ ?_ ?_ ?_
  · intro p hp
    have h := (Finset.mem_filter.mp hp).2
    have e := hfst p h.1
    refine Finset.mem_filter.mpr ⟨Finset.mem_univ _, ?_⟩
    rw [← e]
    exact h.2
  · intro t ht
    exact Finset.mem_filter.mpr ⟨Finset.mem_univ _, hrow i t, (Finset.mem_filter.mp ht).2⟩
  · intro p hp
    have e := hfst p (Finset.mem_filter.mp hp).2.1
    exact Prod.ext e.symm rfl
  · intro t _
    rfl
  · intro p hp
    have e := hfst p (Finset.mem_filter.mp hp).2.1
    rw [e]

/-! ## The array of pairs and the arrays it is built from, read at an index -/

section Build
variable {α : Type} {E T : Nat}

/-- Two `[E, T, 1]` arrays laid side by side along the last axis: the pair's first component is the first array. -/
theorem concat_pair_apply_fst (h : Shape.Concatenates [⟨3, ![E, T, 1]⟩, ⟨3, ![E, T, 1]⟩] ⟨3, ![E, T, 2]⟩ 2)
    (a b : (⟨3, ![E, T, 1]⟩ : Shape).Idx → α) (e : Fin E) (t : Fin T) :
    concatenate ⟨3, ![E, T, 2]⟩ 2 [⟨⟨3, ![E, T, 1]⟩, a⟩, ⟨⟨3, ![E, T, 1]⟩, b⟩] h (ix3 e t 0) = a (ix3 e t 0) := by
  refine concatenate_pair_apply_left 2 a b h (ix3 e t 0) rfl (ix3 e t 0) ?_
  intro c
  match c with
  | ⟨0, _⟩ => rfl
  | ⟨1, _⟩ => rfl
  | ⟨2, _⟩ => rfl

/-- Two `[E, T, 1]` arrays laid side by side along the last axis: the pair's second component is the second array. -/
theorem concat_pair_apply_snd (h : Shape.Concatenates [⟨3, ![E, T, 1]⟩, ⟨3, ![E, T, 1]⟩] ⟨3, ![E, T, 2]⟩ 2)
    (a b : (⟨3, ![E, T, 1]⟩ : Shape).Idx → α) (e : Fin E) (t : Fin T) :
    concatenate ⟨3, ![E, T, 2]⟩ 2 [⟨⟨3, ![E, T, 1]⟩, a⟩, ⟨⟨3, ![E, T, 1]⟩, b⟩] h (ix3 e t 1) = b (ix3 e t 0) := by
  refine concatenate_pair_apply_right 2 a b h (ix3 e t 1) rfl rfl (ix3 e t 0) ?_ ?_
  · intro c hc
    match c with
    | ⟨0, _⟩ => rfl
    | ⟨1, _⟩ => rfl
    | ⟨2, _⟩ => exact absurd rfl hc
  · rfl

/-- A column `[E, 1]` repeated along a second axis of extent `T` reads, at `(e, t)`, the column at `e`. -/
theorem bcast_rows_apply (h : (⟨2, ![E, 1]⟩ : Shape).BroadcastsInDim ⟨2, ![E, T]⟩ ![0, 1])
    (v : (⟨2, ![E, 1]⟩ : Shape).Idx → α) (e : Fin E) (t : Fin T) :
    broadcastInDim ⟨2, ![E, T]⟩ ![0, 1] h v (ix2 e t) = v (ix2 e 0) := by
  unfold broadcastInDim
  congr 1
  funext a
  apply Fin.ext
  match a with
  | ⟨0, _⟩ =>
    split
    · rename_i h1
      have hE : E = 1 := h1
      have he := e.isLt
      show 0 = e.val
      omega
    · rfl
  | ⟨1, _⟩ => rfl

/-- A matrix `[E, T]` given a last axis of extent one reads, at `(e, t, 0)`, the matrix at `(e, t)`. -/
theorem bcast_unit_apply (h : (⟨2, ![E, T]⟩ : Shape).BroadcastsInDim ⟨3, ![E, T, 1]⟩ ![0, 1])
    (v : (⟨2, ![E, T]⟩ : Shape).Idx → α) (e : Fin E) (t : Fin T) (z : Fin 1) :
    broadcastInDim ⟨3, ![E, T, 1]⟩ ![0, 1] h v (ix3 e t z) = v (ix2 e t) := by
  unfold broadcastInDim
  congr 1
  funext a
  apply Fin.ext
  match a with
  | ⟨0, _⟩ =>
    split
    · rename_i h1
      have hE : E = 1 := h1
      have he := e.isLt
      show 0 = e.val
      omega
    · rfl
  | ⟨1, _⟩ =>
    split
    · rename_i h1
      have hT : T = 1 := h1
      have ht := t.isLt
      show 0 = t.val
      omega
    · rfl

end Build

end Cert.LibPointScatter

end
-- ==== Proof.RefLeaves.lean ====
/-
  The reference's aggregates read at an index, at the ideal instance: when no code is negative, the table entry at
  (row, category) is the sum of the updates of that row's tokens whose code is the category — the plain sums of `Spec`.
-/
import proofs.«431486_j85761906967230_1_alg».proof.Proof.RefLeafDefs
import proofs.«431486_j85761906967230_1_alg».proof.Proof.Spec
import proofs.«431486_j85761906967230_1_alg».proof.Proof.LibPointScatter
import proofs.«431486_j85761906967230_1_alg».proof.Proof.LibGatherScatter
import Idealize.ShloMosaic.PureOps.Ideal.Laws
import Idealize.ShloMosaic.Lib.ValueIdx
import Idealize.ShloMosaic.Lib.IdealHost

set_option maxRecDepth 16384

noncomputable section

namespace Cert.ReferenceIdeal.RefSide

open Cert.ReferenceIdeal Cert.ReferenceIdeal.Gen Idealize.ShloMosaic Idealize.ShloMosaic.TcCoe Idealize.ShloMosaic.ValueIdx
open Cert.LibGatherScatter Cert.LibPointScatter
open scoped BigOperators

/-! ## The index pairs read at an index -/

/-- A row number below 2048, written as a 32-bit word, reads back signed as itself. -/
theorem toInt_rowWord (r : Fin 2048) : (BitVec.ofNat 32 r.val).toInt = (r.val : ℤ) := by
  have h := r.isLt
  have hn : (BitVec.ofNat 32 r.val).toNat = r.val := by
    rw [BitVec.toNat_ofNat]
    exact Nat.mod_eq_of_lt (by omega)
  rw [BitVec.toInt_eq_toNat_of_lt (by rw [hn]; omega), hn]

/-- The row counter's column at row `r` is the word `r`. -/
theorem rowCounter_apply (r : Fin 2048) (z : Fin 1) : rowCounter (ix2 r z) = BitVec.ofNat 32 r.val := by
  unfold rowCounter
  rw [bcast_col_apply]
  rfl

/-- The row word of token `(r, t)` is the word `r`: the counter is never negative, so the wrap leaves it alone. -/
theorem rowPart_apply (r : Fin 2048) (t : Fin 1024) : rowPart (ix3 r t 0) = BitVec.ofNat 32 r.val := by
  unfold rowPart
  rw [bcast_unit_apply, bcast_rows_apply, wrap_apply, rowCounter_apply, wrapW_of_nonneg]
  rw [toInt_rowWord]
  exact Int.natCast_nonneg _

/-- The code word of token `(r, t)` is the input's entry when no code is negative: the wrap leaves it alone. -/
theorem codePart_apply (n : BitVec 32) (cat : IVec S2048x1024 32) (hcat : ∀ i, 0 ≤ (cat i).toInt)
    (r : Fin 2048) (t : Fin 1024) : codePart n cat (ix3 r t 0) = cat (ix2 r t) := by
  unfold codePart
  rw [bcast_unit_apply, wrap_apply, wrapW_of_nonneg (hcat _)]

/-- The first word of token `(r, t)`'s pair, read signed, is `r`. -/
theorem pairs_row (n : BitVec 32) (cat : IVec S2048x1024 32) (r : Fin 2048) (t : Fin 1024) :
    (pairs n cat (ix3 r t 0)).toInt = (r.val : ℤ) := by
  unfold pairs
  rw [concat_pair_apply_fst, rowPart_apply, toInt_rowWord]

/-- The second word of token `(r, t)`'s pair is its code, when no code is negative. -/
theorem pairs_col (n : BitVec 32) (cat : IVec S2048x1024 32) (hcat : ∀ i, 0 ≤ (cat i).toInt)
    (r : Fin 2048) (t : Fin 1024) : pairs n cat (ix3 r t 1) = cat (ix2 r t) := by
  unfold pairs
  rw [concat_pair_apply_snd, codePart_apply n cat hcat]

/-- The table the aggregates are added into is zero everywhere. -/
theorem zeros_apply {s : Shape} (h : S_.BroadcastsInDim s ![]) (i : s.Idx) :
    broadcastInDim s ![] h (constant (F := Ideal) S_ .f32 0x00000000#32) i = 0 := by
  rw [broadcastInDim_scalar_apply, constant_apply, Ideal.ofBits_zero_f32]

/-! ## The aggregates read at an index -/

theorem agg200_apply (cat : IVec S2048x1024 32) (hcat : ∀ i, 0 ≤ (cat i).toInt) (upd : FVec Ideal S2048x1024 .f32)
    (r : Fin 2048) (col : Fin 200) :
    agg200 (F := Ideal) cat upd (ix2 r col)
      = ∑ t : Fin 1024, if (cat (ix2 r t)).toInt = (col.val : ℤ) then upd (ix2 r t) else 0 := by
  unfold agg200
  -- every token's row word is its own row: row r of the table collects from row r of the updates alone
  rw [scatterAddPoint_iotaRows_apply scatter_S2048x200_S2048x1024x2_S2048x1024_n_01_01_2 rfl rfl rfl rfl _ _ upd
    (fun e t => pairs_row 200#32 cat e t) r col, zeros_apply, zero_add, Finset.sum_filter]
  refine Finset.sum_congr rfl fun t _ => ?_
  rw [pairs_col 200#32 cat hcat]

theorem agg100_apply (cat : IVec S2048x1024 32) (hcat : ∀ i, 0 ≤ (cat i).toInt) (upd : FVec Ideal S2048x1024 .f32)
    (r : Fin 2048) (col : Fin 100) :
    agg100 (F := Ideal) cat upd (ix2 r col)
      = ∑ t : Fin 1024, if (cat (ix2 r t)).toInt = (col.val : ℤ) then upd (ix2 r t) else 0 := by
  unfold agg100
  rw [scatterAddPoint_iotaRows_apply scatter_S2048x100_S2048x1024x2_S2048x1024_n_01_01_2 rfl rfl rfl rfl _ _ upd
    (fun e t => pairs_row 100#32 cat e t) r col, zeros_apply, zero_add, Finset.sum_filter]
  refine Finset.sum_congr rfl fun t _ => ?_
  rw [pairs_col 100#32 cat hcat]

/-! ## The three updates read at an index -/

/-- The count's update is one at every token. -/
theorem onesUpd_apply (i : S2048x1024.Idx) : onesUpd (F := Ideal) i = 1 := by
  unfold onesUpd
  rw [broadcastInDim_scalar_apply, constant_apply, Ideal.ofBits_one_f32]

/-- The sum's update at a token is its code as a number. -/
theorem codeUpd_apply (cat : IVec S2048x1024 32) (i : S2048x1024.Idx) :
    codeUpd (F := Ideal) cat i = Cert.Spec.code (cat i) := rfl

/-- The squares' update at a token is the square of its code. -/
theorem codeSqUpd_apply (cat : IVec S2048x1024 32) (i : S2048x1024.Idx) :
    codeSqUpd (F := Ideal) cat i = Cert.Spec.code (cat i) * Cert.Spec.code (cat i) := rfl

theorem cnt200_eq (cat : IVec S2048x1024 32) (hcat : ∀ i, 0 ≤ (cat i).toInt) (r : Fin 2048) (col : Fin 200) :
    agg200 (F := Ideal) cat onesUpd (ix2 r col) = Cert.Spec.catCnt cat r col.val := by
  rw [agg200_apply cat hcat]
  unfold Cert.Spec.catCnt Cert.Spec.catAgg
  refine Finset.sum_congr rfl fun t _ => ?_
  rw [onesUpd_apply]
theorem sum200_eq (cat : IVec S2048x1024 32) (hcat : ∀ i, 0 ≤ (cat i).toInt) (r : Fin 2048) (col : Fin 200) :
    agg200 (F := Ideal) cat (codeUpd cat) (ix2 r col) = Cert.Spec.catSum cat r col.val := by
  rw [agg200_apply cat hcat]
  unfold Cert.Spec.catSum Cert.Spec.catAgg
  refine Finset.sum_congr rfl fun t _ => ?_
  rw [codeUpd_apply]
theorem sq200_eq (cat : IVec S2048x1024 32) (hcat : ∀ i, 0 ≤ (cat i).toInt) (r : Fin 2048) (col : Fin 200) :
    agg200 (F := Ideal) cat (codeSqUpd cat) (ix2 r col) = Cert.Spec.catSq cat r col.val := by
  rw [agg200_apply cat hcat]
  unfold Cert.Spec.catSq Cert.Spec.catAgg
  refine Finset.sum_congr rfl fun t _ => ?_
  rw [codeSqUpd_apply]
theorem cnt100_eq (cat : IVec S2048x1024 32) (hcat : ∀ i, 0 ≤ (cat i).toInt) (r : Fin 2048) (col : Fin 100) :
    agg100 (F := Ideal) cat onesUpd (ix2 r col) = Cert.Spec.catCnt cat r col.val := by
  rw [agg100_apply cat hcat]
  unfold Cert.Spec.catCnt Cert.Spec.catAgg
  refine Finset.sum_congr rfl fun t _ => ?_
  rw [onesUpd_apply]
theorem sum100_eq (cat : IVec S2048x1024 32) (hcat : ∀ i, 0 ≤ (cat i).toInt) (r : Fin 2048) (col : Fin 100) :
    agg100 (F := Ideal) cat (codeUpd cat) (ix2 r col) = Cert.Spec.catSum cat r col.val := by
  rw [agg100_apply cat hcat]
  unfold Cert.Spec.catSum Cert.Spec.catAgg
  refine Finset.sum_congr rfl fun t _ => ?_
  rw [codeUpd_apply]
theorem sq100_eq (cat : IVec S2048x1024 32) (hcat : ∀ i, 0 ≤ (cat i).toInt) (r : Fin 2048) (col : Fin 100) :
    agg100 (F := Ideal) cat (codeSqUpd cat) (ix2 r col) = Cert.Spec.catSq cat r col.val := by
  rw [agg100_apply cat hcat]
  unfold Cert.Spec.catSq Cert.Spec.catAgg
  refine Finset.sum_congr rfl fun t _ => ?_
  rw [codeSqUpd_apply]

/-! ## The per-row sums -/

/-- The host's sum of a `[2048, 1024]` array along its second axis, from the initial value zero, at row `r`: the
    sum over the 1024 columns of the array's row `r`. -/
theorem rowReduce_apply (x : FVec Ideal S2048x1024 .f32) (r : Fin 2048) :
    Host.reduceAdd x (constant (F := Ideal) S_ .f32 0x00000000#32) reducesTo_S2048x1024_S2048_d1 h_S_ (ix1 r)
      = ∑ j : Fin 1024, x (ix2 r j) := by
  have h : S2048x1024.Reduces [1] S2048 := by decide
  rw [hostReduceAdd_apply, Ideal.hostReduceAdd_single reducesTo_S2048x1024_S2048_d1 h, constant_apply,
    Ideal.ofBits_zero_f32, zero_add]
  refine Finset.sum_congr rfl fun k _ => congrArg x ?_
  funext c
  apply Fin.ext
  match c with
  | ⟨0, _⟩ => rfl
  | ⟨1, _⟩ => rfl

theorem rowSumR_eq (x : FVec Ideal S2048x1024 .f32) (r : Fin 2048) :
    rowSumR (F := Ideal) x (ix1 r) = Cert.Spec.rowSum x r := by
  unfold rowSumR Cert.Spec.rowSum
  exact rowReduce_apply x r
theorem rowSqR_eq (x : FVec Ideal S2048x1024 .f32) (r : Fin 2048) :
    rowSqR (F := Ideal) x (ix1 r) = Cert.Spec.rowSq x r := by
  unfold rowSqR Cert.Spec.rowSq
  rw [rowReduce_apply]
  rfl

end Cert.ReferenceIdeal.RefSide

end
-- ==== Proof.BridgeLeaves.lean ====
/-
  Where the two programs meet: each leaf of the kernel program — a column of its row statistics, a plane of its
  category statistics cut to the real categories — is, as a whole array, the reference's corresponding aggregate of
  the same input: both are the plain sums of `Spec`, entry by entry (the reference's under the hypothesis that no
  code is negative, where its negative-index wrap does nothing).
-/
import proofs.«431486_j85761906967230_1_alg».proof.Proof.KIValue0
import proofs.«431486_j85761906967230_1_alg».proof.Proof.KIValue1
import proofs.«431486_j85761906967230_1_alg».proof.Proof.KIValue2
import proofs.«431486_j85761906967230_1_alg».proof.Proof.KILeaves
import proofs.«431486_j85761906967230_1_alg».proof.Proof.RefLeaves

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.ReferenceIdeal.RefSide (rowSumR rowSqR agg200 agg100 onesUpd codeUpd codeSqUpd)

variable (V : (c : Dev nD) → (b : Ref sig .tc) → Buf (Elt Ideal) ((c : Thread nD τ).loc b))

/-! ## The stacked statistics at a literal plane

`Spec.catPlane k` chooses by `k` among the count, the sum and the sum of squares; at each of the three literal planes the
choice is made. -/

theorem catPlane_zero (cat : (⟨2, ![2048, 1024]⟩ : Shape).Idx → BitVec 32) (r : Fin 2048) (col : ℕ) :
    Cert.Spec.catPlane 0 cat r col = Cert.Spec.catCnt cat r col := if_pos rfl
theorem catPlane_one (cat : (⟨2, ![2048, 1024]⟩ : Shape).Idx → BitVec 32) (r : Fin 2048) (col : ℕ) :
    Cert.Spec.catPlane 1 cat r col = Cert.Spec.catSum cat r col := (if_neg Nat.one_ne_zero).trans (if_pos rfl)
theorem catPlane_two (cat : (⟨2, ![2048, 1024]⟩ : Shape).Idx → BitVec 32) (r : Fin 2048) (col : ℕ) :
    Cert.Spec.catPlane 2 cat r col = Cert.Spec.catSq cat r col :=
  (if_neg (by decide)).trans (if_neg (by decide))

/-! ## The leaves

Each proof reads both sides at an index written by its coordinates. The kernel's leaf there is an entry of the call's
output array, which is the plain sum of `Spec`; the reference's aggregate there is the same plain sum. -/

theorem leaf_rowSum (c : Dev nD) :
    kS (F := Ideal) ((dat0 (F := Ideal) V c).arrAt 1 cfg0.N : S2048x2.Idx → EReal)
      = rowSumR (F := Ideal) (V c main_arg0 : S2048x1024.Idx → EReal) := by
  funext i
  obtain ⟨r, rfl⟩ : ∃ r : Fin 2048, i = ix1 r := ⟨i 0, eq_ix1 i⟩
  exact ((kS_apply _ r).trans ((final0 V c r 0).trans (if_pos rfl))).trans
    (Cert.ReferenceIdeal.RefSide.rowSumR_eq _ r).symm

theorem leaf_rowSq (c : Dev nD) :
    kSq (F := Ideal) ((dat0 (F := Ideal) V c).arrAt 1 cfg0.N : S2048x2.Idx → EReal)
      = rowSqR (F := Ideal) (V c main_arg0 : S2048x1024.Idx → EReal) := by
  funext i
  obtain ⟨r, rfl⟩ : ∃ r : Fin 2048, i = ix1 r := ⟨i 0, eq_ix1 i⟩
  exact ((kSq_apply _ r).trans ((final0 V c r 1).trans (if_neg Nat.one_ne_zero))).trans
    (Cert.ReferenceIdeal.RefSide.rowSqR_eq _ r).symm

section Mcc
variable (c : Dev nD) (hcat : ∀ i : S2048x1024.Idx, 0 ≤ ((V c main_arg1 : S2048x1024.Idx → BitVec 32) i).toInt)
include hcat

theorem leaf_cnt200 :
    kPlane200 (F := Ideal) 0 ((dat1 (F := Ideal) V c).arrAt 1 cfg1.N : S2048x3x256.Idx → EReal)
      = agg200 (F := Ideal) (V c main_arg1 : S2048x1024.Idx → BitVec 32) onesUpd := by
  funext i
  obtain ⟨r, col, rfl⟩ : ∃ (r : Fin 2048) (col : Fin 200), i = ix2 r col := ⟨i 0, i 1, eq_ix2 i⟩
  exact ((kPlane200_apply 0 _ r col).trans ((final1 V c r 0 ⟨col.val, by omega⟩).trans (catPlane_zero _ r col.val))).trans
    (Cert.ReferenceIdeal.RefSide.cnt200_eq _ hcat r col).symm
theorem leaf_sum200 :
    kPlane200 (F := Ideal) 1 ((dat1 (F := Ideal) V c).arrAt 1 cfg1.N : S2048x3x256.Idx → EReal)
      = agg200 (F := Ideal) (V c main_arg1 : S2048x1024.Idx → BitVec 32) (codeUpd (V c main_arg1 : S2048x1024.Idx → BitVec 32)) := by
  funext i
  obtain ⟨r, col, rfl⟩ : ∃ (r : Fin 2048) (col : Fin 200), i = ix2 r col := ⟨i 0, i 1, eq_ix2 i⟩
  exact ((kPlane200_apply 1 _ r col).trans ((final1 V c r 1 ⟨col.val, by omega⟩).trans (catPlane_one _ r col.val))).trans
    (Cert.ReferenceIdeal.RefSide.sum200_eq _ hcat r col).symm
theorem leaf_sq200 :
    kPlane200 (F := Ideal) 2 ((dat1 (F := Ideal) V c).arrAt 1 cfg1.N : S2048x3x256.Idx → EReal)
      = agg200 (F := Ideal) (V c main_arg1 : S2048x1024.Idx → BitVec 32) (codeSqUpd (V c main_arg1 : S2048x1024.Idx → BitVec 32)) := by
  funext i
  obtain ⟨r, col, rfl⟩ : ∃ (r : Fin 2048) (col : Fin 200), i = ix2 r col := ⟨i 0, i 1, eq_ix2 i⟩
  exact ((kPlane200_apply 2 _ r col).trans ((final1 V c r 2 ⟨col.val, by omega⟩).trans (catPlane_two _ r col.val))).trans
    (Cert.ReferenceIdeal.RefSide.sq200_eq _ hcat r col).symm
end Mcc

section Tr
variable (c : Dev nD) (hcat : ∀ i : S2048x1024.Idx, 0 ≤ ((V c main_arg2 : S2048x1024.Idx → BitVec 32) i).toInt)
include hcat

theorem leaf_cnt100 :
    kPlane100 (F := Ideal) 0 ((dat2 (F := Ideal) V c).arrAt 1 cfg2.N : S2048x3x128.Idx → EReal)
      = agg100 (F := Ideal) (V c main_arg2 : S2048x1024.Idx → BitVec 32) onesUpd := by
  funext i
  obtain ⟨r, col, rfl⟩ : ∃ (r : Fin 2048) (col : Fin 100), i = ix2 r col := ⟨i 0, i 1, eq_ix2 i⟩
  exact ((kPlane100_apply 0 _ r col).trans ((final2 V c r 0 ⟨col.val, by omega⟩).trans (catPlane_zero _ r col.val))).trans
    (Cert.ReferenceIdeal.RefSide.cnt100_eq _ hcat r col).symm
theorem leaf_sum100 :
    kPlane100 (F := Ideal) 1 ((dat2 (F := Ideal) V c).arrAt 1 cfg2.N : S2048x3x128.Idx → EReal)
      = agg100 (F := Ideal) (V c main_arg2 : S2048x1024.Idx → BitVec 32) (codeUpd (V c main_arg2 : S2048x1024.Idx → BitVec 32)) := by
  funext i
  obtain ⟨r, col, rfl⟩ : ∃ (r : Fin 2048) (col : Fin 100), i = ix2 r col := ⟨i 0, i 1, eq_ix2 i⟩
  exact ((kPlane100_apply 1 _ r col).trans ((final2 V c r 1 ⟨col.val, by omega⟩).trans (catPlane_one _ r col.val))).trans
    (Cert.ReferenceIdeal.RefSide.sum100_eq _ hcat r col).symm
theorem leaf_sq100 :
    kPlane100 (F := Ideal) 2 ((dat2 (F := Ideal) V c).arrAt 1 cfg2.N : S2048x3x128.Idx → EReal)
      = agg100 (F := Ideal) (V c main_arg2 : S2048x1024.Idx → BitVec 32) (codeSqUpd (V c main_arg2 : S2048x1024.Idx → BitVec 32)) := by
  funext i
  obtain ⟨r, col, rfl⟩ : ∃ (r : Fin 2048) (col : Fin 100), i = ix2 r col := ⟨i 0, i 1, eq_ix2 i⟩
  exact ((kPlane100_apply 2 _ r col).trans ((final2 V c r 2 ⟨col.val, by omega⟩).trans (catPlane_two _ r col.val))).trans
    (Cert.ReferenceIdeal.RefSide.sq100_eq _ hcat r col).symm
end Tr

end Cert.KernelIdeal.Hand

end
-- ==== Proof.KIEntry.lean ====
/-
  Each call finds its input array as launched: nothing before it writes an argument.
-/
import proofs.«431486_j85761906967230_1_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Call 0 reads `amount` as launched. -/
theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

/-- The length vector is read as launched by the first host stretch (which writes its float form). -/
theorem W0_main_arg3 (c : Dev nD) : W0 m ρ c (Proc.devRef .tc main_arg3) = m ((c : Thread nD τ).loc main_arg3) := rfl

/-- Call 1 reads `mcc_code` as launched. -/
theorem V3_main_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-- Call 2 reads `tr_type` as launched. -/
theorem V4_main_arg2 (c : Dev nD) : V4 m ρ c main_arg2 = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

end Cert.KernelIdeal.Hand

end
-- ==== Proof.PreDecode.lean ====
/-
  What the precondition says of the two code arrays: every code, read as a signed number, is at least zero.
-/
import proofs.«431486_j85761906967230_1_alg».proof.Defs
import Idealize.ShloMosaic.Lib.ReduceAll
import Idealize.ShloMosaic.Lib.StableHlo.Predicate
import Idealize.ShloMosaic.Lib.ValueIdx

set_option maxRecDepth 16384

noncomputable section

namespace Cert.KernelIdeal.Hand

open Cert.KernelIdeal
open Idealize.ShloMosaic Idealize.ShloMosaic.TcCoe Idealize.ShloMosaic.ValueIdx

variable [hPre_finite_inputs : Cert.Pre_finite_inputs.Facts]

/-- A scalar result has exactly one index: an index of a rank-0 shape has no coordinate to differ in. -/
instance subsingleton_scalarIdx : Subsingleton Cert.Pre_finite_inputs.S_.Idx := ⟨fun a b => funext fun d => d.elim0⟩

/-- One conjunct of the predicate, read back: the array `x` is compared entry by entry, signed, with the zero word spread
    over the array's shape, and the comparisons are combined by `and` over both axes starting from 1. If the result is 1
    then every comparison was 1, and a signed "at least zero" that came out 1 says the entry's signed value is at least
    the zero word's, which is 0. -/
theorem all_sge_zero (x : IVec Cert.Pre_finite_inputs.S2048x1024 32)
    (e : Host.reduce IntOp.andi
        (cmpi .sge x (broadcastInDim Cert.Pre_finite_inputs.S2048x1024 ![] Cert.Pre_finite_inputs.Facts.bcast_S_S2048x1024
          (constantI Cert.Pre_finite_inputs.S_ 32 0#32)))
        (constantI Cert.Pre_finite_inputs.S_ 1 1#1)
        Cert.Pre_finite_inputs.Facts.reducesTo_S2048x1024_S_d0_1 Cert.Pre_finite_inputs.Facts.h_S_ ix0 = 1#1)
    (i : Cert.Pre_finite_inputs.S2048x1024.Idx) : 0 ≤ (x i).toInt := by
  have hentry := Host.reduce_andi_all _ _ _ _ ix0 e i
  have hword : IntOp.cmpi .sge (x i) 0#32 = 1#1 := hentry
  have hle := IntOp.cmpi_sge.1 hword
  rwa [show (0#32 : BitVec 32).toInt = 0 from by decide] at hle

/-- Under the precondition every entry of `mcc_code` and of `tr_type` is a non-negative signed number. -/
theorem codes_nonneg (m : (ℓ : Loc nD τ sig) → Buf (Elt Ideal) ℓ) (h : Cert.Pre_KernelIdeal m) (c : Dev nD) :
    (∀ i : S2048x1024.Idx, 0 ≤ ((m ((c.tc : Thread nD τ).loc main_arg1) : S2048x1024.Idx → BitVec 32) i).toInt)
    ∧ (∀ i : S2048x1024.Idx, 0 ≤ ((m ((c.tc : Thread nD τ).loc main_arg2) : S2048x1024.Idx → BitVec 32) i).toInt) := by
  -- the predicate's one entry, as the printed chain of operations
  have h0 := congrFun (h c) ix0
  dsimp only [Cert.Pre_finite_inputs.fn] at h0
  -- it is an `and` of three results, nested to the left: (every entry of the first array is below +∞ in absolute value
  -- ∧ every entry of the second array is ≥ 0) ∧ every entry of the third array is ≥ 0; so each of the three is 1
  obtain ⟨h01, h2⟩ := IntOp.andi_eq_one.1 h0
  obtain ⟨-, h1⟩ := IntOp.andi_eq_one.1 h01
  exact ⟨all_sge_zero _ h1, all_sge_zero _ h2⟩

end Cert.KernelIdeal.Hand

end
-- ==== Proof.Bridge.lean ====
/-
  The two results are one array. The kernel program's result buffer ends at the feature table of its own leaves
  (`out_eq`), the reference's composed term is the feature table of its aggregates (`refOut_eq`); the memories
  agree on the four arguments, every call finds its input as launched, and leaf by leaf the two are the same array
  (`BridgeLeaves`: the reference's negative-index wrap does nothing since the precondition makes every code
  non-negative). Equal leaves give equal feature tables.
-/
import proofs.«431486_j85761906967230_1_alg».proof.Proof.KITail
import proofs.«431486_j85761906967230_1_alg».proof.Proof.RefTail
import proofs.«431486_j85761906967230_1_alg».proof.Proof.BridgeLeaves
import proofs.«431486_j85761906967230_1_alg».proof.Proof.KIEntry
import proofs.«431486_j85761906967230_1_alg».proof.Proof.PreDecode

set_option maxRecDepth 16384

noncomputable section

namespace Cert.KernelIdeal.Hand

open Cert.KernelIdeal Cert.KernelIdeal.Gen
open Idealize.ShloMosaic Idealize.ShloMosaic.TcCoe Idealize.ShloMosaic.StableHlo
open Cert.ReferenceIdeal.RefSide (rowSumR rowSqR agg200 agg100 onesUpd codeUpd codeSqUpd refOut_eq)

/-- Equal leaves give equal feature tables. -/
theorem features_congr {F : FTy → Type} [FloatOps F]
    {sl sl' s s' sq sq' : FVec F S2048 .f32} {c2 c2' m2 m2' q2 q2' d2 d2' : FVec F S2048x200 .f32}
    {c1 c1' m1 m1' q1 q1' d1 d1' : FVec F S2048x100 .f32}
    (h0 : sl = sl') (h1 : s = s') (h2 : sq = sq') (h3 : c2 = c2') (h4 : m2 = m2') (h5 : q2 = q2') (h6 : d2 = d2')
    (h7 : c1 = c1') (h8 : m1 = m1') (h9 : q1 = q1') (h10 : d1 = d1') :
    features sl s sq c2 m2 q2 d2 c1 m1 q1 d1 = features sl' s' sq' c2' m2' q2' d2' c1' m1' q1' d1' := by
  subst h0 h1 h2 h3 h4 h5 h6 h7 h8 h9 h10
  rfl

variable [hPre_finite_inputs : Cert.Pre_finite_inputs.Facts]

/-- From memories agreeing on the arguments, under the precondition: the reference's composed result term is the
    array the kernel program's result buffer ends at. -/
theorem result_eq (m : (ℓ : Loc nD τ sig) → Buf (Elt Ideal) ℓ) (ρ : Dev nD → PrngReg) (hpre : Cert.Pre_KernelIdeal m)
    (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3))
    (c : Dev nD) :
    Cert.ReferenceIdeal.ValueP.res_main_v333 (F := Ideal) (launchContents m' c)
      = W6 (F := Ideal) m ρ c (Proc.devRef .tc main_v125) := by
  obtain ⟨g0, g1, g2, g3⟩ := hagree c
  obtain ⟨hc1, hc2⟩ := codes_nonneg m hpre c
  -- each call finds its input as launched, so the precondition speaks of what the calls read
  have hcat1 : ∀ i : S2048x1024.Idx, 0 ≤ ((V3 (F := Ideal) m ρ c main_arg1 : S2048x1024.Idx → BitVec 32) i).toInt := by
    rw [V3_main_arg1]; exact hc1
  have hcat2 : ∀ i : S2048x1024.Idx, 0 ≤ ((V4 (F := Ideal) m ρ c main_arg2 : S2048x1024.Idx → BitVec 32) i).toInt := by
    rw [V4_main_arg2]; exact hc2
  -- the reference reads the same four arrays
  have e0 : launchContents m' c (Proc.devRef .tc Cert.ReferenceIdeal.main_arg0) = V1 (F := Ideal) m ρ c main_arg0 :=
    g0.trans (V1_main_arg0 m ρ c).symm
  have e1 : launchContents m' c (Proc.devRef .tc Cert.ReferenceIdeal.main_arg1) = V3 (F := Ideal) m ρ c main_arg1 :=
    g1.trans (V3_main_arg1 m ρ c).symm
  have e2 : launchContents m' c (Proc.devRef .tc Cert.ReferenceIdeal.main_arg2) = V4 (F := Ideal) m ρ c main_arg2 :=
    g2.trans (V4_main_arg2 m ρ c).symm
  have e3 : launchContents m' c (Proc.devRef .tc Cert.ReferenceIdeal.main_arg3) = m ((c.tc : Thread nD τ).loc main_arg3) := g3
  refine (refOut_eq (F := Ideal) (launchContents m' c)).trans (Eq.trans ?_ (out_eq (F := Ideal) m ρ c).symm)
  rw [e0, e1, e2, e3]
  exact features_congr rfl (leaf_rowSum (V1 m ρ) c).symm (leaf_rowSq (V1 m ρ) c).symm
    (leaf_cnt200 (V3 m ρ) c hcat1).symm (leaf_sum200 (V3 m ρ) c hcat1).symm (leaf_sq200 (V3 m ρ) c hcat1).symm
    (leaf_cnt200 (V3 m ρ) c hcat1).symm
    (leaf_cnt100 (V4 m ρ) c hcat2).symm (leaf_sum100 (V4 m ρ) c hcat2).symm (leaf_sq100 (V4 m ρ) c hcat2).symm
    (leaf_cnt100 (V4 m ρ) c hcat2).symm

end Cert.KernelIdeal.Hand

end
-- ==== Proof.lean ====
/-
  The certificate: the kernel program (three pallas_calls — per-row sum and sum of squares of `amount`, and per-row,
  per-category count / sum / sum of squares of `mcc_code` and of `tr_type` by a one-hot compare accumulated over
  token tiles — followed by the normalising arithmetic on the host) against the jnp reference (the same statistics by
  row sums and accumulating scatters, then the same arithmetic), over the extended reals, for finite `amount` and
  non-negative category codes.

  Both kernel programs (as printed, and idealized) run to the end, fault nowhere and leave their arguments alone:
  the run is followed segment by segment (host stretch, call, host stretch, two calls, host stretch), each call's
  body leaving in its output buffer the value named in `KIBlocks` / `KBBlocks`. The reference's run is its generated
  run (in a patched copy). At the ideal instance each call's output array is a table of plain sums (`Spec`); so is
  each of the reference's aggregates, a negative-index wrap doing nothing on non-negative codes; and the host
  arithmetic after them is one and the same function of those tables (`TailFns`) in both programs.
-/
import proofs.«431486_j85761906967230_1_alg».proof.Defs
import proofs.«431486_j85761906967230_1_alg».proof.Proof.Gen.Kernel
import proofs.«431486_j85761906967230_1_alg».proof.Proof.Gen.KernelIdeal
import proofs.«431486_j85761906967230_1_alg».proof.Proof.Gen.ReferenceIdeal
import proofs.«431486_j85761906967230_1_alg».proof.Proof.Gen.Pre_finite_inputs
import proofs.«431486_j85761906967230_1_alg».proof.Proof.KBRun
import proofs.«431486_j85761906967230_1_alg».proof.Proof.KIRun
import proofs.«431486_j85761906967230_1_alg».proof.Proof.RefRunP
import proofs.«431486_j85761906967230_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs, faults nowhere, and leaves its four arguments as launched. -/
theorem frame_k : @Cert.frame_Kernel Cert.Kernel.Gen.facts Cert.Pre_finite_inputs.Gen.facts :=
  fun m ρ _ => Cert.Kernel.Hand.frame (F := Bits) m ρ

/-- So does its idealization. -/
theorem frame_ki : @Cert.frame_KernelIdeal Cert.KernelIdeal.Gen.facts Cert.Pre_finite_inputs.Gen.facts :=
  fun m ρ _ => Cert.KernelIdeal.Hand.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- From memories agreeing on the arguments both idealized programs end with the same feature table: the kernel
    program's result is what its last boundary holds at the result buffer, and the reference's composed term is that
    same array (`Bridge`). -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W6 (F := Ideal) m ρ c (Proc.devRef .tc Cert.KernelIdeal.main_v125), ?_, ?_⟩
  · refine (θ_run Cert.KernelIdeal.defs _ _).mono (fun r h c => ⟨?_, ?_, ?_, ?_, ?_⟩) (Cert.KernelIdeal.Hand.run_all (F := Ideal) m ρ)
    · exact h c _ (Cert.KernelIdeal.Hand.mem_uc Cert.KernelIdeal.main_v125 (by decide))
    · exact (h c _ (Cert.KernelIdeal.Hand.mem_uc Cert.KernelIdeal.main_arg0 (by decide))).trans (Cert.KernelIdeal.Hand.W6_main_arg0 m ρ c)
    · exact (h c _ (Cert.KernelIdeal.Hand.mem_uc Cert.KernelIdeal.main_arg1 (by decide))).trans (Cert.KernelIdeal.Hand.W6_main_arg1 m ρ c)
    · exact (h c _ (Cert.KernelIdeal.Hand.mem_uc Cert.KernelIdeal.main_arg2 (by decide))).trans (Cert.KernelIdeal.Hand.W6_main_arg2 m ρ c)
    · exact (h c _ (Cert.KernelIdeal.Hand.mem_uc Cert.KernelIdeal.main_arg3 (by decide))).trans (Cert.KernelIdeal.Hand.W6_main_arg3 m ρ c)
  · refine (θ_run Cert.ReferenceIdeal.defs _ _).mono (fun r h c => ⟨(h c).1.trans ?_, (h c).2⟩)
      (Cert.ReferenceIdeal.ValueP.run (F := Ideal) m' ρ')
    exact Cert.KernelIdeal.Hand.result_eq (hPre_finite_inputs := Cert.Pre_finite_inputs.Gen.facts) m ρ hpre m' hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
